-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S262144x1 : Shape := ⟨2, ![262144, 1]⟩
abbrev S185x256 : Shape := ⟨2, ![185, 256]⟩
abbrev S185x128 : Shape := ⟨2, ![185, 128]⟩
abbrev S256x1 : Shape := ⟨2, ![256, 1]⟩
abbrev S16x256 : Shape := ⟨2, ![16, 256]⟩
abbrev S16 : Shape := ⟨1, ![16]⟩
abbrev S16x128 : Shape := ⟨2, ![16, 128]⟩
abbrev S1x16 : Shape := ⟨2, ![1, 16]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S185x256 : S_.BroadcastsInDim S185x256 (![] : Fin 0 → Fin S185x256.rank)
  reducesTo_S185x256_S_d0_1 : S185x256.ReducesTo [0, 1] S_
  bcast_S_S185x128 : S_.BroadcastsInDim S185x128 (![] : Fin 0 → Fin S185x128.rank)
  reducesTo_S185x128_S_d0_1 : S185x128.ReducesTo [0, 1] S_
  bcast_S_S256x1 : S_.BroadcastsInDim S256x1 (![] : Fin 0 → Fin S256x1.rank)
  reducesTo_S256x1_S_d0_1 : S256x1.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S1x16 : S_.BroadcastsInDim S1x16 (![] : Fin 0 → Fin S1x16.rank)
  reducesTo_S1x16_S_d0_1 : S1x16.ReducesTo [0, 1] S_

variable [Facts]

def fn_part5 {F : FTy → Type} [FloatOps F] (main_arg0 : IVec S262144x32 32) (main_v83 : IVec S_ 1) (main_v84 : FVec F S1x16 .f32) (main_cst_32 : FVec F S_ .f32) : IVec S_ 1 :=
  let main_v85 : FVec F S1x16 .f32 := broadcastInDim S1x16 ![] bcast_S_S1x16 main_cst_32
  let main_v86 : IVec S1x16 1 := cmpf .olt main_v84 main_v85
  let main_c_33 : IVec S_ 1 := constantI S_ 1 1#1
  let main_v87 : IVec S_ 1 := (fun x v => Host.reduce IntOp.andi x v reducesTo_S1x16_S_d0_1 h_S_) main_v86 main_c_33
  let main_v88 : IVec S_ 1 := andi main_v83 main_v87
  let main_c_34 : IVec S_ 32 := constantI S_ 32 0#32
  let main_v89 : IVec S262144x32 32 := broadcastInDim S262144x32 ![] bcast_S_S262144x32 main_c_34
  let main_v90 : IVec S262144x32 1 := cmpi .sge main_arg0 main_v89
  let main_c_35 : IVec S_ 1 := constantI S_ 1 1#1
  let main_v91 : IVec S_ 1 := (fun x v => Host.reduce IntOp.andi x v reducesTo_S262144x32_S_d0_1 h_S_) main_v90 main_c_35
  let main_v92 : IVec S_ 1 := andi main_v88 main_v91
  main_v92

def fn_part4 {F : FTy → Type} [FloatOps F] (main_arg0 : IVec S262144x32 32) (main_arg15 : FVec F S16x256 .f32) (main_arg16 : FVec F S16x128 .f32) (main_arg17 : FVec F S1x16 .f32) (main_arg18 : FVec F S1x16 .f32) (main_v63 : IVec S_ 1) (main_v67 : IVec S_ 1) : IVec S_ 1 :=
  let main_v68 : IVec S_ 1 := andi main_v63 main_v67
  let main_v69 : FVec F S16x256 .f32 := Host.absf main_arg15
  let main_cst_26 : FVec F S_ .f32 := constant S_ .f32 0x7F800000#32
  let main_v70 : FVec F S16x256 .f32 := broadcastInDim S16x256 ![] bcast_S_S16x256 main_cst_26
  let main_v71 : IVec S16x256 1 := cmpf .olt main_v69 main_v70
  let main_c_27 : IVec S_ 1 := constantI S_ 1 1#1
  let main_v72 : IVec S_ 1 := (fun x v => Host.reduce IntOp.andi x v reducesTo_S16x256_S_d0_1 h_S_) main_v71 main_c_27
  let main_v73 : IVec S_ 1 := andi main_v68 main_v72
  let main_v74 : FVec F S16x128 .f32 := Host.absf main_arg16
  let main_cst_28 : FVec F S_ .f32 := constant S_ .f32 0x7F800000#32
  let main_v75 : FVec F S16x128 .f32 := broadcastInDim S16x128 ![] bcast_S_S16x128 main_cst_28
  let main_v76 : IVec S16x128 1 := cmpf .olt main_v74 main_v75
  let main_c_29 : IVec S_ 1 := constantI S_ 1 1#1
  let main_v77 : IVec S_ 1 := (fun x v => Host.reduce IntOp.andi x v reducesTo_S16x128_S_d0_1 h_S_) main_v76 main_c_29
  let main_v78 : IVec S_ 1 := andi main_v73 main_v77
  let main_v79 : FVec F S1x16 .f32 := Host.absf main_arg17
  let main_cst_30 : FVec F S_ .f32 := constant S_ .f32 0x7F800000#32
  let main_v80 : FVec F S1x16 .f32 := broadcastInDim S1x16 ![] bcast_S_S1x16 main_cst_30
  let main_v81 : IVec S1x16 1 := cmpf .olt main_v79 main_v80
  let main_c_31 : IVec S_ 1 := constantI S_ 1 1#1
  let main_v82 : IVec S_ 1 := (fun x v => Host.reduce IntOp.andi x v reducesTo_S1x16_S_d0_1 h_S_) main_v81 main_c_31
  let main_v83 : IVec S_ 1 := andi main_v78 main_v82
  let main_v84 : FVec F S1x16 .f32 := Host.absf main_arg18
  let main_cst_32 : FVec F S_ .f32 := constant S_ .f32 0x7F800000#32
  fn_part5 (F := F) main_arg0 main_v83 main_v84 main_cst_32

def fn_part3 {F : FTy → Type} [FloatOps F] (main_arg0 : IVec S262144x32 32) (main_arg12 : FVec F S16x128 .f32) (main_arg13 : FVec F S16x128 .f32) (main_arg14 : FVec F S16x256 .f32) (main_arg15 : FVec F S16x256 .f32) (main_arg16 : FVec F S16x128 .f32) (main_arg17 : FVec F S1x16 .f32) (main_arg18 : FVec F S1x16 .f32) (main_v48 : IVec S_ 1) (main_v49 : FVec F S16x256 .f32) (main_v50 : FVec F S16x256 .f32) : IVec S_ 1 :=
  let main_v51 : IVec S16x256 1 := cmpf .olt main_v49 main_v50
  let main_c_19 : IVec S_ 1 := constantI S_ 1 1#1
  let main_v52 : IVec S_ 1 := (fun x v => Host.reduce IntOp.andi x v reducesTo_S16x256_S_d0_1 h_S_) main_v51 main_c_19
  let main_v53 : IVec S_ 1 := andi main_v48 main_v52
  let main_v54 : FVec F S16x128 .f32 := Host.absf main_arg12
  let main_cst_20 : FVec F S_ .f32 := constant S_ .f32 0x7F800000#32
  let main_v55 : FVec F S16x128 .f32 := broadcastInDim S16x128 ![] bcast_S_S16x128 main_cst_20
  let main_v56 : IVec S16x128 1 := cmpf .olt main_v54 main_v55
  let main_c_21 : IVec S_ 1 := constantI S_ 1 1#1
  let main_v57 : IVec S_ 1 := (fun x v => Host.reduce IntOp.andi x v reducesTo_S16x128_S_d0_1 h_S_) main_v56 main_c_21
  let main_v58 : IVec S_ 1 := andi main_v53 main_v57
  let main_v59 : FVec F S16x128 .f32 := Host.absf main_arg13
  let main_cst_22 : FVec F S_ .f32 := constant S_ .f32 0x7F800000#32
  let main_v60 : FVec F S16x128 .f32 := broadcastInDim S16x128 ![] bcast_S_S16x128 main_cst_22
  let main_v61 : IVec S16x128 1 := cmpf .olt main_v59 main_v60
  let main_c_23 : IVec S_ 1 := constantI S_ 1 1#1
  let main_v62 : IVec S_ 1 := (fun x v => Host.reduce IntOp.andi x v reducesTo_S16x128_S_d0_1 h_S_) main_v61 main_c_23
  let main_v63 : IVec S_ 1 := andi main_v58 main_v62
  let main_v64 : FVec F S16x256 .f32 := Host.absf main_arg14
  let main_cst_24 : FVec F S_ .f32 := constant S_ .f32 0x7F800000#32
  let main_v65 : FVec F S16x256 .f32 := broadcastInDim S16x256 ![] bcast_S_S16x256 main_cst_24
  let main_v66 : IVec S16x256 1 := cmpf .olt main_v64 main_v65
  let main_c_25 : IVec S_ 1 := constantI S_ 1 1#1
  let main_v67 : IVec S_ 1 := (fun x v => Host.reduce IntOp.andi x v reducesTo_S16x256_S_d0_1 h_S_) main_v66 main_c_25
  fn_part4 (F := F) main_arg0 main_arg15 main_arg16 main_arg17 main_arg18 main_v63 main_v67

def fn_part2 {F : FTy → Type} [FloatOps F] (main_arg0 : IVec S262144x32 32) (main_arg8 : FVec F S256x1 .f32) (main_arg9 : FVec F S16x256 .f32) (main_arg10 : FVec F S16 .f32) (main_arg11 : FVec F S16x256 .f32) (main_arg12 : FVec F S16x128 .f32) (main_arg13 : FVec F S16x128 .f32) (main_arg14 : FVec F S16x256 .f32) (main_arg15 : FVec F S16x256 .f32) (main_arg16 : FVec F S16x128 .f32) (main_arg17 : FVec F S1x16 .f32) (main_arg18 : FVec F S1x16 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S16x256 .f32 := Host.absf main_arg9
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x256 .f32 := Host.absf main_arg11
  let main_cst_18 : FVec F S_ .f32 := constant S_ .f32 0x7F800000#32
  let main_v50 : FVec F S16x256 .f32 := broadcastInDim S16x256 ![] bcast_S_S16x256 main_cst_18
  fn_part3 (F := F) main_arg0 main_arg12 main_arg13 main_arg14 main_arg15 main_arg16 main_arg17 main_arg18 main_v48 main_v49 main_v50

def fn_part1 {F : FTy → Type} [FloatOps F] (main_arg0 : IVec S262144x32 32) (main_arg5 : FVec F S185x256 .f32) (main_arg6 : FVec F S185x128 .f32) (main_arg7 : FVec F S185x128 .f32) (main_arg8 : FVec F S256x1 .f32) (main_arg9 : FVec F S16x256 .f32) (main_arg10 : FVec F S16 .f32) (main_arg11 : FVec F S16x256 .f32) (main_arg12 : FVec F S16x128 .f32) (main_arg13 : FVec F S16x128 .f32) (main_arg14 : FVec F S16x256 .f32) (main_arg15 : FVec F S16x256 .f32) (main_arg16 : FVec F S16x128 .f32) (main_arg17 : FVec F S1x16 .f32) (main_arg18 : FVec F S1x16 .f32) (main_v13 : IVec S_ 1) (main_v16 : IVec S185x256 1) : IVec S_ 1 :=
  let main_c_5 : IVec S_ 1 := constantI S_ 1 1#1
  let main_v17 : IVec S_ 1 := (fun x v => Host.reduce IntOp.andi x v reducesTo_S185x256_S_d0_1 h_S_) main_v16 main_c_5
  let main_v18 : IVec S_ 1 := andi main_v13 main_v17
  let main_v19 : FVec F S185x256 .f32 := Host.absf main_arg5
  let main_cst_6 : FVec F S_ .f32 := constant S_ .f32 0x7F800000#32
  let main_v20 : FVec F S185x256 .f32 := broadcastInDim S185x256 ![] bcast_S_S185x256 main_cst_6
  let main_v21 : IVec S185x256 1 := cmpf .olt main_v19 main_v20
  let main_c_7 : IVec S_ 1 := constantI S_ 1 1#1
  let main_v22 : IVec S_ 1 := (fun x v => Host.reduce IntOp.andi x v reducesTo_S185x256_S_d0_1 h_S_) main_v21 main_c_7
  let main_v23 : IVec S_ 1 := andi main_v18 main_v22
  let main_v24 : FVec F S185x128 .f32 := Host.absf main_arg6
  let main_cst_8 : FVec F S_ .f32 := constant S_ .f32 0x7F800000#32
  let main_v25 : FVec F S185x128 .f32 := broadcastInDim S185x128 ![] bcast_S_S185x128 main_cst_8
  let main_v26 : IVec S185x128 1 := cmpf .olt main_v24 main_v25
  let main_c_9 : IVec S_ 1 := constantI S_ 1 1#1
  let main_v27 : IVec S_ 1 := (fun x v => Host.reduce IntOp.andi x v reducesTo_S185x128_S_d0_1 h_S_) main_v26 main_c_9
  let main_v28 : IVec S_ 1 := andi main_v23 main_v27
  let main_v29 : FVec F S185x128 .f32 := Host.absf main_arg7
  let main_cst_10 : FVec F S_ .f32 := constant S_ .f32 0x7F800000#32
  let main_v30 : FVec F S185x128 .f32 := broadcastInDim S185x128 ![] bcast_S_S185x128 main_cst_10
  let main_v31 : IVec S185x128 1 := cmpf .olt main_v29 main_v30
  let main_c_11 : IVec S_ 1 := constantI S_ 1 1#1
  let main_v32 : IVec S_ 1 := (fun x v => Host.reduce IntOp.andi x v reducesTo_S185x128_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_v33

def fn {F : FTy → Type} [FloatOps F] (main_arg0 : IVec S262144x32 32) (main_arg1 : FVec F S262144x32 .f32) (main_arg2 : FVec F S262144x32 .f32) (main_arg3 : FVec F S262144x1 .f32) (main_arg4 : FVec F S185x256 .f32) (main_arg5 : FVec F S185x256 .f32) (main_arg6 : FVec F S185x128 .f32) (main_arg7 : FVec F S185x128 .f32) (main_arg8 : FVec F S256x1 .f32) (main_arg9 : FVec F S16x256 .f32) (main_arg10 : FVec F S16 .f32) (main_arg11 : FVec F S16x256 .f32) (main_arg12 : FVec F S16x128 .f32) (main_arg13 : FVec F S16x128 .f32) (main_arg14 : FVec F S16x256 .f32) (main_arg15 : FVec F S16x256 .f32) (main_arg16 : FVec F S16x128 .f32) (main_arg17 : FVec F S1x16 .f32) (main_arg18 : FVec F S1x16 .f32) : IVec S_ 1 :=
  let main_v0 : FVec F S262144x32 .f32 := Host.absf main_arg1
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S262144x32 .f32 := Host.absf main_arg2
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S262144x1 .f32 := Host.absf main_arg3
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S185x256 .f32 := Host.absf main_arg4
  let main_cst_4 : FVec F S_ .f32 := constant S_ .f32 0x7F800000#32
  let main_v15 : FVec F S185x256 .f32 := broadcastInDim S185x256 ![] bcast_S_S185x256 main_cst_4
  let main_v16 : IVec S185x256 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_v13 main_v16
-- ==== Kernel.lean ====
abbrev S262144x32 : Shape := ⟨2, ![262144, 32]⟩
abbrev S262144x1 : Shape := ⟨2, ![262144, 1]⟩
abbrev S185x256 : Shape := ⟨2, ![185, 256]⟩
abbrev S185x128 : Shape := ⟨2, ![185, 128]⟩
abbrev S256x1 : Shape := ⟨2, ![256, 1]⟩
abbrev S16x256 : Shape := ⟨2, ![16, 256]⟩
abbrev S16 : Shape := ⟨1, ![16]⟩
abbrev S16x128 : Shape := ⟨2, ![16, 128]⟩
abbrev S1x16 : Shape := ⟨2, ![1, 16]⟩
abbrev S_ : Shape := ⟨0, ![]⟩
abbrev S256x256 : Shape := ⟨2, ![256, 256]⟩
abbrev S256x128 : Shape := ⟨2, ![256, 128]⟩
abbrev S1x256 : Shape := ⟨2, ![1, 256]⟩
abbrev S256x16 : Shape := ⟨2, ![256, 16]⟩
abbrev S128x16 : Shape := ⟨2, ![128, 16]⟩
abbrev S16x1 : Shape := ⟨2, ![16, 1]⟩
abbrev S1x262144 : Shape := ⟨2, ![1, 262144]⟩
abbrev S1024x32 : Shape := ⟨2, ![1024, 32]⟩
abbrev S1024x1 : Shape := ⟨2, ![1024, 1]⟩
abbrev S1x1024 : Shape := ⟨2, ![1, 1024]⟩
abbrev S1024x256 : Shape := ⟨2, ![1024, 256]⟩
abbrev S1024x128 : Shape := ⟨2, ![1024, 128]⟩
abbrev S1024x16 : Shape := ⟨2, ![1024, 16]⟩
abbrev S262144 : Shape := ⟨1, ![262144]⟩

abbrev nBuf : Space → Nat
  | .hbm => 44
  | .vmem => 29
  | .smem => 0
  | _ => 0

abbrev bufTy : (tb : Table) → Fin (tcTables nBuf tb) → BufTy
  | .hbm, ⟨0, _⟩ => ⟨S262144x32, .i32⟩
  | .hbm, ⟨1, _⟩ => ⟨S262144x32, .f32⟩
  | .hbm, ⟨2, _⟩ => ⟨S262144x32, .f32⟩
  | .hbm, ⟨3, _⟩ => ⟨S262144x1, .f32⟩
  | .hbm, ⟨4, _⟩ => ⟨S185x256, .f32⟩
  | .hbm, ⟨5, _⟩ => ⟨S185x256, .f32⟩
  | .hbm, ⟨6, _⟩ => ⟨S185x128, .f32⟩
  | .hbm, ⟨7, _⟩ => ⟨S185x128, .f32⟩
  | .hbm, ⟨8, _⟩ => ⟨S256x1, .f32⟩
  | .hbm, ⟨9, _⟩ => ⟨S16x256, .f32⟩
  | .hbm, ⟨10, _⟩ => ⟨S16, .f32⟩
  | .hbm, ⟨11, _⟩ => ⟨S16x256, .f32⟩
  | .hbm, ⟨12, _⟩ => ⟨S16x128, .f32⟩
  | .hbm, ⟨13, _⟩ => ⟨S16x128, .f32⟩
  | .hbm, ⟨14, _⟩ => ⟨S16x256, .f32⟩
  | .hbm, ⟨15, _⟩ => ⟨S16x256, .f32⟩
  | .hbm, ⟨16, _⟩ => ⟨S16x128, .f32⟩
  | .hbm, ⟨17, _⟩ => ⟨S1x16, .f32⟩
  | .hbm, ⟨18, _⟩ => ⟨S1x16, .f32⟩
  | .hbm, ⟨19, _⟩ => ⟨S_, .i32⟩
  | .hbm, ⟨20, _⟩ => ⟨S_, .f32⟩
  | .hbm, ⟨21, _⟩ => ⟨S256x256, .f32⟩
  | .hbm, ⟨22, _⟩ => ⟨S_, .i32⟩
  | .hbm, ⟨23, _⟩ => ⟨S_, .f32⟩
  | .hbm, ⟨24, _⟩ => ⟨S256x256, .f32⟩
  | .hbm, ⟨25, _⟩ => ⟨S_, .i32⟩
  | .hbm, ⟨26, _⟩ => ⟨S_, .f32⟩
  | .hbm, ⟨27, _⟩ => ⟨S256x128, .f32⟩
  | .hbm, ⟨28, _⟩ => ⟨S_, .i32⟩
  | .hbm, ⟨29, _⟩ => ⟨S_, .f32⟩
  | .hbm, ⟨30, _⟩ => ⟨S256x128, .f32⟩
  | .hbm, ⟨31, _⟩ => ⟨S1x256, .f32⟩
  | .hbm, ⟨32, _⟩ => ⟨S256x16, .f32⟩
  | .hbm, ⟨33, _⟩ => ⟨S1x16, .f32⟩
  | .hbm, ⟨34, _⟩ => ⟨S256x16, .f32⟩
  | .hbm, ⟨35, _⟩ => ⟨S128x16, .f32⟩
  | .hbm, ⟨36, _⟩ => ⟨S128x16, .f32⟩
  | .hbm, ⟨37, _⟩ => ⟨S256x16, .f32⟩
  | .hbm, ⟨38, _⟩ => ⟨S256x16, .f32⟩
  | .hbm, ⟨39, _⟩ => ⟨S128x16, .f32⟩
  | .hbm, ⟨40, _⟩ => ⟨S16x1, .f32⟩
  | .hbm, ⟨41, _⟩ => ⟨S16x1, .f32⟩
  | .hbm, ⟨42, _⟩ => ⟨S1x262144, .f32⟩
  | .hbm, ⟨43, _⟩ => ⟨S262144, .f32⟩
  | .local _ .vmem, ⟨0, _⟩ => ⟨S1024x32, .i32⟩
  | .local _ .vmem, ⟨1, _⟩ => ⟨S1024x32, .i32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x1, .f32⟩
  | .local _ .vmem, ⟨7, _⟩ => ⟨S1024x1, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S1x256, .f32⟩
  | .local _ .vmem, ⟨13, _⟩ => ⟨S256x16, .f32⟩
  | .local _ .vmem, ⟨14, _⟩ => ⟨S1x16, .f32⟩
  | .local _ .vmem, ⟨15, _⟩ => ⟨S256x16, .f32⟩
  | .local _ .vmem, ⟨16, _⟩ => ⟨S128x16, .f32⟩
  | .local _ .vmem, ⟨17, _⟩ => ⟨S128x16, .f32⟩
  | .local _ .vmem, ⟨18, _⟩ => ⟨S256x16, .f32⟩
  | .local _ .vmem, ⟨19, _⟩ => ⟨S256x16, .f32⟩
  | .local _ .vmem, ⟨20, _⟩ => ⟨S128x16, .f32⟩
  | .local _ .vmem, ⟨21, _⟩ => ⟨S16x1, .f32⟩
  | .local _ .vmem, ⟨22, _⟩ => ⟨S16x1, .f32⟩
  | .local _ .vmem, ⟨23, _⟩ => ⟨S1x1024, .f32⟩
  | .local _ .vmem, ⟨24, _⟩ => ⟨S1x1024, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | _, _ => ⟨S262144x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_v1 : Ref sig .tc := ⟨.hbm, 24, rfl⟩
abbrev main_c_1 : Ref sig .tc := ⟨.hbm, 25, rfl⟩
abbrev main_call2_v0 : Ref sig .tc := ⟨.hbm, 26, rfl⟩
abbrev main_v2 : Ref sig .tc := ⟨.hbm, 27, rfl⟩
abbrev main_c_2 : Ref sig .tc := ⟨.hbm, 28, rfl⟩
abbrev main_call3_v0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  pads_S185x256_S256x256_0710_000 : S185x256.Pads (![0, 0] : Fin 2 → Nat) ![71, 0] ![0, 0] S256x256
  h_S_ : 0 < S_.numel
  pads_S185x128_S256x128_0710_000 : S185x128.Pads (![0, 0] : Fin 2 → Nat) ![71, 0] ![0, 0] S256x128
  transposes_S256x1_S1x256_1_0 : S256x1.Transposes [1, 0] S1x256
  transposes_S16x256_S256x16_1_0 : S16x256.Transposes [1, 0] S256x16
  shapeCasts_S16_S1x16 : S16.ShapeCasts S1x16
  transposes_S16x128_S128x16_1_0 : S16x128.Transposes [1, 0] S128x16
  transposes_S1x16_S16x1_1_0 : S1x16.Transposes [1, 0] S16x1
  inb_S1024x32_S1024x32_0_0 : ∀ a, (![0, 0] : Fin 2 → Nat) a + S1024x32.size a ≤ S1024x32.size a
  h_S1024x32 : 0 < S1024x32.numel
  inb_S1024x1_S1024x1_0_0 : ∀ a, (![0, 0] : Fin 2 → Nat) a + S1024x1.size a ≤ S1024x1.size a
  h_S1024x1 : 0 < S1024x1.numel
  iota_S1024x256_d1_w32 : S1024x256.Iotas .tc 32 [1]
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x32_o0_0_S1024x1 : S1024x32.Slices ![0, 0] S1024x1
  broadcasts_S1024x1_S1024x256 : S1024x1.Broadcasts S1024x256
  natLt_1_32 : 1 < 32
  slices_S1024x32_o0_1_S1024x1 : S1024x32.Slices ![0, 1] S1024x1
  slices_S1024x32_o0_2_S1024x1 : S1024x32.Slices ![0, 2] S1024x1
  slices_S1024x32_o0_3_S1024x1 : S1024x32.Slices ![0, 3] S1024x1
  slices_S1024x32_o0_4_S1024x1 : S1024x32.Slices ![0, 4] S1024x1
  slices_S1024x32_o0_5_S1024x1 : S1024x32.Slices ![0, 5] S1024x1
  slices_S1024x32_o0_6_S1024x1 : S1024x32.Slices ![0, 6] S1024x1
  slices_S1024x32_o0_7_S1024x1 : S1024x32.Slices ![0, 7] S1024x1
  slices_S1024x32_o0_8_S1024x1 : S1024x32.Slices ![0, 8] S1024x1
  slices_S1024x32_o0_9_S1024x1 : S1024x32.Slices ![0, 9] S1024x1
  slices_S1024x32_o0_10_S1024x1 : S1024x32.Slices ![0, 10] S1024x1
  slices_S1024x32_o0_11_S1024x1 : S1024x32.Slices ![0, 11] S1024x1
  slices_S1024x32_o0_12_S1024x1 : S1024x32.Slices ![0, 12] S1024x1
  slices_S1024x32_o0_13_S1024x1 : S1024x32.Slices ![0, 13] S1024x1
  slices_S1024x32_o0_14_S1024x1 : S1024x32.Slices ![0, 14] S1024x1
  slices_S1024x32_o0_15_S1024x1 : S1024x32.Slices ![0, 15] S1024x1
  slices_S1024x32_o0_16_S1024x1 : S1024x32.Slices ![0, 16] S1024x1
  slices_S1024x32_o0_17_S1024x1 : S1024x32.Slices ![0, 17] S1024x1
  slices_S1024x32_o0_18_S1024x1 : S1024x32.Slices ![0, 18] S1024x1
  slices_S1024x32_o0_19_S1024x1 : S1024x32.Slices ![0, 19] S1024x1
  slices_S1024x32_o0_20_S1024x1 : S1024x32.Slices ![0, 20] S1024x1
  slices_S1024x32_o0_21_S1024x1 : S1024x32.Slices ![0, 21] S1024x1
  slices_S1024x32_o0_22_S1024x1 : S1024x32.Slices ![0, 22] S1024x1
  slices_S1024x32_o0_23_S1024x1 : S1024x32.Slices ![0, 23] S1024x1
  slices_S1024x32_o0_24_S1024x1 : S1024x32.Slices ![0, 24] S1024x1
  slices_S1024x32_o0_25_S1024x1 : S1024x32.Slices ![0, 25] S1024x1
  slices_S1024x32_o0_26_S1024x1 : S1024x32.Slices ![0, 26] S1024x1
  slices_S1024x32_o0_27_S1024x1 : S1024x32.Slices ![0, 27] S1024x1
  slices_S1024x32_o0_28_S1024x1 : S1024x32.Slices ![0, 28] S1024x1
  slices_S1024x32_o0_29_S1024x1 : S1024x32.Slices ![0, 29] S1024x1
  slices_S1024x32_o0_30_S1024x1 : S1024x32.Slices ![0, 30] S1024x1
  slices_S1024x32_o0_31_S1024x1 : S1024x32.Slices ![0, 31] S1024x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x262144_S262144 : S1x262144.ShapeCasts S262144
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x256_S256x16_S1024x16_1_0_0_1_n_n_wf : DotDims.WF S1024x256 S256x16 S1024x16 [1] [0] [0] [1] [] []
  dot_S1024x128_S128x16_S1024x16_1_0_0_1_n_n_wf : DotDims.WF S1024x128 S128x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S262144x32.size a
  hwx0_0 : ∀ i : grid0.Coords, EltTy.bits .i32 = 32 ∨ (Rect.block (s := S262144x32) S1024x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S262144x32.size a
  hwx0_1 : ∀ i : grid0.Coords, EltTy.bits .f32 = 32 ∨ (Rect.block (s := S262144x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S262144x32.size a
  hwx0_2 : ∀ i : grid0.Coords, EltTy.bits .f32 = 32 ∨ (Rect.block (s := S262144x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S262144x1.size a
  hwx0_3 : ∀ i : grid0.Coords, EltTy.bits .f32 = 32 ∨ (Rect.block (s := S262144x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x16.size a ≤ S256x16.size a
  hwx0_9 : ∀ i : grid0.Coords, EltTy.bits .f32 = 32 ∨ (Rect.block (s := S256x16) S256x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x16.size a ≤ S256x16.size a
  hwx0_11 : ∀ i : grid0.Coords, EltTy.bits .f32 = 32 ∨ (Rect.block (s := S256x16) S256x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x16.size a ≤ S128x16.size a
  hwx0_12 : ∀ i : grid0.Coords, EltTy.bits .f32 = 32 ∨ (Rect.block (s := S128x16) S128x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x16.size a ≤ S128x16.size a
  hwx0_13 : ∀ i : grid0.Coords, EltTy.bits .f32 = 32 ∨ (Rect.block (s := S128x16) S128x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x16.size a ≤ S256x16.size a
  hwx0_14 : ∀ i : grid0.Coords, EltTy.bits .f32 = 32 ∨ (Rect.block (s := S256x16) S256x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x16.size a ≤ S256x16.size a
  hwx0_15 : ∀ i : grid0.Coords, EltTy.bits .f32 = 32 ∨ (Rect.block (s := S256x16) S256x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x16.size a ≤ S128x16.size a
  hwx0_16 : ∀ i : grid0.Coords, EltTy.bits .f32 = 32 ∨ (Rect.block (s := S128x16) S128x16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x1.size a ≤ S16x1.size a
  hwx0_17 : ∀ i : grid0.Coords, EltTy.bits .f32 = 32 ∨ (Rect.block (s := S16x1) S16x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16x1.size a ≤ S16x1.size a
  hwx0_18 : ∀ i : grid0.Coords, EltTy.bits .f32 = 32 ∨ (Rect.block (s := S16x1) S16x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x262144.size a
  hwx0_19 : ∀ i : grid0.Coords, EltTy.bits .f32 = 32 ∨ (Rect.block (s := S1x262144) S1x1024.size (cc0_transform_19 i) (hinb0_19 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S256x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S128x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S128x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S256x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S256x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12) S128x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S16x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S16x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S1x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S262144x32 : Shape := ⟨2, ![262144, 32]⟩
abbrev S262144x1 : Shape := ⟨2, ![262144, 1]⟩
abbrev S185x256 : Shape := ⟨2, ![185, 256]⟩
abbrev S185x128 : Shape := ⟨2, ![185, 128]⟩
abbrev S256x1 : Shape := ⟨2, ![256, 1]⟩
abbrev S16x256 : Shape := ⟨2, ![16, 256]⟩
abbrev S16 : Shape := ⟨1, ![16]⟩
abbrev S16x128 : Shape := ⟨2, ![16, 128]⟩
abbrev S1x16 : Shape := ⟨2, ![1, 16]⟩
abbrev S262144 : Shape := ⟨1, ![262144]⟩
abbrev S_ : Shape := ⟨0, ![]⟩
abbrev S262144x185 : Shape := ⟨2, ![262144, 185]⟩
abbrev S262144x32x1 : Shape := ⟨3, ![262144, 32, 1]⟩
abbrev S262144x32x2 : Shape := ⟨3, ![262144, 32, 2]⟩
abbrev S262144x256 : Shape := ⟨2, ![262144, 256]⟩
abbrev S1x256 : Shape := ⟨2, ![1, 256]⟩
abbrev S262144x128 : Shape := ⟨2, ![262144, 128]⟩
abbrev S256x16 : Shape := ⟨2, ![256, 16]⟩
abbrev S262144x16 : Shape := ⟨2, ![262144, 16]⟩
abbrev S128x16 : Shape := ⟨2, ![128, 16]⟩
abbrev S16x1 : Shape := ⟨2, ![16, 1]⟩

abbrev nBuf : Space → Nat
  | .hbm => 197
  | .vmem => 0
  | .smem => 0
  | _ => 0

abbrev hbmTy0_0 (i : Nat) : BufTy := match i % 128 with
  | 0 => ⟨S262144x32, .i32⟩
  | 1 => ⟨S262144x32, .f32⟩
  | 2 => ⟨S262144x32, .f32⟩
  | 3 => ⟨S262144x1, .f32⟩
  | 4 => ⟨S185x256, .f32⟩
  | 5 => ⟨S185x256, .f32⟩
  | 6 => ⟨S185x128, .f32⟩
  | 7 => ⟨S185x128, .f32⟩
  | 8 => ⟨S256x1, .f32⟩
  | 9 => ⟨S16x256, .f32⟩
  | 10 => ⟨S16, .f32⟩
  | 11 => ⟨S16x256, .f32⟩
  | 12 => ⟨S16x128, .f32⟩
  | 13 => ⟨S16x128, .f32⟩
  | 14 => ⟨S16x256, .f32⟩
  | 15 => ⟨S16x256, .f32⟩
  | 16 => ⟨S16x128, .f32⟩
  | 17 => ⟨S1x16, .f32⟩
  | 18 => ⟨S1x16, .f32⟩
  | 19 => ⟨S262144, .i32⟩
  | 20 => ⟨S262144x1, .i32⟩
  | 21 => ⟨S_, .f32⟩
  | 22 => ⟨S262144x32, .f32⟩
  | 23 => ⟨S_, .f32⟩
  | 24 => ⟨S262144x185, .f32⟩
  | 25 => ⟨S_, .i32⟩
  | 26 => ⟨S262144x1, .i32⟩
  | 27 => ⟨S262144x1, .i1⟩
  | 28 => ⟨S_, .i32⟩
  | 29 => ⟨S262144x1, .i32⟩
  | 30 => ⟨S262144x1, .i32⟩
  | 31 => ⟨S262144x1, .i32⟩
  | 32 => ⟨S_, .i32⟩
  | 33 => ⟨S262144x32, .i32⟩
  | 34 => ⟨S262144x32, .i1⟩
  | 35 => ⟨S_, .i32⟩
  | 36 => ⟨S262144x32, .i32⟩
  | 37 => ⟨S262144x32, .i32⟩
  | 38 => ⟨S262144x32, .i32⟩
  | 39 => ⟨S262144x32, .i32⟩
  | 40 => ⟨S262144x32x1, .i32⟩
  | 41 => ⟨S262144x32x1, .i32⟩
  | 42 => ⟨S262144x32x2, .i32⟩
  | 43 => ⟨S262144x185, .f32⟩
  | 44 => ⟨S262144x256, .f32⟩
  | 45 => ⟨S_, .f32⟩
  | 46 => ⟨S262144x185, .f32⟩
  | 47 => ⟨S_, .i32⟩
  | 48 => ⟨S262144x1, .i32⟩
  | 49 => ⟨S262144x1, .i1⟩
  | 50 => ⟨S_, .i32⟩
  | 51 => ⟨S262144x1, .i32⟩
  | 52 => ⟨S262144x1, .i32⟩
  | 53 => ⟨S262144x1, .i32⟩
  | 54 => ⟨S_, .i32⟩
  | 55 => ⟨S262144x32, .i32⟩
  | 56 => ⟨S262144x32, .i1⟩
  | 57 => ⟨S_, .i32⟩
  | 58 => ⟨S262144x32, .i32⟩
  | 59 => ⟨S262144x32, .i32⟩
  | 60 => ⟨S262144x32, .i32⟩
  | 61 => ⟨S262144x32, .i32⟩
  | 62 => ⟨S262144x32x1, .i32⟩
  | 63 => ⟨S262144x32x1, .i32⟩
  | 64 => ⟨S262144x32x2, .i32⟩
  | 65 => ⟨S262144x185, .f32⟩
  | 66 => ⟨S262144x256, .f32⟩
  | 67 => ⟨S1x256, .f32⟩
  | 68 => ⟨S262144x256, .f32⟩
  | 69 => ⟨S262144x256, .f32⟩
  | 70 => ⟨S_, .f32⟩
  | 71 => ⟨S262144x185, .f32⟩
  | 72 => ⟨S_, .i32⟩
  | 73 => ⟨S262144x1, .i32⟩
  | 74 => ⟨S262144x1, .i1⟩
  | 75 => ⟨S_, .i32⟩
  | 76 => ⟨S262144x1, .i32⟩
  | 77 => ⟨S262144x1, .i32⟩
  | 78 => ⟨S262144x1, .i32⟩
  | 79 => ⟨S_, .i32⟩
  | 80 => ⟨S262144x32, .i32⟩
  | 81 => ⟨S262144x32, .i1⟩
  | 82 => ⟨S_, .i32⟩
  | 83 => ⟨S262144x32, .i32⟩
  | 84 => ⟨S262144x32, .i32⟩
  | 85 => ⟨S262144x32, .i32⟩
  | 86 => ⟨S262144x32, .i32⟩
  | 87 => ⟨S262144x32x1, .i32⟩
  | 88 => ⟨S262144x32x1, .i32⟩
  | 89 => ⟨S262144x32x2, .i32⟩
  | 90 => ⟨S262144x185, .f32⟩
  | 91 => ⟨S262144x128, .f32⟩
  | 92 => ⟨S262144x32, .f32⟩
  | 93 => ⟨S_, .f32⟩
  | 94 => ⟨S262144x185, .f32⟩
  | 95 => ⟨S_, .i32⟩
  | 96 => ⟨S262144x1, .i32⟩
  | 97 => ⟨S262144x1, .i1⟩
  | 98 => ⟨S_, .i32⟩
  | 99 => ⟨S262144x1, .i32⟩
  | 100 => ⟨S262144x1, .i32⟩
  | 101 => ⟨S262144x1, .i32⟩
  | 102 => ⟨S_, .i32⟩
  | 103 => ⟨S262144x32, .i32⟩
  | 104 => ⟨S262144x32, .i1⟩
  | 105 => ⟨S_, .i32⟩
  | 106 => ⟨S262144x32, .i32⟩
  | 107 => ⟨S262144x32, .i32⟩
  | 108 => ⟨S262144x32, .i32⟩
  | 109 => ⟨S262144x32, .i32⟩
  | 110 => ⟨S262144x32x1, .i32⟩
  | 111 => ⟨S262144x32x1, .i32⟩
  | 112 => ⟨S262144x32x2, .i32⟩
  | 113 => ⟨S262144x185, .f32⟩
  | 114 => ⟨S262144x128, .f32⟩
  | 115 => ⟨S_, .f32⟩
  | 116 => ⟨S_, .f32⟩
  | 117 => ⟨S_, .f32⟩
  | 118 => ⟨S262144x256, .f32⟩
  | 119 => ⟨S262144x256, .f32⟩
  | 120 => ⟨S_, .f32⟩
  | 121 => ⟨S262144x256, .f32⟩
  | 122 => ⟨S262144x256, .f32⟩
  | 123 => ⟨S_, .f32⟩
  | 124 => ⟨S_, .f32⟩
  | 125 => ⟨S_, .f32⟩
  | 126 => ⟨S262144x256, .f32⟩
  | 127 => ⟨S262144x256, .f32⟩
  | _ => ⟨S262144x32, .i32⟩

abbrev hbmTy0_1 (i : Nat) : BufTy := match i % 128 with
  | 0 => ⟨S_, .f32⟩
  | 1 => ⟨S262144x256, .f32⟩
  | 2 => ⟨S262144x256, .f32⟩
  | 3 => ⟨S_, .f32⟩
  | 4 => ⟨S_, .f32⟩
  | 5 => ⟨S_, .f32⟩
  | 6 => ⟨S262144x128, .f32⟩
  | 7 => ⟨S262144x128, .f32⟩
  | 8 => ⟨S_, .f32⟩
  | 9 => ⟨S262144x128, .f32⟩
  | 10 => ⟨S262144x128, .f32⟩
  | 11 => ⟨S_, .f32⟩
  | 12 => ⟨S_, .f32⟩
  | 13 => ⟨S_, .f32⟩
  | 14 => ⟨S262144x128, .f32⟩
  | 15 => ⟨S262144x128, .f32⟩
  | 16 => ⟨S_, .f32⟩
  | 17 => ⟨S262144x128, .f32⟩
  | 18 => ⟨S262144x128, .f32⟩
  | 19 => ⟨S256x16, .f32⟩
  | 20 => ⟨S262144x16, .f32⟩
  | 21 => ⟨S1x16, .f32⟩
  | 22 => ⟨S262144x16, .f32⟩
  | 23 => ⟨S262144x16, .f32⟩
  | 24 => ⟨S262144x256, .f32⟩
  | 25 => ⟨S256x16, .f32⟩
  | 26 => ⟨S262144x16, .f32⟩
  | 27 => ⟨S262144x16, .f32⟩
  | 28 => ⟨S262144x128, .f32⟩
  | 29 => ⟨S128x16, .f32⟩
  | 30 => ⟨S262144x16, .f32⟩
  | 31 => ⟨S262144x16, .f32⟩
  | 32 => ⟨S262144x128, .f32⟩
  | 33 => ⟨S128x16, .f32⟩
  | 34 => ⟨S262144x16, .f32⟩
  | 35 => ⟨S262144x16, .f32⟩
  | 36 => ⟨S256x16, .f32⟩
  | 37 => ⟨S262144x16, .f32⟩
  | 38 => ⟨S262144x256, .f32⟩
  | 39 => ⟨S256x16, .f32⟩
  | 40 => ⟨S262144x16, .f32⟩
  | 41 => ⟨S262144x16, .f32⟩
  | 42 => ⟨S262144x128, .f32⟩
  | 43 => ⟨S128x16, .f32⟩
  | 44 => ⟨S262144x16, .f32⟩
  | 45 => ⟨S262144x16, .f32⟩
  | 46 => ⟨S_, .f32⟩
  | 47 => ⟨S_, .f32⟩
  | 48 => ⟨S_, .f32⟩
  | 49 => ⟨S262144x16, .f32⟩
  | 50 => ⟨S262144x16, .f32⟩
  | 51 => ⟨S_, .f32⟩
  | 52 => ⟨S262144x16, .f32⟩
  | 53 => ⟨S262144x16, .f32⟩
  | 54 => ⟨S_, .f32⟩
  | 55 => ⟨S_, .f32⟩
  | 56 => ⟨S_, .f32⟩
  | 57 => ⟨S262144x16, .f32⟩
  | 58 => ⟨S262144x16, .f32⟩
  | 59 => ⟨S_, .f32⟩
  | 60 => ⟨S262144x16, .f32⟩
  | 61 => ⟨S262144x16, .f32⟩
  | 62 => ⟨S16x1, .f32⟩
  | 63 => ⟨S262144x1, .f32⟩
  | 64 => ⟨S262144x16, .f32⟩
  | 65 => ⟨S16x1, .f32⟩
  | 66 => ⟨S262144x1, .f32⟩
  | 67 => ⟨S262144x1, .f32⟩
  | 68 => ⟨S262144, .f32⟩
  | _ => ⟨S262144x32, .i32⟩

abbrev hbmTy (i : Nat) : BufTy := match i / 128 with
  | 0 => hbmTy0_0 i
  | 1 => hbmTy0_1 i
  | _ => ⟨S262144x32, .i32⟩

abbrev bufTy : (tb : Table) → Fin (tcTables nBuf tb) → BufTy
  | .hbm, ⟨i, _⟩ => hbmTy i
  | _, _ => ⟨S262144x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_c_8 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_c_11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_12 : Ref sig .tc := ⟨.hbm, 79, rfl⟩
abbrev main_v46 : Ref sig .tc := ⟨.hbm, 80, rfl⟩
abbrev main_v47 : Ref sig .tc := ⟨.hbm, 81, rfl⟩
abbrev main_c_13 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_c_15 : Ref sig .tc := ⟨.hbm, 95, rfl⟩
abbrev main_v59 : Ref sig .tc := ⟨.hbm, 96, rfl⟩
abbrev main_v60 : Ref sig .tc := ⟨.hbm, 97, rfl⟩
abbrev main_c_16 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_17 : Ref sig .tc := ⟨.hbm, 102, rfl⟩
abbrev main_v64 : Ref sig .tc := ⟨.hbm, 103, rfl⟩
abbrev main_v65 : Ref sig .tc := ⟨.hbm, 104, rfl⟩
abbrev main_c_18 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_19 : Ref sig .tc := ⟨.hbm, 115, rfl⟩
abbrev main_cst_20 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_v75 : Ref sig .tc := ⟨.hbm, 122, rfl⟩
abbrev main_cst_21 : Ref sig .tc := ⟨.hbm, 123, rfl⟩
abbrev main_cst_22 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_v76 : Ref sig .tc := ⟨.hbm, 130, rfl⟩
abbrev main_cst_23 : Ref sig .tc := ⟨.hbm, 131, rfl⟩
abbrev main_cst_24 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v77 : Ref sig .tc := ⟨.hbm, 138, rfl⟩
abbrev main_cst_25 : Ref sig .tc := ⟨.hbm, 139, rfl⟩
abbrev main_cst_26 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_27 : Ref sig .tc := ⟨.hbm, 174, rfl⟩
abbrev main_cst_28 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_v106 : Ref sig .tc := ⟨.hbm, 181, rfl⟩
abbrev main_cst_29 : Ref sig .tc := ⟨.hbm, 182, rfl⟩
abbrev main_cst_30 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144x32 : S_.BroadcastsInDim S262144x32 (![] : Fin 0 → Fin S262144x32.rank)
  bcast_S_S262144x185 : S_.BroadcastsInDim S262144x185 (![] : Fin 0 → Fin S262144x185.rank)
  bcast_S_S262144x1 : S_.BroadcastsInDim S262144x1 (![] : Fin 0 → Fin S262144x1.rank)
  bcast_S262144x1_S262144x32_0_1 : S262144x1.BroadcastsInDim S262144x32 (![0, 1] : Fin 2 → Fin S262144x32.rank)
  bcast_S262144x32_S262144x32x1_0_1 : S262144x32.BroadcastsInDim S262144x32x1 (![0, 1] : Fin 2 → Fin S262144x32x1.rank)
  concatenates_S262144x32x1_S262144x32x1_S262144x32x2_d2 : Shape.Concatenates [S262144x32x1, S262144x32x1] S262144x32x2 2
  transposes_S256x1_S1x256_1_0 : S256x1.Transposes [1, 0] S1x256
  bcast_S_S262144x256 : S_.BroadcastsInDim S262144x256 (![] : Fin 0 → Fin S262144x256.rank)
  bcast_S_S262144x128 : S_.BroadcastsInDim S262144x128 (![] : Fin 0 → Fin S262144x128.rank)
  transposes_S16x256_S256x16_1_0 : S16x256.Transposes [1, 0] S256x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  transposes_S16x128_S128x16_1_0 : S16x128.Transposes [1, 0] S128x16
  bcast_S_S262144x16 : S_.BroadcastsInDim S262144x16 (![] : Fin 0 → Fin S262144x16.rank)
  transposes_S1x16_S16x1_1_0 : S1x16.Transposes [1, 0] S16x1
  shapeCasts_S262144x1_S262144 : S262144x1.ShapeCasts S262144
  scatter_S262144x185_S262144x32x2_S262144x32_n_01_01_2_wf : ScatterDims.WF S262144x185 S262144x32x2 S262144x32 [] [0, 1] [0, 1] 2
  dot_S262144x185_S185x256_S262144x256_1_0_0_1_n_n_wf : DotDims.WF S262144x185 S185x256 S262144x256 [1] [0] [0] [1] [] []
  dot_S262144x1_S1x256_S262144x256_1_0_0_1_n_n_wf : DotDims.WF S262144x1 S1x256 S262144x256 [1] [0] [0] [1] [] []
  dot_S262144x185_S185x128_S262144x128_1_0_0_1_n_n_wf : DotDims.WF S262144x185 S185x128 S262144x128 [1] [0] [0] [1] [] []
  dot_S262144x256_S256x16_S262144x16_1_0_0_1_n_n_wf : DotDims.WF S262144x256 S256x16 S262144x16 [1] [0] [0] [1] [] []
  dot_S262144x128_S128x16_S262144x16_1_0_0_1_n_n_wf : DotDims.WF S262144x128 S128x16 S262144x16 [1] [0] [0] [1] [] []
  dot_S262144x16_S16x1_S262144x1_1_0_0_1_n_n_wf : DotDims.WF S262144x16 S16x1 S262144x1 [1] [0] [0] [1] [] []

variable [Facts₀]

def scatter_S262144x185_S262144x32x2_S262144x32_n_01_01_2 : ScatterDims S262144x185 S262144x32x2 S262144x32 where
  updateWindowDims := []
  insertedWindowDims := [0, 1]
  scatterDimsToOperandDims := [0, 1]
  indexVectorDim := 2
  wf := scatter_S262144x185_S262144x32x2_S262144x32_n_01_01_2_wf
def dot_S262144x185_S185x256_S262144x256_1_0_0_1_n_n : DotDims S262144x185 S185x256 S262144x256 where
  lhsContracting := [1]
  rhsContracting := [0]
  lhsNonContracting := [0]
  rhsNonContracting := [1]
  lhsBatch := []
  rhsBatch := []
  wf := dot_S262144x185_S185x256_S262144x256_1_0_0_1_n_n_wf
def dot_S262144x1_S1x256_S262144x256_1_0_0_1_n_n : DotDims S262144x1 S1x256 S262144x256 where
  lhsContracting := [1]
  rhsContracting := [0]
  lhsNonContracting := [0]
  rhsNonContracting := [1]
  lhsBatch := []
  rhsBatch := []
  wf := dot_S262144x1_S1x256_S262144x256_1_0_0_1_n_n_wf
def dot_S262144x185_S185x128_S262144x128_1_0_0_1_n_n : DotDims S262144x185 S185x128 S262144x128 where
  lhsContracting := [1]
  rhsContracting := [0]
  lhsNonContracting := [0]
  rhsNonContracting := [1]
  lhsBatch := []
  rhsBatch := []
  wf := dot_S262144x185_S185x128_S262144x128_1_0_0_1_n_n_wf
def dot_S262144x256_S256x16_S262144x16_1_0_0_1_n_n : DotDims S262144x256 S256x16 S262144x16 where
  lhsContracting := [1]
  rhsContracting := [0]
  lhsNonContracting := [0]
  rhsNonContracting := [1]
  lhsBatch := []
  rhsBatch := []
  wf := dot_S262144x256_S256x16_S262144x16_1_0_0_1_n_n_wf
def dot_S262144x128_S128x16_S262144x16_1_0_0_1_n_n : DotDims S262144x128 S128x16 S262144x16 where
  lhsContracting := [1]
  rhsContracting := [0]
  lhsNonContracting := [0]
  rhsNonContracting := [1]
  lhsBatch := []
  rhsBatch := []
  wf := dot_S262144x128_S128x16_S262144x16_1_0_0_1_n_n_wf
def dot_S262144x16_S16x1_S262144x1_1_0_0_1_n_n : DotDims S262144x16 S16x1 S262144x1 where
  lhsContracting := [1]
  rhsContracting := [0]
  lhsNonContracting := [0]
  rhsNonContracting := [1]
  lhsBatch := []
  rhsBatch := []
  wf := dot_S262144x16_S16x1_S262144x1_1_0_0_1_n_n_wf

class Facts : Prop extends Facts₀ where

variable [Facts]
-- ==== Proof.BagNet.lean ====
/-
  The mathematics of the network both programs compute, one batch row at a time, on the extended reals.

  A row carries 32 vocabulary indices with two signed weights each (colour and side), and one scalar.
  Four weighted bags are formed: for a table T with one row per vocabulary entry,
      bag w T = Σ_v (Σ_{l : idx l = v} w l) · T v ,
  with weights 1, colour, side, colour·side; the second bag also receives the scalar times a vector.  The four vectors
  are clamped to [-127/128, 127/128], pass through two dense layers (absolute values and elementwise
  products feed them), are clamped again, and a final pair of dot products gives the row's one output.

  Everything here is a plain function over `Fin n`; the table's row count `N` is a parameter, because one program
  holds the tables with 185 rows and the other with 256 rows of which the last 71 are zero: `out_pad` says the
  zero rows change nothing.  `upTo_eq_sum` turns a sum accumulated slot by slot from zero into the sum over the 32 slots.
-/
import Idealize.ShloMosaic.PureOps.Ideal
import Idealize.ShloMosaic.PureOps.Ideal.Laws
import Idealize.ShloMosaic.Lib.ValueIdx

noncomputable section

namespace Cert.BagNet

open Idealize.ShloMosaic

/-- The clamp's lower bound, -127/128, as the printed word. -/
def lo : EReal := Ideal.ofBits .f32 0xBF7E0000#32
/-- The clamp's upper bound, 127/128, as the printed word. -/
def hi : EReal := Ideal.ofBits .f32 0x3F7E0000#32
/-- Clamp into [lo, hi]: the larger of `lo` and `x`, then the smaller of `hi` and that. -/
def clamp (x : EReal) : EReal := min hi (max lo x)
/-- The absolute value on the extended reals. -/
def mag (x : EReal) : EReal := max x (-x)

/-- The total weight of the slots of one row whose index is the vocabulary entry `v`. -/
def cnt (idx : Fin 32 → BitVec 32) (w : Fin 32 → EReal) (v : ℕ) : EReal :=
  ∑ l : Fin 32, if (idx l).toNat = v then w l else 0

/-- A weighted bag against one column of a table of `N` rows. -/
def bag {N : ℕ} (idx : Fin 32 → BitVec 32) (w : Fin 32 → EReal) (tab : Fin N → EReal) : EReal :=
  ∑ v : Fin N, cnt idx w v.val * tab v

/-- The network's parameters: four tables of `N` rows and the dense layers' weights, `w o s` for output `o` and input `s`. -/
structure Weights (N : ℕ) where
  embFs : Fin N → Fin 256 → EReal
  embVa : Fin N → Fin 256 → EReal
  embHa : Fin N → Fin 128 → EReal
  embRa : Fin N → Fin 128 → EReal
  tempo : Fin 256 → EReal
  fsW : Fin 16 → Fin 256 → EReal
  fsB : Fin 16 → EReal
  absvaW : Fin 16 → Fin 256 → EReal
  abshaW : Fin 16 → Fin 128 → EReal
  absraW : Fin 16 → Fin 128 → EReal
  vaW : Fin 16 → Fin 256 → EReal
  fsxvaW : Fin 16 → Fin 256 → EReal
  haxraW : Fin 16 → Fin 128 → EReal
  outVa : Fin 16 → EReal
  outFsxva : Fin 16 → EReal

section Row

variable {N : ℕ} (P : Weights N) (idx : Fin 32 → BitVec 32) (color sob : Fin 32 → EReal) (wtm : EReal)

/-- First layer, unweighted bag. -/
def fs1 (s : Fin 256) : EReal := clamp (bag idx (fun _ => 1) fun v => P.embFs v s)
/-- First layer, colour-weighted bag plus the scalar's contribution. -/
def va1 (s : Fin 256) : EReal := clamp (bag idx color (fun v => P.embVa v s) + wtm * P.tempo s)
/-- First layer, side-weighted bag. -/
def ha1 (s : Fin 128) : EReal := clamp (bag idx sob fun v => P.embHa v s)
/-- First layer, bag weighted by colour times side. -/
def ra1 (s : Fin 128) : EReal := clamp (bag idx (fun l => color l * sob l) fun v => P.embRa v s)

/-- Second layer, first head. -/
def fs2 (o : Fin 16) : EReal :=
  clamp (((((∑ s, fs1 P idx s * P.fsW o s) + P.fsB o) + ∑ s, mag (va1 P idx color wtm s) * P.absvaW o s)
    + ∑ s, mag (ha1 P idx sob s) * P.abshaW o s) + ∑ s, mag (ra1 P idx color sob s) * P.absraW o s)
/-- Second layer, second head. -/
def va2 (o : Fin 16) : EReal :=
  clamp (((∑ s, va1 P idx color wtm s * P.vaW o s) + ∑ s, (fs1 P idx s * va1 P idx color wtm s) * P.fsxvaW o s)
    + ∑ s, (ha1 P idx sob s * ra1 P idx color sob s) * P.haxraW o s)
/-- The row's output. -/
def out : EReal :=
  (∑ o, va2 P idx color sob wtm o * P.outVa o) + ∑ o, (fs2 P idx color sob wtm o * va2 P idx color sob wtm o) * P.outFsxva o

end Row

/-! ## Tables padded with zero rows -/

/-- A table of 185 rows continued by 71 zero rows. -/
def padTab {K : ℕ} (T : Fin 185 → Fin K → EReal) : Fin 256 → Fin K → EReal :=
  fun v s => if h : v.val < 185 then T ⟨v.val, h⟩ s else 0

/-- The parameters with every table padded. -/
def Weights.pad (P : Weights 185) : Weights 256 :=
  { P with embFs := padTab P.embFs, embVa := padTab P.embVa, embHa := padTab P.embHa, embRa := padTab P.embRa }

/-- A bag against a padded column is the bag against the column: the zero rows contribute zero whatever their count. -/
theorem bag_pad (idx : Fin 32 → BitVec 32) (w : Fin 32 → EReal) (tab : Fin 185 → EReal) :
    bag idx w (fun v : Fin 256 => if h : v.val < 185 then tab ⟨v.val, h⟩ else 0) = bag idx w tab := by
  unfold bag
  have h := Fin.sum_univ_add (a := 185) (b := 71)
    (fun v : Fin (185 + 71) => cnt idx w v.val * (if h : v.val < 185 then tab ⟨v.val, h⟩ else 0))
  refine h.trans ?_
  have h2 : (∑ i : Fin 71, cnt idx w (Fin.natAdd 185 i).val *
      (if h : (Fin.natAdd 185 i).val < 185 then tab ⟨(Fin.natAdd 185 i).val, h⟩ else 0)) = 0 :=
    Finset.sum_eq_zero fun i _ => by
      rw [dif_neg (by simp [Fin.natAdd]), mul_zero]
  rw [h2, add_zero]
  refine Finset.sum_congr rfl fun i _ => ?_
  rw [dif_pos (show (Fin.castAdd 71 i).val < 185 from i.isLt)]
  rfl

theorem out_pad (P : Weights 185) (idx : Fin 32 → BitVec 32) (color sob : Fin 32 → EReal) (wtm : EReal) :
    out P.pad idx color sob wtm = out P idx color sob wtm := by
  have e1 : fs1 P.pad idx = fs1 P idx := funext fun s => congrArg clamp (bag_pad idx _ fun v => P.embFs v s)
  have e2 : va1 P.pad idx color wtm = va1 P idx color wtm := funext fun s =>
    congrArg clamp (congrArg (· + wtm * P.tempo s) (bag_pad idx color fun v => P.embVa v s))
  have e3 : ha1 P.pad idx sob = ha1 P idx sob := funext fun s => congrArg clamp (bag_pad idx sob fun v => P.embHa v s)
  have e4 : ra1 P.pad idx color sob = ra1 P idx color sob := funext fun s =>
    congrArg clamp (bag_pad idx _ fun v => P.embRa v s)
  have e5 : fs2 P.pad idx color sob wtm = fs2 P idx color sob wtm := by
    funext o; unfold fs2; rw [e1, e2, e3, e4]; rfl
  have e6 : va2 P.pad idx color sob wtm = va2 P idx color sob wtm := by
    funext o; unfold va2; rw [e1, e2, e3, e4]; rfl
  unfold out; rw [e5, e6]; rfl

/-! ## The network read off arrays -/

open Idealize.ShloMosaic.ValueIdx

/-- A rank-2 shape and a rank-1 shape by their extents. -/
abbrev Sh2 (a b : ℕ) : Shape := ⟨2, ![a, b]⟩
abbrev Sh1 (a : ℕ) : Shape := ⟨1, ![a]⟩

/-- Row `b` of an array of rows of 32 slots. -/
def rowOf {α : Type} {n : ℕ} (a : (Sh2 n 32).Idx → α) (b : Fin n) : Fin 32 → α := fun l => a (ix2 b l)

/-- The parameters as the argument arrays hold them: tables of 185 rows, each dense weight as [output, input],
    the scalar's vector as a column, the bias a vector, the last layer's weights as rows. -/
def wts (a4 a5 : (Sh2 185 256).Idx → EReal) (a6 a7 : (Sh2 185 128).Idx → EReal) (a8 : (Sh2 256 1).Idx → EReal)
    (a9 : (Sh2 16 256).Idx → EReal) (a10 : (Sh1 16).Idx → EReal) (a11 : (Sh2 16 256).Idx → EReal)
    (a12 a13 : (Sh2 16 128).Idx → EReal) (a14 a15 : (Sh2 16 256).Idx → EReal) (a16 : (Sh2 16 128).Idx → EReal)
    (a17 a18 : (Sh2 1 16).Idx → EReal) : Weights 185 where
  embFs v s := a4 (ix2 v s)
  embVa v s := a5 (ix2 v s)
  embHa v s := a6 (ix2 v s)
  embRa v s := a7 (ix2 v s)
  tempo s := a8 (ix2 s 0)
  fsW o s := a9 (ix2 o s)
  fsB o := a10 (ix1 o)
  absvaW o s := a11 (ix2 o s)
  abshaW o s := a12 (ix2 o s)
  absraW o s := a13 (ix2 o s)
  vaW o s := a14 (ix2 o s)
  fsxvaW o s := a15 (ix2 o s)
  haxraW o s := a16 (ix2 o s)
  outVa o := a17 (ix2 0 o)
  outFsxva o := a18 (ix2 0 o)

/-- The parameters as one grid step finds them in its blocks: tables of 256 rows, each dense weight as [input, output],
    the scalar's vector and the bias as rows, the last layer's weights as columns. -/
def kwts (x4 x5 : (Sh2 256 256).Idx → EReal) (x6 x7 : (Sh2 256 128).Idx → EReal) (x8 : (Sh2 1 256).Idx → EReal)
    (x9 : (Sh2 256 16).Idx → EReal) (x10 : (Sh2 1 16).Idx → EReal) (x11 : (Sh2 256 16).Idx → EReal)
    (x12 x13 : (Sh2 128 16).Idx → EReal) (x14 x15 : (Sh2 256 16).Idx → EReal) (x16 : (Sh2 128 16).Idx → EReal)
    (x17 x18 : (Sh2 16 1).Idx → EReal) : Weights 256 where
  embFs v s := x4 (ix2 v s)
  embVa v s := x5 (ix2 v s)
  embHa v s := x6 (ix2 v s)
  embRa v s := x7 (ix2 v s)
  tempo s := x8 (ix2 0 s)
  fsW o s := x9 (ix2 s o)
  fsB o := x10 (ix2 0 o)
  absvaW o s := x11 (ix2 s o)
  abshaW o s := x12 (ix2 s o)
  absraW o s := x13 (ix2 s o)
  vaW o s := x14 (ix2 s o)
  fsxvaW o s := x15 (ix2 s o)
  haxraW o s := x16 (ix2 s o)
  outVa o := x17 (ix2 o 0)
  outFsxva o := x18 (ix2 o 0)

/-- The whole result: one output per batch row, of that row's slots and scalar and the shared parameters. -/
def result (a0 : (Sh2 262144 32).Idx → BitVec 32) (a1 a2 : (Sh2 262144 32).Idx → EReal) (a3 : (Sh2 262144 1).Idx → EReal)
    (a4 a5 : (Sh2 185 256).Idx → EReal) (a6 a7 : (Sh2 185 128).Idx → EReal) (a8 : (Sh2 256 1).Idx → EReal)
    (a9 : (Sh2 16 256).Idx → EReal) (a10 : (Sh1 16).Idx → EReal) (a11 : (Sh2 16 256).Idx → EReal)
    (a12 a13 : (Sh2 16 128).Idx → EReal) (a14 a15 : (Sh2 16 256).Idx → EReal) (a16 : (Sh2 16 128).Idx → EReal)
    (a17 a18 : (Sh2 1 16).Idx → EReal) : (Sh1 262144).Idx → EReal :=
  fun b => out (wts a4 a5 a6 a7 a8 a9 a10 a11 a12 a13 a14 a15 a16 a17 a18)
    (rowOf a0 (b 0)) (rowOf a1 (b 0)) (rowOf a2 (b 0)) (a3 (ix2 (b 0) 0))

/-! ## A sum accumulated slot by slot -/

/-- A term per slot number, zero past the 32 slots. -/
def slot (f : Fin 32 → EReal) (k : ℕ) : EReal := if h : k < 32 then f ⟨k, h⟩ else 0

/-- The running total after the first `k` slots, starting from zero. -/
def upTo (f : Fin 32 → EReal) : ℕ → EReal
  | 0 => 0
  | k + 1 => upTo f k + slot f k

theorem upTo_eq_range (f : Fin 32 → EReal) (k : ℕ) : upTo f k = ∑ i ∈ Finset.range k, slot f i := by
  induction k with
  | zero => simp [upTo]
  | succ k ih => rw [upTo, ih, Finset.sum_range_succ]

/-- After all 32 slots the running total is the sum over the slots. -/
theorem upTo_eq_sum (f : Fin 32 → EReal) : upTo f 32 = ∑ l : Fin 32, f l := by
  rw [upTo_eq_range, ← Fin.sum_univ_eq_sum_range (slot f) 32]
  exact Finset.sum_congr rfl fun i _ => dif_pos i.isLt

end Cert.BagNet

end
-- ==== Proof.IndexSign.lean ====
/-
  The precondition's last conjunct read back: every entry of the index array is non-negative as a signed word.
  The printed precondition is a chain of `and`s of all-reductions; being all ones, its last conjunct — the
  all-reduction of the signed comparison `index ≥ 0` — is one, so the comparison holds at every entry.
-/
import proofs.«422188_j67422396612990_3_alg».proof.Proof.Gen.Pre_finite_inputs
import Idealize.ShloMosaic.Lib.ReduceAll
import Idealize.ShloMosaic.Lib.StableHlo.Predicate
import Idealize.ShloMosaic.Lib.ValueIdx

noncomputable section

namespace Cert.IndexSign

open Idealize.ShloMosaic Cert.Pre_finite_inputs Cert.Pre_finite_inputs.Gen

/-- The scalar shape has one index. -/
instance : Subsingleton S_.Idx := ⟨fun _ _ => funext fun d => d.elim0⟩

/-- Under the precondition no index is negative. -/
theorem nonneg (a0 : IVec S262144x32 32) (a1 a2 : FVec Ideal S262144x32 .f32) (a3 : FVec Ideal S262144x1 .f32)
    (a4 a5 : FVec Ideal S185x256 .f32) (a6 a7 : FVec Ideal S185x128 .f32) (a8 : FVec Ideal S256x1 .f32)
    (a9 : FVec Ideal S16x256 .f32) (a10 : FVec Ideal S16 .f32) (a11 : FVec Ideal S16x256 .f32)
    (a12 a13 : FVec Ideal S16x128 .f32) (a14 a15 : FVec Ideal S16x256 .f32) (a16 : FVec Ideal S16x128 .f32)
    (a17 a18 : FVec Ideal S1x16 .f32)
    (h : Cert.Pre_finite_inputs.fn (F := Ideal) a0 a1 a2 a3 a4 a5 a6 a7 a8 a9 a10 a11 a12 a13 a14 a15 a16 a17 a18 = fun _ => 1#1) :
    ∀ i : S262144x32.Idx, 0 ≤ (a0 i).toInt := by
  intro i
  -- the precondition's one word, read at the scalar index: an `and` whose right operand is the all-reduction
  have h0 : Cert.Pre_finite_inputs.fn (F := Ideal) a0 a1 a2 a3 a4 a5 a6 a7 a8 a9 a10 a11 a12 a13 a14 a15 a16 a17 a18
      ValueIdx.ix0 = 1#1 := congrFun h ValueIdx.ix0
  have h1 : ∃ c : BitVec 1, IntOp.andi c
      (Host.reduce IntOp.andi
        (cmpi .sge a0 (broadcastInDim S262144x32 ![] Facts.bcast_S_S262144x32 (constantI S_ 32 0#32)))
        (constantI S_ 1 1#1) Facts.reducesTo_S262144x32_S_d0_1 Facts.h_S_ ValueIdx.ix0) = 1#1 := ⟨_, h0⟩
  obtain ⟨c, h1⟩ := h1
  -- the right conjunct is one, so the comparison is one at every entry
  have h2 := (IntOp.andi_eq_one.1 h1).2
  have h3 := Host.reduce_andi_all _ _ _ _ _ h2 i
  -- the comparison at the entry is the signed `0 ≤ index`
  have h4 : IntOp.cmpi .sge (a0 i) (0#32) = 1#1 := h3
  have h5 := IntOp.cmpi_sge.1 h4
  rwa [show (0#32 : BitVec 32).toInt = 0 from by decide] at h5

end Cert.IndexSign

end
-- ==== Proof.RefBag.lean ====
/-
  The reference's scattered counts read at an entry.  The scatter adds update (b, l) into the zero array at row
  `b` (the row iota, never negative) and column `index (b, l)` (negative indices would wrap by 185; under the
  precondition none is negative, so the column is the index itself), dropping updates that land outside.  So entry
  (b, v) is the total update weight of the slots of row b whose index is v.
-/
import proofs.«422188_j67422396612990_3_alg».proof.Proof.Gen.ReferenceIdeal.Read
import proofs.«422188_j67422396612990_3_alg».proof.Proof.BagNet
import Idealize.ShloMosaic.Lib.Pipeline.Value
import Idealize.ShloMosaic.Lib.ValueIdx

set_option maxRecDepth 16384

noncomputable section

namespace Cert.ReferenceIdeal.RefBag

open Idealize.ShloMosaic Idealize.ShloMosaic.TcCoe Idealize.ShloMosaic.ValueIdx Cert.ReferenceIdeal Cert.ReferenceIdeal.Gen Cert.ReferenceIdeal.Read Cert.BagNet

/-! ## The scatter's dimension numbers

Both index components are scattered (component 0 to the row axis, component 1 to the column axis), both operand
axes are inserted, and an update has no window axes: update (a, l) lands at the single entry whose row is the
first component of index vector (a, l) and whose column is the second. -/

/-- The dimension numbers of the four count scatters. -/
abbrev cntDims : ScatterDims S262144x185 S262144x32x2 S262144x32 := scatter_S262144x185_S262144x32x2_S262144x32_n_01_01_2

/-- No operand axis is kept for a window, so the window coordinate is zero on both axes. -/
theorem cntDims_window (j : S262144x32.Idx) (a : Fin S262144x185.rank) : cntDims.window j a = 0 := by
  unfold ScatterDims.window
  exact dif_neg (by revert a; decide)

/-- Update (a, l) reads component 0 of its start index at (a, l, 0). -/
theorem cntDims_siIdx0 (a : Fin 262144) (l : Fin 32) (h) :
    cntDims.siIdx (ix2 a l) ⟨cntDims.scatterDimsToOperandDims.idxOf (0 : Fin 2), h⟩ = ix3 a l 0 := by
  funext b
  match b with
  | ⟨0, _⟩ => rfl
  | ⟨1, _⟩ => rfl
  | ⟨2, _⟩ => rfl

/-- Update (a, l) reads component 1 of its start index at (a, l, 1). -/
theorem cntDims_siIdx1 (a : Fin 262144) (l : Fin 32) (h) :
    cntDims.siIdx (ix2 a l) ⟨cntDims.scatterDimsToOperandDims.idxOf (1 : Fin 2), h⟩ = ix3 a l 1 := by
  funext b
  match b with
  | ⟨0, _⟩ => rfl
  | ⟨1, _⟩ => rfl
  | ⟨2, _⟩ => rfl

/-- The start on the row axis is the first index component, read signed. -/
theorem cntDims_start0 (a : Fin 262144) (l : Fin 32) (idx : IVec S262144x32x2 32) :
    cntDims.start (ix2 a l) idx 0 = (idx (ix3 a l 0)).toInt := by
  unfold ScatterDims.start
  rw [dif_pos (by decide)]
  rw [cntDims_siIdx0]

/-- The start on the column axis is the second index component, read signed. -/
theorem cntDims_start1 (a : Fin 262144) (l : Fin 32) (idx : IVec S262144x32x2 32) :
    cntDims.start (ix2 a l) idx 1 = (idx (ix3 a l 1)).toInt := by
  unfold ScatterDims.start
  rw [dif_pos (by decide)]
  rw [cntDims_siIdx1]

/-- Update (a, l) lands on entry (b, v) exactly when its two index components, read signed, are b and v
    (an update whose components leave the array lands nowhere). -/
theorem cntDims_result (a : Fin 262144) (l : Fin 32) (idx : IVec S262144x32x2 32) (b : Fin 262144) (v : Fin 185) :
    cntDims.resultIdx? (ix2 a l) idx = some (ix2 b v) ↔
      (idx (ix3 a l 0)).toInt = (b.val : ℤ) ∧ (idx (ix3 a l 1)).toInt = (v.val : ℤ) := by
  have s0 := cntDims_start0 a l idx
  have s1 := cntDims_start1 a l idx
  have w0 := cntDims_window (ix2 a l) 0
  have w1 := cntDims_window (ix2 a l) 1
  unfold ScatterDims.resultIdx?
  constructor
  · intro heq
    split at heq
    · next h =>
      have e := Option.some.inj heq
      have e0 : (cntDims.start (ix2 a l) idx 0 + (cntDims.window (ix2 a l) 0 : ℤ)).toNat = b.val :=
        congrArg Fin.val (congrFun e 0)
      have e1 : (cntDims.start (ix2 a l) idx 1 + (cntDims.window (ix2 a l) 1 : ℤ)).toNat = v.val :=
        congrArg Fin.val (congrFun e 1)
      have h0 := (h 0).1
      have h1 := (h 1).1
      rw [s0, w0] at e0 h0
      rw [s1, w1] at e1 h1
      constructor <;> omega
    · exact absurd heq (by simp)
  · rintro ⟨r0, r1⟩
    have hb := b.isLt
    have hv := v.isLt
    have h : ∀ a' : Fin S262144x185.rank, 0 ≤ cntDims.start (ix2 a l) idx a' + (cntDims.window (ix2 a l) a' : ℤ) ∧
        cntDims.start (ix2 a l) idx a' + (cntDims.window (ix2 a l) a' : ℤ) < (S262144x185.size a' : ℤ) := by
      intro a'
      match a' with
      | ⟨0, _⟩ =>
        show 0 ≤ cntDims.start (ix2 a l) idx 0 + (cntDims.window (ix2 a l) 0 : ℤ) ∧
          cntDims.start (ix2 a l) idx 0 + (cntDims.window (ix2 a l) 0 : ℤ) < ((262144 : ℕ) : ℤ)
        rw [s0, w0, r0]; omega
      | ⟨1, _⟩ =>
        show 0 ≤ cntDims.start (ix2 a l) idx 1 + (cntDims.window (ix2 a l) 1 : ℤ) ∧
          cntDims.start (ix2 a l) idx 1 + (cntDims.window (ix2 a l) 1 : ℤ) < ((185 : ℕ) : ℤ)
        rw [s1, w1, r1]; omega
    rw [dif_pos h]
    refine congrArg some (funext fun a' => ?_)
    match a' with
    | ⟨0, _⟩ =>
      refine Fin.ext ?_
      show (cntDims.start (ix2 a l) idx 0 + (cntDims.window (ix2 a l) 0 : ℤ)).toNat = b.val
      rw [s0, w0, r0]; omega
    | ⟨1, _⟩ =>
      refine Fin.ext ?_
      show (cntDims.start (ix2 a l) idx 1 + (cntDims.window (ix2 a l) 1 : ℤ)).toNat = v.val
      rw [s1, w1, r1]; omega

/-- The scatter read at an entry: when every update's row component is its own row and its column component is
    its slot's vocabulary index, entry (b, v) is the operand's entry plus the updates of the slots of row b whose
    index is v.  The sum over all updates splits by row; the rows other than b contribute nothing. -/
theorem scatter_row (x0 : S262144x32.Idx → BitVec 32) (idx : IVec S262144x32x2 32) (z : S262144x185.Idx → EReal)
    (upd : S262144x32.Idx → EReal)
    (hrow : ∀ (a : Fin 262144) (l : Fin 32), (idx (ix3 a l 0)).toInt = (a.val : ℤ))
    (hcol : ∀ (a : Fin 262144) (l : Fin 32), (idx (ix3 a l 1)).toInt = ((x0 (ix2 a l)).toNat : ℤ))
    (b : Fin 262144) (v : Fin 185) :
    Ideal.hostScatterAdd cntDims z idx upd (ix2 b v)
      = z (ix2 b v) + ∑ l : Fin 32, if (x0 (ix2 b l)).toNat = v.val then upd (ix2 b l) else 0 := by
  unfold Ideal.hostScatterAdd
  refine congrArg (z (ix2 b v) + ·) ?_
  rw [Finset.sum_filter, sum_idx2]
  rw [Finset.sum_eq_single b]
  · refine Finset.sum_congr rfl fun l _ => ?_
    have key := cntDims_result b l idx b v
    rw [hrow, hcol] at key
    by_cases hv : (x0 (ix2 b l)).toNat = v.val
    · rw [if_pos hv, if_pos (key.2 ⟨rfl, by exact_mod_cast hv⟩)]
    · rw [if_neg hv, if_neg (fun h => hv (by exact_mod_cast (key.1 h).2))]
  · intro a _ hab
    refine Finset.sum_eq_zero fun l _ => ?_
    have key := cntDims_result a l idx b v
    rw [hrow, hcol] at key
    rw [if_neg (fun h => hab (Fin.ext (by exact_mod_cast (key.1 h).1)))]
  · intro h; exact absurd (Finset.mem_univ b) h

/-! ## Words -/

/-- A select on "x is negative" returns x itself when x is not negative. -/
theorem select_slt_zero (x y : BitVec 32) (h : 0 ≤ x.toInt) :
    Scalar.select (IntOp.cmpi .slt x 0#32) y x = x := by
  have hc : IntOp.cmpi .slt x 0#32 = 0#1 := by
    unfold IntOp.cmpi
    have hs : x.slt 0#32 = false := by
      unfold BitVec.slt
      simpa using h
    show BitVec.ofBool (x.slt 0#32) = 0#1
    rw [hs]; rfl
  rw [hc]; exact select_zero _ _

/-- A row number as a word, read signed, is the row number. -/
theorem toInt_ofNat_row (a : Fin 262144) : (BitVec.ofNat 32 a.val).toInt = (a.val : ℤ) := by
  have h := a.isLt
  rw [BitVec.toInt_eq_toNat_cond, BitVec.toNat_ofNat]
  have hm : a.val % 2 ^ 32 = a.val := Nat.mod_eq_of_lt (by omega)
  rw [hm]; split <;> omega

/-- A word that is not negative read signed is its unsigned value. -/
theorem toInt_eq_toNat_of_nonneg (x : BitVec 32) (h : 0 ≤ x.toInt) : x.toInt = (x.toNat : ℤ) := by
  have hx := x.isLt
  rw [BitVec.toInt_eq_toNat_cond] at h ⊢
  split at h <;> split <;> omega

/-- The unit word is the number one. -/
theorem ofBits_one_f32 : Ideal.ofBits .f32 0x3F800000#32 = 1 := IdealRules.sign_bit.ideal_onePat .f32

/-! ## The joined index array at an index

The index array is the row piece and the column piece, each of last extent one, joined on the last axis:
component 0 reads the row piece, component 1 the column piece. -/

theorem concat_row (A B : S262144x32x1.Idx → BitVec 32) (a : Fin 262144) (l : Fin 32) :
    concatenate S262144x32x2 2 [⟨S262144x32x1, A⟩, ⟨S262144x32x1, B⟩]
      concatenates_S262144x32x1_S262144x32x1_S262144x32x2_d2 (ix3 a l 0) = A (ix3 a l 0) :=
  concatenate_pair_apply_left (t := S262144x32x2) 2 A B _ (ix3 a l (0 : Fin 2)) rfl (ix3 a l (0 : Fin 1)) (fun b => by
    match b with
    | ⟨0, _⟩ => rfl
    | ⟨1, _⟩ => rfl
    | ⟨2, _⟩ => rfl)

theorem concat_col (A B : S262144x32x1.Idx → BitVec 32) (a : Fin 262144) (l : Fin 32) :
    concatenate S262144x32x2 2 [⟨S262144x32x1, A⟩, ⟨S262144x32x1, B⟩]
      concatenates_S262144x32x1_S262144x32x1_S262144x32x2_d2 (ix3 a l 1) = B (ix3 a l 0) :=
  concatenate_pair_apply_right (t := S262144x32x2) 2 A B _ (ix3 a l (1 : Fin 2)) rfl rfl (ix3 a l (0 : Fin 1)) (fun b hb => by
    match b with
    | ⟨0, _⟩ => rfl
    | ⟨1, _⟩ => rfl
    | ⟨2, _⟩ => exact absurd rfl hb) rfl

variable (x0 : S262144x32.Idx → BitVec 32) (hnn : ∀ i, 0 ≤ (x0 i).toInt)
  (x1 x2 : S262144x32.Idx → EReal) (x3 : S262144x1.Idx → EReal)
  (x4 x5 : S185x256.Idx → EReal) (x6 x7 : S185x128.Idx → EReal) (x8 : S256x1.Idx → EReal)
  (x9 : S16x256.Idx → EReal) (x10 : S16.Idx → EReal) (x11 : S16x256.Idx → EReal)
  (x12 x13 : S16x128.Idx → EReal) (x14 x15 : S16x256.Idx → EReal) (x16 : S16x128.Idx → EReal)
  (x17 x18 : S1x16.Idx → EReal)

include hnn

/-! ## The four scatters

Each scatter has its own copy of the index array: the row number (never negative, so the wrap leaves it) beside the
slot's vocabulary index (not negative by the precondition, so the wrap leaves it too). -/

theorem row15 (a : Fin 262144) (l : Fin 32) : val_main_v15 (F := Ideal) (ix3 a l 0) = BitVec.ofNat 32 a.val := by
  simp only [val_main_v15_apply, val_main_v14_apply, val_main_v8_apply, val_main_v5_apply, val_main_v4_apply,
    val_main_c_apply, val_main_v1_apply, val_main_v0_apply]
  show Scalar.select (IntOp.cmpi .slt (BitVec.ofNat 32 a.val) 0#32) _ (BitVec.ofNat 32 a.val) = BitVec.ofNat 32 a.val
  exact select_slt_zero _ _ (by rw [toInt_ofNat_row]; omega)

theorem col16 (a : Fin 262144) (l : Fin 32) : val_main_v16 (F := Ideal) x0 (ix3 a l 0) = x0 (ix2 a l) := by
  have hI : idx_main_v16 (ix3 a l (0 : Fin 1)) = ix2 a l := funext fun d => by
    match d with
    | ⟨0, _⟩ => rfl
    | ⟨1, _⟩ => rfl
  simp only [val_main_v16_apply, val_main_v13_apply, val_main_v10_apply, val_main_v9_apply, val_main_c_2_apply, hI]
  exact select_slt_zero _ _ (hnn _)

theorem hrow17 (a : Fin 262144) (l : Fin 32) : (val_main_v17 (F := Ideal) x0 (ix3 a l 0)).toInt = (a.val : ℤ) := by
  unfold val_main_v17
  rw [concat_row, row15 x0 hnn, toInt_ofNat_row]

theorem hcol17 (a : Fin 262144) (l : Fin 32) :
    (val_main_v17 (F := Ideal) x0 (ix3 a l 1)).toInt = ((x0 (ix2 a l)).toNat : ℤ) := by
  unfold val_main_v17
  rw [concat_col, col16 x0 hnn]
  exact toInt_eq_toNat_of_nonneg _ (hnn _)

/-- Unit updates: the plain count. -/
theorem counts_fs (b : Fin 262144) (v : Fin 185) :
    val_main_v18 (F := Ideal) x0 (ix2 b v) = cnt (rowOf x0 b) (fun _ => 1) v.val := by
  unfold val_main_v18 Host.scatterAdd
  rw [Ideal.hostScatterAdd_def]
  rw [scatter_row x0 (val_main_v17 (F := Ideal) x0) _ _ (hrow17 x0 hnn) (hcol17 x0 hnn) b v]
  rw [val_main_v3_apply, val_main_cst_0_apply]
  show Ideal.ofBits .f32 0x00000000#32 + _ = _
  rw [Ideal.ofBits_zero_f32, zero_add]
  unfold cnt rowOf
  refine Finset.sum_congr rfl fun l _ => ?_
  rw [val_main_v2_apply, val_main_cst_apply]
  show (if _ then Ideal.ofBits .f32 0x3F800000#32 else 0) = _
  rw [ofBits_one_f32]

theorem row32 (a : Fin 262144) (l : Fin 32) : val_main_v32 (F := Ideal) (ix3 a l 0) = BitVec.ofNat 32 a.val := by
  simp only [val_main_v32_apply, val_main_v31_apply, val_main_v25_apply, val_main_v22_apply, val_main_v21_apply,
    val_main_c_5_apply, val_main_v1_apply, val_main_v0_apply]
  show Scalar.select (IntOp.cmpi .slt (BitVec.ofNat 32 a.val) 0#32) _ (BitVec.ofNat 32 a.val) = BitVec.ofNat 32 a.val
  exact select_slt_zero _ _ (by rw [toInt_ofNat_row]; omega)

theorem col33 (a : Fin 262144) (l : Fin 32) : val_main_v33 (F := Ideal) x0 (ix3 a l 0) = x0 (ix2 a l) := by
  have hI : idx_main_v33 (ix3 a l (0 : Fin 1)) = ix2 a l := funext fun d => by
    match d with
    | ⟨0, _⟩ => rfl
    | ⟨1, _⟩ => rfl
  simp only [val_main_v33_apply, val_main_v30_apply, val_main_v27_apply, val_main_v26_apply, val_main_c_7_apply, hI]
  exact select_slt_zero _ _ (hnn _)

theorem hrow34 (a : Fin 262144) (l : Fin 32) : (val_main_v34 (F := Ideal) x0 (ix3 a l 0)).toInt = (a.val : ℤ) := by
  unfold val_main_v34
  rw [concat_row, row32 x0 hnn, toInt_ofNat_row]

theorem hcol34 (a : Fin 262144) (l : Fin 32) :
    (val_main_v34 (F := Ideal) x0 (ix3 a l 1)).toInt = ((x0 (ix2 a l)).toNat : ℤ) := by
  unfold val_main_v34
  rw [concat_col, col33 x0 hnn]
  exact toInt_eq_toNat_of_nonneg _ (hnn _)

/-- Colour updates. -/
theorem counts_va (b : Fin 262144) (v : Fin 185) :
    val_main_v35 (F := Ideal) x0 x1 (ix2 b v) = cnt (rowOf x0 b) (rowOf x1 b) v.val := by
  unfold val_main_v35 Host.scatterAdd
  rw [Ideal.hostScatterAdd_def]
  rw [scatter_row x0 (val_main_v34 (F := Ideal) x0) _ _ (hrow34 x0 hnn) (hcol34 x0 hnn) b v]
  rw [val_main_v20_apply, val_main_cst_4_apply]
  show Ideal.ofBits .f32 0x00000000#32 + _ = _
  rw [Ideal.ofBits_zero_f32, zero_add]
  rfl

theorem row52 (a : Fin 262144) (l : Fin 32) : val_main_v52 (F := Ideal) (ix3 a l 0) = BitVec.ofNat 32 a.val := by
  simp only [val_main_v52_apply, val_main_v51_apply, val_main_v45_apply, val_main_v42_apply, val_main_v41_apply,
    val_main_c_10_apply, val_main_v1_apply, val_main_v0_apply]
  show Scalar.select (IntOp.cmpi .slt (BitVec.ofNat 32 a.val) 0#32) _ (BitVec.ofNat 32 a.val) = BitVec.ofNat 32 a.val
  exact select_slt_zero _ _ (by rw [toInt_ofNat_row]; omega)

theorem col53 (a : Fin 262144) (l : Fin 32) : val_main_v53 (F := Ideal) x0 (ix3 a l 0) = x0 (ix2 a l) := by
  have hI : idx_main_v53 (ix3 a l (0 : Fin 1)) = ix2 a l := funext fun d => by
    match d with
    | ⟨0, _⟩ => rfl
    | ⟨1, _⟩ => rfl
  simp only [val_main_v53_apply, val_main_v50_apply, val_main_v47_apply, val_main_v46_apply, val_main_c_12_apply, hI]
  exact select_slt_zero _ _ (hnn _)

theorem hrow54 (a : Fin 262144) (l : Fin 32) : (val_main_v54 (F := Ideal) x0 (ix3 a l 0)).toInt = (a.val : ℤ) := by
  unfold val_main_v54
  rw [concat_row, row52 x0 hnn, toInt_ofNat_row]

theorem hcol54 (a : Fin 262144) (l : Fin 32) :
    (val_main_v54 (F := Ideal) x0 (ix3 a l 1)).toInt = ((x0 (ix2 a l)).toNat : ℤ) := by
  unfold val_main_v54
  rw [concat_col, col53 x0 hnn]
  exact toInt_eq_toNat_of_nonneg _ (hnn _)

/-- Side updates. -/
theorem counts_ha (b : Fin 262144) (v : Fin 185) :
    val_main_v55 (F := Ideal) x0 x2 (ix2 b v) = cnt (rowOf x0 b) (rowOf x2 b) v.val := by
  unfold val_main_v55 Host.scatterAdd
  rw [Ideal.hostScatterAdd_def]
  rw [scatter_row x0 (val_main_v54 (F := Ideal) x0) _ _ (hrow54 x0 hnn) (hcol54 x0 hnn) b v]
  rw [val_main_v40_apply, val_main_cst_9_apply]
  show Ideal.ofBits .f32 0x00000000#32 + _ = _
  rw [Ideal.ofBits_zero_f32, zero_add]
  rfl

theorem row70 (a : Fin 262144) (l : Fin 32) : val_main_v70 (F := Ideal) (ix3 a l 0) = BitVec.ofNat 32 a.val := by
  simp only [val_main_v70_apply, val_main_v69_apply, val_main_v63_apply, val_main_v60_apply, val_main_v59_apply,
    val_main_c_15_apply, val_main_v1_apply, val_main_v0_apply]
  show Scalar.select (IntOp.cmpi .slt (BitVec.ofNat 32 a.val) 0#32) _ (BitVec.ofNat 32 a.val) = BitVec.ofNat 32 a.val
  exact select_slt_zero _ _ (by rw [toInt_ofNat_row]; omega)

theorem col71 (a : Fin 262144) (l : Fin 32) : val_main_v71 (F := Ideal) x0 (ix3 a l 0) = x0 (ix2 a l) := by
  have hI : idx_main_v71 (ix3 a l (0 : Fin 1)) = ix2 a l := funext fun d => by
    match d with
    | ⟨0, _⟩ => rfl
    | ⟨1, _⟩ => rfl
  simp only [val_main_v71_apply, val_main_v68_apply, val_main_v65_apply, val_main_v64_apply, val_main_c_17_apply, hI]
  exact select_slt_zero _ _ (hnn _)

theorem hrow72 (a : Fin 262144) (l : Fin 32) : (val_main_v72 (F := Ideal) x0 (ix3 a l 0)).toInt = (a.val : ℤ) := by
  unfold val_main_v72
  rw [concat_row, row70 x0 hnn, toInt_ofNat_row]

theorem hcol72 (a : Fin 262144) (l : Fin 32) :
    (val_main_v72 (F := Ideal) x0 (ix3 a l 1)).toInt = ((x0 (ix2 a l)).toNat : ℤ) := by
  unfold val_main_v72
  rw [concat_col, col71 x0 hnn]
  exact toInt_eq_toNat_of_nonneg _ (hnn _)

/-- Updates colour times side. -/
theorem counts_ra (b : Fin 262144) (v : Fin 185) :
    val_main_v73 (F := Ideal) x0 x1 x2 (ix2 b v) = cnt (rowOf x0 b) (fun l => rowOf x1 b l * rowOf x2 b l) v.val := by
  unfold val_main_v73 Host.scatterAdd
  rw [Ideal.hostScatterAdd_def]
  rw [scatter_row x0 (val_main_v72 (F := Ideal) x0) _ _ (hrow72 x0 hnn) (hcol72 x0 hnn) b v]
  rw [val_main_v58_apply, val_main_cst_14_apply]
  show Ideal.ofBits .f32 0x00000000#32 + _ = _
  rw [Ideal.ofBits_zero_f32, zero_add]
  rfl

end Cert.ReferenceIdeal.RefBag

end
-- ==== Proof.RefFirst.lean ====
/-
  The reference's first layer read at an entry: each of the four clamped vectors at (b, s) is the spec's first-layer
  function of row b — the scattered counts contracted with the table over the 185 vocabulary entries, the
  scalar's term a one-term contraction, the clamp a maximum then a minimum against the two bounds.
-/
import proofs.«422188_j67422396612990_3_alg».proof.Proof.Gen.ReferenceIdeal.Read
import proofs.«422188_j67422396612990_3_alg».proof.Proof.BagNet
import proofs.«422188_j67422396612990_3_alg».proof.Proof.RefBag
import Idealize.ShloMosaic.Lib.Pipeline.Value
import Idealize.ShloMosaic.Lib.ValueIdx
import Idealize.ShloMosaic.PureOps.Ideal.Laws

set_option maxRecDepth 16384

noncomputable section

namespace Cert.ReferenceIdeal.RefFirst

open Idealize.ShloMosaic Idealize.ShloMosaic.TcCoe Idealize.ShloMosaic.ValueIdx Cert.ReferenceIdeal Cert.ReferenceIdeal.Gen Cert.ReferenceIdeal.Read Cert.BagNet

variable (x0 : S262144x32.Idx → BitVec 32) (hnn : ∀ i, 0 ≤ (x0 i).toInt)
  (x1 x2 : S262144x32.Idx → EReal) (x3 : S262144x1.Idx → EReal)
  (x4 x5 : S185x256.Idx → EReal) (x6 x7 : S185x128.Idx → EReal) (x8 : S256x1.Idx → EReal)
  (x9 : S16x256.Idx → EReal) (x10 : S16.Idx → EReal) (x11 : S16x256.Idx → EReal)
  (x12 x13 : S16x128.Idx → EReal) (x14 x15 : S16x256.Idx → EReal) (x16 : S16x128.Idx → EReal)
  (x17 x18 : S1x16.Idx → EReal)

/-! ## The clamp

  The outlined clip takes the larger of the lower bound and the operand, then the smaller of the upper bound and
  that; on the extended reals the two operations are the lattice's `max` and `min`, and the bounds are the same
  printed words as the specification's, so the composite is `clamp` as it stands. -/

/-- The clip of one value against the two printed bounds is the specification's clamp. -/
theorem clip_eq (x : EReal) :
    FloatOps.minimumf (F := Ideal) (φ := .f32) (FloatOps.ofBits .f32 0x3F7E0000#32)
      (FloatOps.maximumf (FloatOps.ofBits .f32 0xBF7E0000#32) x) = clamp x := rfl

/-- The first clamped array at an entry is the clamp of the first contraction there. -/
theorem v75_clip (i : S262144x256.Idx) :
    val_main_v75 (F := Ideal) x0 x4 i = clamp (val_main_v19 (F := Ideal) x0 x4 i) := by
  rw [val_main_v75_apply, val_main_call0_v4_apply, val_main_call0_v3_apply, val_main_cst_20_apply,
    val_main_call0_v2_apply, val_main_call0_v1_apply, val_main_call0_v0_apply, val_main_cst_19_apply]
  exact clip_eq _

/-- The second clamped array at an entry is the clamp of the sum of the two contractions there. -/
theorem v76_clip (i : S262144x256.Idx) :
    val_main_v76 (F := Ideal) x0 x1 x3 x5 x8 i = clamp (val_main_v39 (F := Ideal) x0 x1 x3 x5 x8 i) := by
  rw [val_main_v76_apply, val_main_call1_v4_apply, val_main_call1_v3_apply, val_main_cst_22_apply,
    val_main_call1_v2_apply, val_main_call1_v1_apply, val_main_call1_v0_apply, val_main_cst_21_apply]
  exact clip_eq _

/-- The third clamped array at an entry is the clamp of the third contraction there. -/
theorem v77_clip (i : S262144x128.Idx) :
    val_main_v77 (F := Ideal) x0 x2 x6 i = clamp (val_main_v56 (F := Ideal) x0 x2 x6 i) := by
  rw [val_main_v77_apply, val_main_call2_v4_apply, val_main_call2_v3_apply, val_main_cst_24_apply,
    val_main_call2_v2_apply, val_main_call2_v1_apply, val_main_call2_v0_apply, val_main_cst_23_apply]
  exact clip_eq _

/-- The fourth clamped array at an entry is the clamp of the fourth contraction there. -/
theorem v78_clip (i : S262144x128.Idx) :
    val_main_v78 (F := Ideal) x0 x1 x2 x7 i = clamp (val_main_v74 (F := Ideal) x0 x1 x2 x7 i) := by
  rw [val_main_v78_apply, val_main_call3_v4_apply, val_main_call3_v3_apply, val_main_cst_26_apply,
    val_main_call3_v2_apply, val_main_call3_v1_apply, val_main_call3_v0_apply, val_main_cst_25_apply]
  exact clip_eq _

/-! ## Which entries a contraction reads

  Entry (b, s) of a contraction of a [rows, 185] array with a [185, columns] table reads, for each vocabulary
  entry k, the left operand at (b, k) and the table at (k, s). -/

theorem lidx19 (b : Fin 262144) (s : Fin 256) (k : Fin 185) : lidx_main_v19 (ix2 b s) k = ix2 b k := by
  funext a; match a with | ⟨0, _⟩ => rfl | ⟨1, _⟩ => rfl
theorem ridx19 (b : Fin 262144) (s : Fin 256) (k : Fin 185) : ridx_main_v19 (ix2 b s) k = ix2 k s := by
  funext a; match a with | ⟨0, _⟩ => rfl | ⟨1, _⟩ => rfl
theorem lidx36 (b : Fin 262144) (s : Fin 256) (k : Fin 185) : lidx_main_v36 (ix2 b s) k = ix2 b k := by
  funext a; match a with | ⟨0, _⟩ => rfl | ⟨1, _⟩ => rfl
theorem ridx36 (b : Fin 262144) (s : Fin 256) (k : Fin 185) : ridx_main_v36 (ix2 b s) k = ix2 k s := by
  funext a; match a with | ⟨0, _⟩ => rfl | ⟨1, _⟩ => rfl
theorem lidx56 (b : Fin 262144) (s : Fin 128) (k : Fin 185) : lidx_main_v56 (ix2 b s) k = ix2 b k := by
  funext a; match a with | ⟨0, _⟩ => rfl | ⟨1, _⟩ => rfl
theorem ridx56 (b : Fin 262144) (s : Fin 128) (k : Fin 185) : ridx_main_v56 (ix2 b s) k = ix2 k s := by
  funext a; match a with | ⟨0, _⟩ => rfl | ⟨1, _⟩ => rfl
theorem lidx74 (b : Fin 262144) (s : Fin 128) (k : Fin 185) : lidx_main_v74 (ix2 b s) k = ix2 b k := by
  funext a; match a with | ⟨0, _⟩ => rfl | ⟨1, _⟩ => rfl
theorem ridx74 (b : Fin 262144) (s : Fin 128) (k : Fin 185) : ridx_main_v74 (ix2 b s) k = ix2 k s := by
  funext a; match a with | ⟨0, _⟩ => rfl | ⟨1, _⟩ => rfl

/-- The scalar's contraction has one term: the left operand at (b, 0) and the transposed column at (0, s). -/
theorem lidx38 (b : Fin 262144) (s : Fin 256) (k : Fin 1) : lidx_main_v38 (ix2 b s) k = ix2 b k := by
  funext a; match a with | ⟨0, _⟩ => rfl | ⟨1, _⟩ => rfl
theorem ridx38 (b : Fin 262144) (s : Fin 256) (k : Fin 1) : ridx_main_v38 (ix2 b s) k = ix2 k s := by
  funext a; match a with | ⟨0, _⟩ => rfl | ⟨1, _⟩ => rfl
/-- The transposed column at (k, s) is the column at (s, k). -/
theorem idx37 (k : Fin 1) (s : Fin 256) : idx_main_v37 (ix2 k s) = ix2 s k := by
  funext a; match a with | ⟨0, _⟩ => rfl | ⟨1, _⟩ => rfl

/-- The scalar's one-term contraction: the row's scalar times the column's entry. -/
theorem v38_term (b : Fin 262144) (s : Fin 256) :
    val_main_v38 (F := Ideal) x3 x8 (ix2 b s) = x3 (ix2 b 0) * x8 (ix2 s 0) := by
  rw [val_main_v38_apply, Fin.sum_univ_one, lidx38, ridx38, val_main_v37_apply, idx37]

include hnn

/-! ## The four contractions are the four bags -/

/-- The unit counts contracted with the first table: the unweighted bag. -/
theorem v19_bag (b : Fin 262144) (s : Fin 256) :
    val_main_v19 (F := Ideal) x0 x4 (ix2 b s) = bag (rowOf x0 b) (fun _ => 1) (fun v : Fin 185 => x4 (ix2 v s)) := by
  rw [val_main_v19_apply]
  unfold bag
  refine Finset.sum_congr rfl fun k _ => ?_
  rw [lidx19, ridx19, RefBag.counts_fs x0 hnn]

/-- The colour counts contracted with the second table: the colour-weighted bag. -/
theorem v36_bag (b : Fin 262144) (s : Fin 256) :
    val_main_v36 (F := Ideal) x0 x1 x5 (ix2 b s) = bag (rowOf x0 b) (rowOf x1 b) (fun v : Fin 185 => x5 (ix2 v s)) := by
  rw [val_main_v36_apply]
  unfold bag
  refine Finset.sum_congr rfl fun k _ => ?_
  rw [lidx36, ridx36, RefBag.counts_va x0 hnn]

/-- The side counts contracted with the third table: the side-weighted bag. -/
theorem v56_bag (b : Fin 262144) (s : Fin 128) :
    val_main_v56 (F := Ideal) x0 x2 x6 (ix2 b s) = bag (rowOf x0 b) (rowOf x2 b) (fun v : Fin 185 => x6 (ix2 v s)) := by
  rw [val_main_v56_apply]
  unfold bag
  refine Finset.sum_congr rfl fun k _ => ?_
  rw [lidx56, ridx56, RefBag.counts_ha x0 hnn]

/-- The colour-times-side counts contracted with the fourth table: the bag weighted by the product. -/
theorem v74_bag (b : Fin 262144) (s : Fin 128) :
    val_main_v74 (F := Ideal) x0 x1 x2 x7 (ix2 b s)
      = bag (rowOf x0 b) (fun l => rowOf x1 b l * rowOf x2 b l) (fun v : Fin 185 => x7 (ix2 v s)) := by
  rw [val_main_v74_apply]
  unfold bag
  refine Finset.sum_congr rfl fun k _ => ?_
  rw [lidx74, ridx74, RefBag.counts_ra x0 hnn]

/-! ## The four clamped vectors -/

theorem fs1_eq (b : Fin 262144) (s : Fin 256) :
    val_main_v75 (F := Ideal) x0 x4 (ix2 b s) = fs1 (wts x4 x5 x6 x7 x8 x9 x10 x11 x12 x13 x14 x15 x16 x17 x18) (rowOf x0 b) s := by
  rw [v75_clip, v19_bag x0 hnn]
  rfl

theorem va1_eq (b : Fin 262144) (s : Fin 256) :
    val_main_v76 (F := Ideal) x0 x1 x3 x5 x8 (ix2 b s) = va1 (wts x4 x5 x6 x7 x8 x9 x10 x11 x12 x13 x14 x15 x16 x17 x18) (rowOf x0 b) (rowOf x1 b) (x3 (ix2 b 0)) s := by
  rw [v76_clip, val_main_v39_apply, v36_bag x0 hnn, v38_term]
  rfl

theorem ha1_eq (b : Fin 262144) (s : Fin 128) :
    val_main_v77 (F := Ideal) x0 x2 x6 (ix2 b s) = ha1 (wts x4 x5 x6 x7 x8 x9 x10 x11 x12 x13 x14 x15 x16 x17 x18) (rowOf x0 b) (rowOf x2 b) s := by
  rw [v77_clip, v56_bag x0 hnn]
  rfl

theorem ra1_eq (b : Fin 262144) (s : Fin 128) :
    val_main_v78 (F := Ideal) x0 x1 x2 x7 (ix2 b s) = ra1 (wts x4 x5 x6 x7 x8 x9 x10 x11 x12 x13 x14 x15 x16 x17 x18) (rowOf x0 b) (rowOf x1 b) (rowOf x2 b) s := by
  rw [v78_clip, v74_bag x0 hnn]
  rfl

end Cert.ReferenceIdeal.RefFirst

end
-- ==== Proof.RefTail.lean ====
/-
  The reference's result is the network's output row by row: from the four clamped first-layer vectors through
  the two dense layers (contractions with the transposed weights, the bias broadcast along the batch), the second
  clamp and the final pair of contractions, the column reshaped to a vector.
-/
import proofs.«422188_j67422396612990_3_alg».proof.Proof.Gen.ReferenceIdeal.Read
import proofs.«422188_j67422396612990_3_alg».proof.Proof.BagNet
import proofs.«422188_j67422396612990_3_alg».proof.Proof.RefFirst
import Idealize.ShloMosaic.Lib.Pipeline.Value
import Idealize.ShloMosaic.Lib.ValueIdx
import Idealize.ShloMosaic.PureOps.Ideal.Laws

set_option maxRecDepth 16384

noncomputable section

namespace Cert.ReferenceIdeal.RefTail

open Idealize.ShloMosaic Idealize.ShloMosaic.TcCoe Idealize.ShloMosaic.ValueIdx Cert.ReferenceIdeal Cert.ReferenceIdeal.Gen Cert.ReferenceIdeal.Read Cert.BagNet

variable (x0 : S262144x32.Idx → BitVec 32) (hnn : ∀ i, 0 ≤ (x0 i).toInt)
  (x1 x2 : S262144x32.Idx → EReal) (x3 : S262144x1.Idx → EReal)
  (x4 x5 : S185x256.Idx → EReal) (x6 x7 : S185x128.Idx → EReal) (x8 : S256x1.Idx → EReal)
  (x9 : S16x256.Idx → EReal) (x10 : S16.Idx → EReal) (x11 : S16x256.Idx → EReal)
  (x12 x13 : S16x128.Idx → EReal) (x14 x15 : S16x256.Idx → EReal) (x16 : S16x128.Idx → EReal)
  (x17 x18 : S1x16.Idx → EReal)

include hnn

/-- The first head's leading term: the unweighted first-layer vector against the weight's row `o` (the contraction runs over the transposed weight's first axis). -/
theorem dot_fs (b : Fin 262144) (o : Fin 16) :
    val_main_v80 (F := Ideal) x0 x4 x9 (ix2 b o) = ∑ s : Fin 256, fs1 (wts x4 x5 x6 x7 x8 x9 x10 x11 x12 x13 x14 x15 x16 x17 x18) (rowOf x0 b) s * x9 (ix2 o s) := by
  rw [val_main_v80_apply]
  refine Finset.sum_congr rfl fun k _ => ?_
  have el : lidx_main_v80 (ix2 b o) k = ix2 b k := funext fun a => Fin.ext (by match a with | ⟨0, _⟩ => rfl | ⟨1, _⟩ => rfl)
  have er : idx_main_v79 (ridx_main_v80 (ix2 b o) k) = ix2 o k := funext fun a => Fin.ext (by match a with | ⟨0, _⟩ => rfl | ⟨1, _⟩ => rfl)
  rw [val_main_v79_apply, el, er, RefFirst.fs1_eq x0 hnn x4 x5 x6 x7 x8 x9 x10 x11 x12 x13 x14 x15 x16 x17 x18 b k]

/-- The first head's second term: absolute values of the colour-weighted vector against its weight's row `o`. -/
theorem dot_absva (b : Fin 262144) (o : Fin 16) :
    val_main_v86 (F := Ideal) x0 x1 x3 x5 x8 x11 (ix2 b o) = ∑ s : Fin 256, mag (va1 (wts x4 x5 x6 x7 x8 x9 x10 x11 x12 x13 x14 x15 x16 x17 x18) (rowOf x0 b) (rowOf x1 b) (x3 (ix2 b 0)) s) * x11 (ix2 o s) := by
  rw [val_main_v86_apply]
  refine Finset.sum_congr rfl fun k _ => ?_
  have el : lidx_main_v86 (ix2 b o) k = ix2 b k := funext fun a => Fin.ext (by match a with | ⟨0, _⟩ => rfl | ⟨1, _⟩ => rfl)
  have er : idx_main_v85 (ridx_main_v86 (ix2 b o) k) = ix2 o k := funext fun a => Fin.ext (by match a with | ⟨0, _⟩ => rfl | ⟨1, _⟩ => rfl)
  rw [val_main_v84_apply, val_main_v85_apply, el, er, RefFirst.va1_eq x0 hnn x1 x3 x4 x5 x6 x7 x8 x9 x10 x11 x12 x13 x14 x15 x16 x17 x18 b k]
  rfl

/-- The first head's third term: absolute values of the side-weighted vector against its weight's row `o`. -/
theorem dot_absha (b : Fin 262144) (o : Fin 16) :
    val_main_v90 (F := Ideal) x0 x2 x6 x12 (ix2 b o) = ∑ s : Fin 128, mag (ha1 (wts x4 x5 x6 x7 x8 x9 x10 x11 x12 x13 x14 x15 x16 x17 x18) (rowOf x0 b) (rowOf x2 b) s) * x12 (ix2 o s) := by
  rw [val_main_v90_apply]
  refine Finset.sum_congr rfl fun k _ => ?_
  have el : lidx_main_v90 (ix2 b o) k = ix2 b k := funext fun a => Fin.ext (by match a with | ⟨0, _⟩ => rfl | ⟨1, _⟩ => rfl)
  have er : idx_main_v89 (ridx_main_v90 (ix2 b o) k) = ix2 o k := funext fun a => Fin.ext (by match a with | ⟨0, _⟩ => rfl | ⟨1, _⟩ => rfl)
  rw [val_main_v88_apply, val_main_v89_apply, el, er, RefFirst.ha1_eq x0 hnn x2 x4 x5 x6 x7 x8 x9 x10 x11 x12 x13 x14 x15 x16 x17 x18 b k]
  rfl

/-- The first head's fourth term: absolute values of the colour-times-side vector against its weight's row `o`. -/
theorem dot_absra (b : Fin 262144) (o : Fin 16) :
    val_main_v94 (F := Ideal) x0 x1 x2 x7 x13 (ix2 b o) = ∑ s : Fin 128, mag (ra1 (wts x4 x5 x6 x7 x8 x9 x10 x11 x12 x13 x14 x15 x16 x17 x18) (rowOf x0 b) (rowOf x1 b) (rowOf x2 b) s) * x13 (ix2 o s) := by
  rw [val_main_v94_apply]
  refine Finset.sum_congr rfl fun k _ => ?_
  have el : lidx_main_v94 (ix2 b o) k = ix2 b k := funext fun a => Fin.ext (by match a with | ⟨0, _⟩ => rfl | ⟨1, _⟩ => rfl)
  have er : idx_main_v93 (ridx_main_v94 (ix2 b o) k) = ix2 o k := funext fun a => Fin.ext (by match a with | ⟨0, _⟩ => rfl | ⟨1, _⟩ => rfl)
  rw [val_main_v92_apply, val_main_v93_apply, el, er, RefFirst.ra1_eq x0 hnn x1 x2 x4 x5 x6 x7 x8 x9 x10 x11 x12 x13 x14 x15 x16 x17 x18 b k]
  rfl

/-- The second head's leading term: the colour-weighted vector against its weight's row `o`. -/
theorem dot_va (b : Fin 262144) (o : Fin 16) :
    val_main_v97 (F := Ideal) x0 x1 x3 x5 x8 x14 (ix2 b o) = ∑ s : Fin 256, va1 (wts x4 x5 x6 x7 x8 x9 x10 x11 x12 x13 x14 x15 x16 x17 x18) (rowOf x0 b) (rowOf x1 b) (x3 (ix2 b 0)) s * x14 (ix2 o s) := by
  rw [val_main_v97_apply]
  refine Finset.sum_congr rfl fun k _ => ?_
  have el : lidx_main_v97 (ix2 b o) k = ix2 b k := funext fun a => Fin.ext (by match a with | ⟨0, _⟩ => rfl | ⟨1, _⟩ => rfl)
  have er : idx_main_v96 (ridx_main_v97 (ix2 b o) k) = ix2 o k := funext fun a => Fin.ext (by match a with | ⟨0, _⟩ => rfl | ⟨1, _⟩ => rfl)
  rw [val_main_v96_apply, el, er, RefFirst.va1_eq x0 hnn x1 x3 x4 x5 x6 x7 x8 x9 x10 x11 x12 x13 x14 x15 x16 x17 x18 b k]

/-- The second head's second term: the entrywise product of the unweighted and colour-weighted vectors against its weight's row `o`. -/
theorem dot_fsxva (b : Fin 262144) (o : Fin 16) :
    val_main_v100 (F := Ideal) x0 x1 x3 x4 x5 x8 x15 (ix2 b o) = ∑ s : Fin 256, (fs1 (wts x4 x5 x6 x7 x8 x9 x10 x11 x12 x13 x14 x15 x16 x17 x18) (rowOf x0 b) s * va1 (wts x4 x5 x6 x7 x8 x9 x10 x11 x12 x13 x14 x15 x16 x17 x18) (rowOf x0 b) (rowOf x1 b) (x3 (ix2 b 0)) s) * x15 (ix2 o s) := by
  rw [val_main_v100_apply]
  refine Finset.sum_congr rfl fun k _ => ?_
  have el : lidx_main_v100 (ix2 b o) k = ix2 b k := funext fun a => Fin.ext (by match a with | ⟨0, _⟩ => rfl | ⟨1, _⟩ => rfl)
  have er : idx_main_v99 (ridx_main_v100 (ix2 b o) k) = ix2 o k := funext fun a => Fin.ext (by match a with | ⟨0, _⟩ => rfl | ⟨1, _⟩ => rfl)
  rw [val_main_v98_apply, val_main_v99_apply, el, er, RefFirst.fs1_eq x0 hnn x4 x5 x6 x7 x8 x9 x10 x11 x12 x13 x14 x15 x16 x17 x18 b k, RefFirst.va1_eq x0 hnn x1 x3 x4 x5 x6 x7 x8 x9 x10 x11 x12 x13 x14 x15 x16 x17 x18 b k]
  rfl

/-- The second head's third term: the entrywise product of the side-weighted and colour-times-side vectors against its weight's row `o`. -/
theorem dot_haxra (b : Fin 262144) (o : Fin 16) :
    val_main_v104 (F := Ideal) x0 x1 x2 x6 x7 x16 (ix2 b o) = ∑ s : Fin 128, (ha1 (wts x4 x5 x6 x7 x8 x9 x10 x11 x12 x13 x14 x15 x16 x17 x18) (rowOf x0 b) (rowOf x2 b) s * ra1 (wts x4 x5 x6 x7 x8 x9 x10 x11 x12 x13 x14 x15 x16 x17 x18) (rowOf x0 b) (rowOf x1 b) (rowOf x2 b) s) * x16 (ix2 o s) := by
  rw [val_main_v104_apply]
  refine Finset.sum_congr rfl fun k _ => ?_
  have el : lidx_main_v104 (ix2 b o) k = ix2 b k := funext fun a => Fin.ext (by match a with | ⟨0, _⟩ => rfl | ⟨1, _⟩ => rfl)
  have er : idx_main_v103 (ridx_main_v104 (ix2 b o) k) = ix2 o k := funext fun a => Fin.ext (by match a with | ⟨0, _⟩ => rfl | ⟨1, _⟩ => rfl)
  rw [val_main_v102_apply, val_main_v103_apply, el, er, RefFirst.ha1_eq x0 hnn x2 x4 x5 x6 x7 x8 x9 x10 x11 x12 x13 x14 x15 x16 x17 x18 b k, RefFirst.ra1_eq x0 hnn x1 x2 x4 x5 x6 x7 x8 x9 x10 x11 x12 x13 x14 x15 x16 x17 x18 b k]
  rfl

/-- The second layer's first head at (b, o): the bias reaches every batch row through two broadcasts, the four
    contractions are added in the spec's own order, and the clamp is a maximum against the lower bound followed by a
    minimum against the upper bound. -/
theorem fs2_eq (b : Fin 262144) (o : Fin 16) :
    val_main_v106 (F := Ideal) x0 x1 x2 x3 x4 x5 x6 x7 x8 x9 x10 x11 x12 x13 (ix2 b o)
      = fs2 (wts x4 x5 x6 x7 x8 x9 x10 x11 x12 x13 x14 x15 x16 x17 x18) (rowOf x0 b) (rowOf x1 b) (rowOf x2 b) (x3 (ix2 b 0)) o := by
  have eb : idx_main_v81 (idx_main_v82 (ix2 b o)) = ix1 o :=
    funext fun a => Fin.ext (by match a with | ⟨0, _⟩ => rfl)
  rw [val_main_v106_apply, val_main_call4_v4_apply, val_main_call4_v3_apply, val_main_cst_28_apply,
    val_main_call4_v2_apply, val_main_call4_v1_apply, val_main_call4_v0_apply, val_main_cst_27_apply,
    val_main_v95_apply, val_main_v91_apply, val_main_v87_apply, val_main_v83_apply,
    val_main_v82_apply, val_main_v81_apply, eb,
    dot_fs x0 hnn x4 x5 x6 x7 x8 x9 x10 x11 x12 x13 x14 x15 x16 x17 x18 b o, dot_absva x0 hnn x1 x3 x4 x5 x6 x7 x8 x9 x10 x11 x12 x13 x14 x15 x16 x17 x18 b o,
    dot_absha x0 hnn x2 x4 x5 x6 x7 x8 x9 x10 x11 x12 x13 x14 x15 x16 x17 x18 b o, dot_absra x0 hnn x1 x2 x4 x5 x6 x7 x8 x9 x10 x11 x12 x13 x14 x15 x16 x17 x18 b o]
  rfl

/-- The second layer's second head at (b, o): three contractions added in the spec's order, then the clamp. -/
theorem va2_eq (b : Fin 262144) (o : Fin 16) :
    val_main_v107 (F := Ideal) x0 x1 x2 x3 x4 x5 x6 x7 x8 x14 x15 x16 (ix2 b o)
      = va2 (wts x4 x5 x6 x7 x8 x9 x10 x11 x12 x13 x14 x15 x16 x17 x18) (rowOf x0 b) (rowOf x1 b) (rowOf x2 b) (x3 (ix2 b 0)) o := by
  rw [val_main_v107_apply, val_main_call5_v4_apply, val_main_call5_v3_apply, val_main_cst_30_apply,
    val_main_call5_v2_apply, val_main_call5_v1_apply, val_main_call5_v0_apply, val_main_cst_29_apply,
    val_main_v105_apply, val_main_v101_apply,
    dot_va x0 hnn x1 x3 x4 x5 x6 x7 x8 x9 x10 x11 x12 x13 x14 x15 x16 x17 x18 b o, dot_fsxva x0 hnn x1 x3 x4 x5 x6 x7 x8 x9 x10 x11 x12 x13 x14 x15 x16 x17 x18 b o,
    dot_haxra x0 hnn x1 x2 x4 x5 x6 x7 x8 x9 x10 x11 x12 x13 x14 x15 x16 x17 x18 b o]
  rfl

/-- The result at batch row b: the column [262144, 1] read at (b, 0) is the sum of the two last contractions, over the
    sixteen second-layer outputs, against the last layer's two weight rows. -/
theorem out_eq (b : Fin 262144) :
    val_main_v114 (F := Ideal) x0 x1 x2 x3 x4 x5 x6 x7 x8 x9 x10 x11 x12 x13 x14 x15 x16 x17 x18 (ix1 b)
      = out (wts x4 x5 x6 x7 x8 x9 x10 x11 x12 x13 x14 x15 x16 x17 x18) (rowOf x0 b) (rowOf x1 b) (rowOf x2 b) (x3 (ix2 b 0)) := by
  rw [val_main_v114_apply, val_main_v113_apply, val_main_v109_apply, val_main_v112_apply]
  unfold out
  refine congrArg₂ (· + ·) (Finset.sum_congr rfl fun k _ => ?_) (Finset.sum_congr rfl fun k _ => ?_)
  · have el : lidx_main_v109 (idx_main_v114 (ix1 b)) k = ix2 b k :=
      funext fun a => Fin.ext (by match a with | ⟨0, _⟩ => exact Nat.div_one _ | ⟨1, _⟩ => rfl)
    have er : idx_main_v108 (ridx_main_v109 (idx_main_v114 (ix1 b)) k) = ix2 0 k := funext fun a => Fin.ext (by match a with | ⟨0, _⟩ => rfl | ⟨1, _⟩ => rfl)
    rw [val_main_v108_apply, el, er, va2_eq x0 hnn x1 x2 x3 x4 x5 x6 x7 x8 x9 x10 x11 x12 x13 x14 x15 x16 x17 x18 b k]
    rfl
  · have el : lidx_main_v112 (idx_main_v114 (ix1 b)) k = ix2 b k :=
      funext fun a => Fin.ext (by match a with | ⟨0, _⟩ => exact Nat.div_one _ | ⟨1, _⟩ => rfl)
    have er : idx_main_v111 (ridx_main_v112 (idx_main_v114 (ix1 b)) k) = ix2 0 k := funext fun a => Fin.ext (by match a with | ⟨0, _⟩ => rfl | ⟨1, _⟩ => rfl)
    rw [val_main_v110_apply, val_main_v111_apply, el, er, fs2_eq x0 hnn x1 x2 x3 x4 x5 x6 x7 x8 x9 x10 x11 x12 x13 x14 x15 x16 x17 x18 b k, va2_eq x0 hnn x1 x2 x3 x4 x5 x6 x7 x8 x9 x10 x11 x12 x13 x14 x15 x16 x17 x18 b k]
    rfl

/-- The reference's result array is the spec's result of its arguments. -/
theorem result_eq :
    val_main_v114 (F := Ideal) x0 x1 x2 x3 x4 x5 x6 x7 x8 x9 x10 x11 x12 x13 x14 x15 x16 x17 x18 = result x0 x1 x2 x3 x4 x5 x6 x7 x8 x9 x10 x11 x12 x13 x14 x15 x16 x17 x18 := by
  funext i
  obtain ⟨b, rfl⟩ : ∃ b : Fin 262144, i = ix1 b := ⟨i 0, eq_ix1 i⟩
  exact out_eq x0 hnn x1 x2 x3 x4 x5 x6 x7 x8 x9 x10 x11 x12 x13 x14 x15 x16 x17 x18 b

end Cert.ReferenceIdeal.RefTail

end
-- ==== Proof.KCount.lean ====
/-
  What the four scratch accumulators of one grid step hold when the step reads them back, entry by entry:
  accumulator entry (r, v) is the total weight of the slots of block row r whose index is v — each slot's
  one-hot column times its weight (1, colour, side, colour·side), added in slot order from zero.
-/
import proofs.«422188_j67422396612990_3_alg».proof.Proof.Gen.KernelIdeal.Frame
import proofs.«422188_j67422396612990_3_alg».proof.Proof.BagNet
import Idealize.ShloMosaic.Lib.Pipeline.Value
import Idealize.ShloMosaic.Lib.ValueIdx
import Idealize.ShloMosaic.Lib.ValueLayout

set_option maxRecDepth 16384

noncomputable section

namespace Cert.KernelIdeal.KCount

open Idealize.ShloMosaic Idealize.ShloMosaic.TcCoe Idealize.ShloMosaic.ValueIdx Cert.KernelIdeal Cert.KernelIdeal.Gen Cert.BagNet

variable (c : Dev nD)
  (arg1 : Memref sig .tc .vmem S1024x32 .i32) (harg1 : arg1.IsWhole)
  (arg2 : Memref sig .tc .vmem S1024x32 .f32) (harg2 : arg2.IsWhole)
  (arg3 : Memref sig .tc .vmem S1024x32 .f32) (harg3 : arg3.IsWhole)
  (arg21 arg22 arg23 arg24 : Memref sig .tc .vmem S1024x256 .f32)
  (x0 : Vec Ideal S1024x32 .i32) (x1 x2 : Vec Ideal S1024x32 .f32)

theorem hz : (![0, 0] : Fin 2 → ℕ) = fun _ => 0 := by funext a; fin_cases a <;> rfl

/-- The index block as loaded is the block. -/
theorem r_eq : kernelRun0_A.sl.r (F := Ideal) c arg1 harg1 x0 = x0 := by
  unfold kernelRun0_A.sl.r
  rw [View.readAt_eq_ld, harg1.read_unread]
  exact View.ld_unit_zero hz _ x0

/-- A one-bit equality test, widened and converted, is one where the words are equal and zero elsewhere. -/
theorem bit_real (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have : (IntOp.cmpi .eq a a).setWidth 32 = 1#32 := by
      simp [IntOp.cmpi]
    rw [this]
    norm_num
  · rw [if_neg h]
    have hf : (a == b) = false := beq_eq_false_iff_ne.mpr h
    have : (IntOp.cmpi .eq a b).setWidth 32 = 0#32 := by
      show (BitVec.ofBool (a == b)).setWidth 32 = 0#32
      rw [hf]; rfl
    rw [this]
    norm_num

/-- A column of a block of 32 columns, spread over the 256 entries of each row, reads the block at that column. -/
theorem col_apply {α : Type} (W : S1024x32.Idx → α) (k : ℕ) (hk : k < 32) (hs : S1024x32.Slices ![0, k] S1024x1)
    (hb : S1024x1.Broadcasts S1024x256) (r : Fin 1024) (v : Fin 256) :
    broadcastTo S1024x256 (extractStridedSlice S1024x1 ![0, k] W hs) hb (ix2 r v) = W (ix2 r ⟨k, hk⟩) := by
  refine (broadcastTo_apply _ hb (ix2 r v) (ix2 r (0 : Fin 1)) fun a => ?_).trans ?_
  · match a with
    | ⟨0, _⟩ => rfl
    | ⟨1, _⟩ => rfl
  · exact slice2_axis1_apply k W hs r 0 ⟨k, hk⟩ rfl

/-- One slot's one-hot row: entry (r, v) is one where the slot's index is v. -/
theorem hot_apply (X : Vec Ideal S1024x32 .i32) (k : ℕ) (hk : k < 32) (hs : S1024x32.Slices ![0, k] S1024x1)
    (hi : S1024x256.Iotas .tc 32 [1]) (hb : S1024x1.Broadcasts S1024x256) (hlt : 1 < 32) (r : Fin 1024) (v : Fin 256) :
    (sitofp .f32 (extui 32 (cmpi .eq (iota .tc S1024x256 32 [1] hi)
      (broadcastTo S1024x256 (extractStridedSlice S1024x1 ![0, k] X hs) hb)) hlt) : FVec Ideal S1024x256 .f32) (ix2 r v)
      = if (X (ix2 r ⟨k, hk⟩)).toNat = v.val then (1 : EReal) else 0 := by
  show FloatOps.sitofp (F := Ideal) .f32 ((IntOp.cmpi .eq (iota .tc S1024x256 32 [1] hi (ix2 r v))
      (broadcastTo S1024x256 (extractStridedSlice S1024x1 ![0, k] X hs) hb (ix2 r v))).setWidth 32) = _
  rw [col_apply X k hk hs hb r v, iota_single_apply, bit_real]
  show (if BitVec.ofNat 32 v.val = X (ix2 r ⟨k, hk⟩) then (1 : EReal) else 0) = _
  have hv : v.val < 2 ^ 32 := lt_trans v.isLt (by norm_num)
  by_cases h : (X (ix2 r ⟨k, hk⟩)).toNat = v.val
  · rw [if_pos h, if_pos]
    apply BitVec.eq_of_toNat_eq
    rw [BitVec.toNat_ofNat, h]; exact Nat.mod_eq_of_lt hv
  · rw [if_neg h, if_neg]
    intro e; apply h; rw [← e, BitVec.toNat_ofNat]; exact Nat.mod_eq_of_lt hv

/-- The colour block as loaded is the block. -/
theorem r1_eq : kernelRun0_A.sl.r_1 (F := Ideal) c arg2 harg2 x1 = x1 := by
  unfold kernelRun0_A.sl.r_1
  rw [View.readAt_eq_ld, harg2.read_unread]
  exact View.ld_unit_zero hz _ x1

/-- The side block as loaded is the block. -/
theorem r2_eq : kernelRun0_A.sl.r_2 (F := Ideal) c arg3 harg3 x2 = x2 := by
  unfold kernelRun0_A.sl.r_2
  rw [View.readAt_eq_ld, harg3.read_unread]
  exact View.ld_unit_zero hz _ x2

/-- The rectangle of every accumulator access: the whole buffer. -/
abbrev RW : Rect S1024x256 := Rect.unit ![0, 0] S1024x256.size inb_S1024x256_S1024x256_0_0

/-- After the stores `L` the buffer read back whole holds, at entry (r, v), the total of the first `k` slots' terms. -/
def Tot (M : Memref sig .tc .vmem S1024x256 .f32) (f : Fin 1024 → Fin 256 → Fin 32 → EReal)
    (L : List (View.Piece (Elt Ideal) S1024x256 .f32)) (k : ℕ) : Prop :=
  ∀ (r : Fin 1024) (v : Fin 256), M.view.readCov L RW.toLoadRect (ix2 r v) = upTo (f r v) k

/-- The unweighted term of slot l at entry (r, v). -/
def fsW (X : Vec Ideal S1024x32 .i32) (r : Fin 1024) (v : Fin 256) (l : Fin 32) : EReal :=
  if (X (ix2 r l)).toNat = v.val then 1 else 0

/-- One more store, of what was there plus slot k's term, extends the total by one slot. -/
theorem Tot.cons {M : Memref sig .tc .vmem S1024x256 .f32} {f : Fin 1024 → Fin 256 → Fin 32 → EReal}
    {L : List (View.Piece (Elt Ideal) S1024x256 .f32)} {k : ℕ} (h : Tot M f L k) (P : Vec Ideal S1024x256 .f32)
    (hP : ∀ r v, P (ix2 r v) = M.view.readCov L RW.toLoadRect (ix2 r v) + slot (f r v) k) :
    Tot M f (⟨RW, P⟩ :: L) (k + 1) := by
  intro r v
  rw [View.readCov_cons_toLoadRect, hP, h r v]
  rfl

/-- The zeroing store starts the total at nothing. -/
theorem Tot.zero (M : Memref sig .tc .vmem S1024x256 .f32) (f : Fin 1024 → Fin 256 → Fin 32 → EReal)
    (P : Vec Ideal S1024x256 .f32)
    (hP : P = shapeCast S1024x256 (broadcast S1024x256 (Scalar.ofBits (F := Ideal) .f32 0x00000000#32)) shapeCasts_S1024x256_S1024x256) :
    Tot M f [⟨RW, P⟩] 0 := by
  intro r v
  rw [View.readCov_cons_toLoadRect, hP, shapeCast_self]
  exact Ideal.ofBits_zero_f32

/-- One slot's one-hot rows. -/
def hot (X : Vec Ideal S1024x32 .i32) (k : ℕ) (hs : S1024x32.Slices ![0, k] S1024x1) : FVec Ideal S1024x256 .f32 :=
  sitofp .f32 (extui 32 (cmpi .eq (iota .tc S1024x256 32 [1] iota_S1024x256_d1_w32)
    (broadcastTo S1024x256 (extractStridedSlice S1024x1 ![0, k] X hs) broadcasts_S1024x1_S1024x256)) natLt_1_32)

theorem slot_lt (f : Fin 32 → EReal) {k : ℕ} (hk : k < 32) : slot f k = f ⟨k, hk⟩ := dif_pos hk

/-- The unweighted update: the store of the read-back plus the slot's one-hot rows. -/
theorem step_fs {M : Memref sig .tc .vmem S1024x256 .f32} {X : Vec Ideal S1024x32 .i32}
    {L : List (View.Piece (Elt Ideal) S1024x256 .f32)} {k : ℕ} (hk : k < 32) (h : Tot M (fsW X) L k)
    (hs : S1024x32.Slices ![0, k] S1024x1) (P : Vec Ideal S1024x256 .f32)
    (hP : P = shapeCast S1024x256 (addf (M.view.readCov L RW.toLoadRect) (hot X k hs)) shapeCasts_S1024x256_S1024x256) :
    Tot M (fsW X) (⟨RW, P⟩ :: L) (k + 1) := by
  refine h.cons P fun r v => ?_
  rw [hP, shapeCast_self, slot_lt _ hk]
  exact congrArg (_ + ·) (hot_apply X k hk hs _ _ _ r v)

/-- A column cut is inside the block for each of the 32 slots. -/
theorem slices_col (k : ℕ) (hk : k < 32) : S1024x32.Slices ![0, k] S1024x1 :=
  ⟨rfl, fun a => by
    match a with
    | ⟨0, _⟩ => exact Nat.le_refl _
    | ⟨1, _⟩ => exact hk⟩

/-- The weighted term of slot l at entry (r, v): the weight where the slot's index is v. -/
def wW (X : Vec Ideal S1024x32 .i32) (W : Fin 1024 → Fin 32 → EReal) (r : Fin 1024) (v : Fin 256) (l : Fin 32) : EReal :=
  (if (X (ix2 r l)).toNat = v.val then 1 else 0) * W r l

/-- The weighted update with one weight block: the store of the read-back plus the slot's one-hot rows times its weight column. -/
theorem step_w1 {M : Memref sig .tc .vmem S1024x256 .f32} {X : Vec Ideal S1024x32 .i32} {W : Vec Ideal S1024x32 .f32}
    {L : List (View.Piece (Elt Ideal) S1024x256 .f32)} {k : ℕ} (hk : k < 32) (h : Tot M (wW X fun r l => W (ix2 r l)) L k)
    (hs : S1024x32.Slices ![0, k] S1024x1) (P : Vec Ideal S1024x256 .f32)
    (hP : P = shapeCast S1024x256 (addf (M.view.readCov L RW.toLoadRect)
      (mulf (hot X k hs) (broadcastTo S1024x256 (extractStridedSlice S1024x1 ![0, k] W hs) broadcasts_S1024x1_S1024x256)))
      shapeCasts_S1024x256_S1024x256) :
    Tot M (wW X fun r l => W (ix2 r l)) (⟨RW, P⟩ :: L) (k + 1) := by
  refine h.cons P fun r v => ?_
  rw [hP, shapeCast_self, slot_lt _ hk]
  refine congrArg (_ + ·) ?_
  show hot X k hs (ix2 r v) * broadcastTo S1024x256 (extractStridedSlice S1024x1 ![0, k] W hs) broadcasts_S1024x1_S1024x256 (ix2 r v) = _
  rw [col_apply W k hk hs _ r v]
  exact congrArg (· * _) (hot_apply X k hk hs _ _ _ r v)

/-- The weighted update with the product of two weight blocks' columns. -/
theorem step_w2 {M : Memref sig .tc .vmem S1024x256 .f32} {X : Vec Ideal S1024x32 .i32} {W1 W2 : Vec Ideal S1024x32 .f32}
    {L : List (View.Piece (Elt Ideal) S1024x256 .f32)} {k : ℕ} (hk : k < 32)
    (h : Tot M (wW X fun r l => W1 (ix2 r l) * W2 (ix2 r l)) L k)
    (hs : S1024x32.Slices ![0, k] S1024x1) (P : Vec Ideal S1024x256 .f32)
    (hP : P = shapeCast S1024x256 (addf (M.view.readCov L RW.toLoadRect)
      (mulf (hot X k hs) (broadcastTo S1024x256 (mulf (extractStridedSlice S1024x1 ![0, k] W1 hs)
        (extractStridedSlice S1024x1 ![0, k] W2 hs)) broadcasts_S1024x1_S1024x256)))
      shapeCasts_S1024x256_S1024x256) :
    Tot M (wW X fun r l => W1 (ix2 r l) * W2 (ix2 r l)) (⟨RW, P⟩ :: L) (k + 1) := by
  refine h.cons P fun r v => ?_
  rw [hP, shapeCast_self, slot_lt _ hk]
  refine congrArg (_ + ·) ?_
  show hot X k hs (ix2 r v) * broadcastTo S1024x256 (mulf (extractStridedSlice S1024x1 ![0, k] W1 hs)
        (extractStridedSlice S1024x1 ![0, k] W2 hs) : FVec Ideal S1024x1 .f32) broadcasts_S1024x1_S1024x256 (ix2 r v) = _
  have e : broadcastTo S1024x256 (mulf (extractStridedSlice S1024x1 ![0, k] W1 hs)
        (extractStridedSlice S1024x1 ![0, k] W2 hs) : FVec Ideal S1024x1 .f32) broadcasts_S1024x1_S1024x256 (ix2 r v)
      = W1 (ix2 r ⟨k, hk⟩) * W2 (ix2 r ⟨k, hk⟩) := by
    refine (broadcastTo_apply _ broadcasts_S1024x1_S1024x256 (ix2 r v) (ix2 r (0 : Fin 1)) fun a => ?_).trans ?_
    · match a with
      | ⟨0, _⟩ => rfl
      | ⟨1, _⟩ => rfl
    · show extractStridedSlice S1024x1 ![0, k] W1 hs (ix2 r 0) * extractStridedSlice S1024x1 ![0, k] W2 hs (ix2 r 0) = _
      rw [slice2_axis1_apply k W1 hs r 0 ⟨k, hk⟩ rfl, slice2_axis1_apply k W2 hs r 0 ⟨k, hk⟩ rfl]
  rw [e]
  exact congrArg (· * _) (hot_apply X k hk hs _ _ _ r v)

section Run
local notation "X0" => kernelRun0_A.sl.r (F := Ideal) c arg1 harg1 x0
local notation "X1" => kernelRun0_A.sl.r_1 (F := Ideal) c arg2 harg2 x1
local notation "X2" => kernelRun0_A.sl.r_2 (F := Ideal) c arg3 harg3 x2

/-- The unweighted buffer after its 33 stores: zero, then one slot after another. Each store's value is, by
    definition, the read-back of the stores before it plus that slot's one-hot rows. -/
theorem fs_run : Tot arg21 (fsW X0) (kernelRun0_A.sl.HS0_33 (F := Ideal) c arg1 harg1 arg21 x0) 32 := by
  iterate 32 (refine step_fs (by norm_num) ?_ (slices_col _ (by norm_num)) _ rfl)
  exact Tot.zero _ _ _ rfl

/-- The colour-weighted buffer after its 33 stores. -/
theorem va_run : Tot arg22 (wW X0 fun r l => X1 (ix2 r l))
    (kernelRun0_A.sl.HS1_33 (F := Ideal) c arg1 harg1 arg2 harg2 arg22 x0 x1) 32 := by
  iterate 32 (refine step_w1 (by norm_num) ?_ (slices_col _ (by norm_num)) _ rfl)
  exact Tot.zero _ _ _ rfl

/-- The side-weighted buffer after its 33 stores. -/
theorem ha_run : Tot arg23 (wW X0 fun r l => X2 (ix2 r l))
    (kernelRun0_A.sl.HS2_33 (F := Ideal) c arg1 harg1 arg3 harg3 arg23 x0 x2) 32 := by
  iterate 32 (refine step_w1 (by norm_num) ?_ (slices_col _ (by norm_num)) _ rfl)
  exact Tot.zero _ _ _ rfl

set_option maxHeartbeats 1000000 in
/-- The buffer weighted by colour times side after its 33 stores. -/
theorem ra_run : Tot arg24 (wW X0 fun r l => X1 (ix2 r l) * X2 (ix2 r l))
    (kernelRun0_A.sl.HS3_33 (F := Ideal) c arg1 harg1 arg2 harg2 arg3 harg3 arg24 x0 x1 x2) 32 := by
  iterate 32 (refine step_w2 (by norm_num) ?_ (slices_col _ (by norm_num)) _ rfl)
  exact Tot.zero _ _ _ rfl

end Run

/-- A slot's term with weight w, summed over the slots, is the total weight of the slots whose index is v. -/
theorem sum_wW (X : Vec Ideal S1024x32 .i32) (W : Fin 1024 → Fin 32 → EReal) (r : Fin 1024) (v : Fin 256) :
    ∑ l : Fin 32, wW X W r v l = cnt (rowOf X r) (W r) v.val := by
  refine Finset.sum_congr rfl fun l _ => ?_
  show (if (X (ix2 r l)).toNat = v.val then (1 : EReal) else 0) * W r l = if (X (ix2 r l)).toNat = v.val then W r l else 0
  rw [ite_mul, one_mul, zero_mul]

/-- The unweighted accumulator. -/
theorem counts_fs (r : Fin 1024) (v : Fin 256) :
    kernelRun0_A.sl.v1121 (F := Ideal) c arg1 harg1 arg21 x0 (ix2 r v) = cnt (rowOf x0 r) (fun _ => 1) v.val := by
  refine (fs_run c arg1 harg1 arg21 x0 r v).trans ?_
  rw [upTo_eq_sum, r_eq]
  rfl

/-- The colour-weighted accumulator. -/
theorem counts_va (r : Fin 1024) (v : Fin 256) :
    kernelRun0_A.sl.v1124 (F := Ideal) c arg1 harg1 arg2 harg2 arg22 x0 x1 (ix2 r v) = cnt (rowOf x0 r) (rowOf x1 r) v.val := by
  refine (va_run c arg1 harg1 arg2 harg2 arg22 x0 x1 r v).trans ?_
  rw [upTo_eq_sum, r_eq, r1_eq]
  exact sum_wW x0 (fun r l => x1 (ix2 r l)) r v

/-- The side-weighted accumulator. -/
theorem counts_ha (r : Fin 1024) (v : Fin 256) :
    kernelRun0_A.sl.v1127 (F := Ideal) c arg1 harg1 arg3 harg3 arg23 x0 x2 (ix2 r v) = cnt (rowOf x0 r) (rowOf x2 r) v.val := by
  refine (ha_run c arg1 harg1 arg3 harg3 arg23 x0 x2 r v).trans ?_
  rw [upTo_eq_sum, r_eq, r2_eq]
  exact sum_wW x0 (fun r l => x2 (ix2 r l)) r v

/-- The accumulator weighted by colour times side. -/
theorem counts_ra (r : Fin 1024) (v : Fin 256) :
    kernelRun0_A.sl.v1130 (F := Ideal) c arg1 harg1 arg2 harg2 arg3 harg3 arg24 x0 x1 x2 (ix2 r v)
      = cnt (rowOf x0 r) (fun l => rowOf x1 r l * rowOf x2 r l) v.val := by
  refine (ra_run c arg1 harg1 arg2 harg2 arg3 harg3 arg24 x0 x1 x2 r v).trans ?_
  rw [upTo_eq_sum, r_eq, r1_eq, r2_eq]
  exact sum_wW x0 (fun r l => x1 (ix2 r l) * x2 (ix2 r l)) r v

end Cert.KernelIdeal.KCount

end
-- ==== Proof.KBody.lean ====
/-
  What one grid step writes to its output block: entry (0, r) of the [1, 1024] block is the network's output for
  block row r — the four accumulators (read back as weighted counts) times the padded tables, the scalar's term,
  the clamps, the two dense layers over the transposed weights, and the final pair of dot products, transposed
  into a row.
-/
import proofs.«422188_j67422396612990_3_alg».proof.Proof.Gen.KernelIdeal.Frame
import proofs.«422188_j67422396612990_3_alg».proof.Proof.BagNet
import proofs.«422188_j67422396612990_3_alg».proof.Proof.KCount
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KBody

open Idealize.ShloMosaic Idealize.ShloMosaic.TcCoe Idealize.ShloMosaic.ValueIdx Cert.KernelIdeal Cert.KernelIdeal.Gen Cert.BagNet

variable (c : Dev nD) (i : grid0.Coords)
  (arg1 : Memref sig .tc .vmem S1024x32 .i32) (harg1 : arg1.IsWhole) (arg2 : Memref sig .tc .vmem S1024x32 .f32) (harg2 : arg2.IsWhole)
  (arg3 : Memref sig .tc .vmem S1024x32 .f32) (harg3 : arg3.IsWhole) (arg4 : Memref sig .tc .vmem S1024x1 .f32) (harg4 : arg4.IsWhole)
  (arg5 : Memref sig .tc .vmem S256x256 .f32) (harg5 : arg5.IsWhole) (arg6 : Memref sig .tc .vmem S256x256 .f32) (harg6 : arg6.IsWhole)
  (arg7 : Memref sig .tc .vmem S256x128 .f32) (harg7 : arg7.IsWhole) (arg8 : Memref sig .tc .vmem S256x128 .f32) (harg8 : arg8.IsWhole)
  (arg9 : Memref sig .tc .vmem S1x256 .f32) (harg9 : arg9.IsWhole) (arg10 : Memref sig .tc .vmem S256x16 .f32) (harg10 : arg10.IsWhole)
  (arg11 : Memref sig .tc .vmem S1x16 .f32) (harg11 : arg11.IsWhole) (arg12 : Memref sig .tc .vmem S256x16 .f32) (harg12 : arg12.IsWhole)
  (arg13 : Memref sig .tc .vmem S128x16 .f32) (harg13 : arg13.IsWhole) (arg14 : Memref sig .tc .vmem S128x16 .f32) (harg14 : arg14.IsWhole)
  (arg15 : Memref sig .tc .vmem S256x16 .f32) (harg15 : arg15.IsWhole) (arg16 : Memref sig .tc .vmem S256x16 .f32) (harg16 : arg16.IsWhole)
  (arg17 : Memref sig .tc .vmem S128x16 .f32) (harg17 : arg17.IsWhole) (arg18 : Memref sig .tc .vmem S16x1 .f32) (harg18 : arg18.IsWhole)
  (arg19 : Memref sig .tc .vmem S16x1 .f32) (harg19 : arg19.IsWhole) (arg20 : Memref sig .tc .vmem S1x1024 .f32) (harg20 : arg20.IsWhole)
  (arg21 : Memref sig .tc .vmem S1024x256 .f32) (harg21 : arg21.IsWhole) (arg22 : Memref sig .tc .vmem S1024x256 .f32) (harg22 : arg22.IsWhole)
  (arg23 : Memref sig .tc .vmem S1024x256 .f32) (harg23 : arg23.IsWhole) (arg24 : Memref sig .tc .vmem S1024x256 .f32) (harg24 : arg24.IsWhole)
  (x0 : Vec Ideal S1024x32 .i32) (x1 x2 : Vec Ideal S1024x32 .f32) (x3 : Vec Ideal S1024x1 .f32)
  (x4 x5 : Vec Ideal S256x256 .f32) (x6 x7 : Vec Ideal S256x128 .f32) (x8 : Vec Ideal S1x256 .f32)
  (x9 : Vec Ideal S256x16 .f32) (x10 : Vec Ideal S1x16 .f32) (x11 : Vec Ideal S256x16 .f32)
  (x12 x13 : Vec Ideal S128x16 .f32) (x14 x15 : Vec Ideal S256x16 .f32) (x16 : Vec Ideal S128x16 .f32)
  (x17 x18 : Vec Ideal S16x1 .f32)

/-! A contraction of a [1024, 256] by a [256, 256] array over the shared axis, into zero. -/
theorem lhsA_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsA_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsA_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsA_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- Entry (p, q) of the product is the sum over k of left (p, k) times right (k, q). -/
theorem mmA {φ₁ φ₂ : FTy} (l : FVec Ideal S1024x256 φ₁) (w : FVec Ideal S256x256 φ₂) (p : Fin 1024) (q : Fin 256) :
    matmul dot_S1024x256_S256x256_S1024x256_1_0_0_1_n_n none l w (constant S1024x256 .f32 0x00000000#32) (ix2 p q)
      = ∑ k : Fin 256, l (ix2 p k) * w (ix2 k q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! A contraction of a [1024, 256] by a [256, 128] array over the shared axis, into zero. -/
theorem lhsB_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhsB_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhsB_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhsB_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
/-- Entry (p, q) of the product is the sum over k of left (p, k) times right (k, q). -/
theorem mmB {φ₁ φ₂ : FTy} (l : FVec Ideal S1024x256 φ₁) (w : FVec Ideal S256x128 φ₂) (p : Fin 1024) (q : Fin 128) :
    matmul dot_S1024x256_S256x128_S1024x128_1_0_0_1_n_n none l w (constant S1024x128 .f32 0x00000000#32) (ix2 p q)
      = ∑ k : Fin 256, l (ix2 p k) * w (ix2 k q) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p q) ((ValueIdx.contrEquiv1 dot_S1024x256_S256x128_S1024x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S1024x256_S256x128_S1024x128_1_0_0_1_n_n.rhsIdx (ix2 p q) ((ValueIdx.contrEquiv1 dot_S1024x256_S256x128_S1024x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! A contraction of a [1024, 256] by a [256, 16] array over the shared axis, into zero. -/
theorem lhsC_0 (i : S1024x16.Idx) (q : dot_S1024x256_S256x16_S1024x16_1_0_0_1_n_n.contr.Idx) :
    (dot_S1024x256_S256x16_S1024x16_1_0_0_1_n_n.lhsIdx i q 0).val = (i 0).val := by
  unfold DotDims.lhsIdx
  rw [dif_neg (show ¬(0 : Fin S1024x256.rank) ∈ dot_S1024x256_S256x16_S1024x16_1_0_0_1_n_n.lhsBatch by decide), dif_pos (show (0 : Fin S1024x256.rank) ∈ dot_S1024x256_S256x16_S1024x16_1_0_0_1_n_n.lhsNonContracting by decide)]
  rfl
theorem lhsC_1 (i : S1024x16.Idx) (q : dot_S1024x256_S256x16_S1024x16_1_0_0_1_n_n.contr.Idx) :
    (dot_S1024x256_S256x16_S1024x16_1_0_0_1_n_n.lhsIdx i q 1).val = (q ⟨0, by decide⟩).val :=
  dot_S1024x256_S256x16_S1024x16_1_0_0_1_n_n.lhsIdx_val_of_single rfl i q
theorem rhsC_0 (i : S1024x16.Idx) (q : dot_S1024x256_S256x16_S1024x16_1_0_0_1_n_n.contr.Idx) :
    (dot_S1024x256_S256x16_S1024x16_1_0_0_1_n_n.rhsIdx i q 0).val = (q ⟨0, by decide⟩).val :=
  dot_S1024x256_S256x16_S1024x16_1_0_0_1_n_n.rhsIdx_val_of_single rfl i q
theorem rhsC_1 (i : S1024x16.Idx) (q : dot_S1024x256_S256x16_S1024x16_1_0_0_1_n_n.contr.Idx) :
    (dot_S1024x256_S256x16_S1024x16_1_0_0_1_n_n.rhsIdx i q 1).val = (i 1).val := by
  unfold DotDims.rhsIdx
  rw [dif_neg (show ¬(1 : Fin S256x16.rank) ∈ dot_S1024x256_S256x16_S1024x16_1_0_0_1_n_n.rhsBatch by decide), dif_pos (show (1 : Fin S256x16.rank) ∈ dot_S1024x256_S256x16_S1024x16_1_0_0_1_n_n.rhsNonContracting by decide)]
  rfl
/-- Entry (p, q) of the product is the sum over k of left (p, k) times right (k, q). -/
theorem mmC {φ₁ φ₂ : FTy} (l : FVec Ideal S1024x256 φ₁) (w : FVec Ideal S256x16 φ₂) (p : Fin 1024) (q : Fin 16) :
    matmul dot_S1024x256_S256x16_S1024x16_1_0_0_1_n_n none l w (constant S1024x16 .f32 0x00000000#32) (ix2 p q)
      = ∑ k : Fin 256, l (ix2 p k) * w (ix2 k q) := by
  simp only [matmul]
  rw [Ideal.matmul_constant_zero_apply, ← Equiv.sum_comp (ValueIdx.contrEquiv1 dot_S1024x256_S256x16_S1024x16_1_0_0_1_n_n 256 rfl rfl).symm]
  refine Finset.sum_congr rfl fun k _ => ?_
  have hk := ValueIdx.contrEquiv1_symm_val dot_S1024x256_S256x16_S1024x16_1_0_0_1_n_n 256 rfl rfl k
  have el : dot_S1024x256_S256x16_S1024x16_1_0_0_1_n_n.lhsIdx (ix2 p q) ((ValueIdx.contrEquiv1 dot_S1024x256_S256x16_S1024x16_1_0_0_1_n_n 256 rfl rfl).symm k) = ix2 p k := funext fun a => Fin.ext (by
    match a with
    | ⟨0, _⟩ => exact lhsC_0 _ _
    | ⟨1, _⟩ => exact (lhsC_1 _ _).trans hk)
  have er : dot_S1024x256_S256x16_S1024x16_1_0_0_1_n_n.rhsIdx (ix2 p q) ((ValueIdx.contrEquiv1 dot_S1024x256_S256x16_S1024x16_1_0_0_1_n_n 256 rfl rfl).symm k) = ix2 k q := funext fun a => Fin.ext (by
    match a with
    | ⟨0, _⟩ => exact (rhsC_0 _ _).trans hk
    | ⟨1, _⟩ => exact rhsC_1 _ _)
  rw [el, er]

/-! A contraction of a [1024, 128] by a [128, 16] array over the shared axis, into zero. -/
theorem lhsD_0 (i : S1024x16.Idx) (q : dot_S1024x128_S128x16_S1024x16_1_0_0_1_n_n.contr.Idx) :
    (dot_S1024x128_S128x16_S1024x16_1_0_0_1_n_n.lhsIdx i q 0).val = (i 0).val := by
  unfold DotDims.lhsIdx
  rw [dif_neg (show ¬(0 : Fin S1024x128.rank) ∈ dot_S1024x128_S128x16_S1024x16_1_0_0_1_n_n.lhsBatch by decide), dif_pos (show (0 : Fin S1024x128.rank) ∈ dot_S1024x128_S128x16_S1024x16_1_0_0_1_n_n.lhsNonContracting by decide)]
  rfl
theorem lhsD_1 (i : S1024x16.Idx) (q : dot_S1024x128_S128x16_S1024x16_1_0_0_1_n_n.contr.Idx) :
    (dot_S1024x128_S128x16_S1024x16_1_0_0_1_n_n.lhsIdx i q 1).val = (q ⟨0, by decide⟩).val :=
  dot_S1024x128_S128x16_S1024x16_1_0_0_1_n_n.lhsIdx_val_of_single rfl i q
theorem rhsD_0 (i : S1024x16.Idx) (q : dot_S1024x128_S128x16_S1024x16_1_0_0_1_n_n.contr.Idx) :
    (dot_S1024x128_S128x16_S1024x16_1_0_0_1_n_n.rhsIdx i q 0).val = (q ⟨0, by decide⟩).val :=
  dot_S1024x128_S128x16_S1024x16_1_0_0_1_n_n.rhsIdx_val_of_single rfl i q
theorem rhsD_1 (i : S1024x16.Idx) (q : dot_S1024x128_S128x16_S1024x16_1_0_0_1_n_n.contr.Idx) :
    (dot_S1024x128_S128x16_S1024x16_1_0_0_1_n_n.rhsIdx i q 1).val = (i 1).val := by
  unfold DotDims.rhsIdx
  rw [dif_neg (show ¬(1 : Fin S128x16.rank) ∈ dot_S1024x128_S128x16_S1024x16_1_0_0_1_n_n.rhsBatch by decide), dif_pos (show (1 : Fin S128x16.rank) ∈ dot_S1024x128_S128x16_S1024x16_1_0_0_1_n_n.rhsNonContracting by decide)]
  rfl
/-- Entry (p, q) of the product is the sum over k of left (p, k) times right (k, q). -/
theorem mmD {φ₁ φ₂ : FTy} (l : FVec Ideal S1024x128 φ₁) (w : FVec Ideal S128x16 φ₂) (p : Fin 1024) (q : Fin 16) :
    matmul dot_S1024x128_S128x16_S1024x16_1_0_0_1_n_n none l w (constant S1024x16 .f32 0x00000000#32) (ix2 p q)
      = ∑ k : Fin 128, l (ix2 p k) * w (ix2 k q) := by
  simp only [matmul]
  rw [Ideal.matmul_constant_zero_apply, ← Equiv.sum_comp (ValueIdx.contrEquiv1 dot_S1024x128_S128x16_S1024x16_1_0_0_1_n_n 128 rfl rfl).symm]
  refine Finset.sum_congr rfl fun k _ => ?_
  have hk := ValueIdx.contrEquiv1_symm_val dot_S1024x128_S128x16_S1024x16_1_0_0_1_n_n 128 rfl rfl k
  have el : dot_S1024x128_S128x16_S1024x16_1_0_0_1_n_n.lhsIdx (ix2 p q) ((ValueIdx.contrEquiv1 dot_S1024x128_S128x16_S1024x16_1_0_0_1_n_n 128 rfl rfl).symm k) = ix2 p k := funext fun a => Fin.ext (by
    match a with
    | ⟨0, _⟩ => exact lhsD_0 _ _
    | ⟨1, _⟩ => exact (lhsD_1 _ _).trans hk)
  have er : dot_S1024x128_S128x16_S1024x16_1_0_0_1_n_n.rhsIdx (ix2 p q) ((ValueIdx.contrEquiv1 dot_S1024x128_S128x16_S1024x16_1_0_0_1_n_n 128 rfl rfl).symm k) = ix2 k q := funext fun a => Fin.ext (by
    match a with
    | ⟨0, _⟩ => exact (rhsD_0 _ _).trans hk
    | ⟨1, _⟩ => exact rhsD_1 _ _)
  rw [el, er]

/-! A contraction of a [1024, 16] by a [16, 1] array over the shared axis, into zero. -/
theorem lhsE_0 (i : S1024x1.Idx) (q : dot_S1024x16_S16x1_S1024x1_1_0_0_1_n_n.contr.Idx) :
    (dot_S1024x16_S16x1_S1024x1_1_0_0_1_n_n.lhsIdx i q 0).val = (i 0).val := by
  unfold DotDims.lhsIdx
  rw [dif_neg (show ¬(0 : Fin S1024x16.rank) ∈ dot_S1024x16_S16x1_S1024x1_1_0_0_1_n_n.lhsBatch by decide), dif_pos (show (0 : Fin S1024x16.rank) ∈ dot_S1024x16_S16x1_S1024x1_1_0_0_1_n_n.lhsNonContracting by decide)]
  rfl
theorem lhsE_1 (i : S1024x1.Idx) (q : dot_S1024x16_S16x1_S1024x1_1_0_0_1_n_n.contr.Idx) :
    (dot_S1024x16_S16x1_S1024x1_1_0_0_1_n_n.lhsIdx i q 1).val = (q ⟨0, by decide⟩).val :=
  dot_S1024x16_S16x1_S1024x1_1_0_0_1_n_n.lhsIdx_val_of_single rfl i q
theorem rhsE_0 (i : S1024x1.Idx) (q : dot_S1024x16_S16x1_S1024x1_1_0_0_1_n_n.contr.Idx) :
    (dot_S1024x16_S16x1_S1024x1_1_0_0_1_n_n.rhsIdx i q 0).val = (q ⟨0, by decide⟩).val :=
  dot_S1024x16_S16x1_S1024x1_1_0_0_1_n_n.rhsIdx_val_of_single rfl i q
theorem rhsE_1 (i : S1024x1.Idx) (q : dot_S1024x16_S16x1_S1024x1_1_0_0_1_n_n.contr.Idx) :
    (dot_S1024x16_S16x1_S1024x1_1_0_0_1_n_n.rhsIdx i q 1).val = (i 1).val := by
  unfold DotDims.rhsIdx
  rw [dif_neg (show ¬(1 : Fin S16x1.rank) ∈ dot_S1024x16_S16x1_S1024x1_1_0_0_1_n_n.rhsBatch by decide), dif_pos (show (1 : Fin S16x1.rank) ∈ dot_S1024x16_S16x1_S1024x1_1_0_0_1_n_n.rhsNonContracting by decide)]
  rfl
/-- Entry (p, q) of the product is the sum over k of left (p, k) times right (k, q). -/
theorem mmE {φ₁ φ₂ : FTy} (l : FVec Ideal S1024x16 φ₁) (w : FVec Ideal S16x1 φ₂) (p : Fin 1024) (q : Fin 1) :
    matmul dot_S1024x16_S16x1_S1024x1_1_0_0_1_n_n none l w (constant S1024x1 .f32 0x00000000#32) (ix2 p q)
      = ∑ k : Fin 16, l (ix2 p k) * w (ix2 k q) := by
  simp only [matmul]
  rw [Ideal.matmul_constant_zero_apply, ← Equiv.sum_comp (ValueIdx.contrEquiv1 dot_S1024x16_S16x1_S1024x1_1_0_0_1_n_n 16 rfl rfl).symm]
  refine Finset.sum_congr rfl fun k _ => ?_
  have hk := ValueIdx.contrEquiv1_symm_val dot_S1024x16_S16x1_S1024x1_1_0_0_1_n_n 16 rfl rfl k
  have el : dot_S1024x16_S16x1_S1024x1_1_0_0_1_n_n.lhsIdx (ix2 p q) ((ValueIdx.contrEquiv1 dot_S1024x16_S16x1_S1024x1_1_0_0_1_n_n 16 rfl rfl).symm k) = ix2 p k := funext fun a => Fin.ext (by
    match a with
    | ⟨0, _⟩ => exact lhsE_0 _ _
    | ⟨1, _⟩ => exact (lhsE_1 _ _).trans hk)
  have er : dot_S1024x16_S16x1_S1024x1_1_0_0_1_n_n.rhsIdx (ix2 p q) ((ValueIdx.contrEquiv1 dot_S1024x16_S16x1_S1024x1_1_0_0_1_n_n 16 rfl rfl).symm k) = ix2 k q := funext fun a => Fin.ext (by
    match a with
    | ⟨0, _⟩ => exact (rhsE_0 _ _).trans hk
    | ⟨1, _⟩ => exact rhsE_1 _ _)
  rw [el, er]

theorem hz : (![0, 0] : Fin 2 → ℕ) = fun _ => 0 := by funext a; fin_cases a <;> rfl

/-- A whole block loaded from its staging buffer is the block's contents. -/
theorem load_eq {a b : ℕ} {e : EltTy} (arg : Memref sig .tc .vmem (⟨2, ![a, b]⟩ : Shape) e) (harg : arg.IsWhole)
    (inb : ∀ ax, (![0, 0] : Fin 2 → ℕ) ax + (⟨2, ![a, b]⟩ : Shape).size ax ≤ (⟨2, ![a, b]⟩ : Shape).size ax)
    (x : Vec Ideal (⟨2, ![a, b]⟩ : Shape) e) :
    View.readAt (Elt Ideal) arg.view (Rect.unit (s := ⟨2, ![a, b]⟩) ![0, 0] (Shape.size ⟨2, ![a, b]⟩) inb).toLoadRect (harg.unread x) = x := by
  rw [View.readAt_eq_ld, harg.read_unread, View.ld_unit_zero (S := ⟨2, ![a, b]⟩) hz]

/-- An [a, 1] column broadcast to [a, b] reads, at (p, c), the column's entry p. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads read at an entry -/

theorem pay246_apply (X : Vec Ideal S256x256 .f32) (i : S256x256.Idx) : k0_pay246 X i = X i := by
  unfold k0_pay246; rw [shapeCast_self]; rfl
theorem pay247_apply (X : Vec Ideal S256x128 .f32) (i : S256x128.Idx) : k0_pay247 X i = X i := by
  unfold k0_pay247; rw [shapeCast_self]; rfl
theorem pay248_apply (X : Vec Ideal S256x128 .f32) (i : S256x128.Idx) : k0_pay248 X i = X i := by
  unfold k0_pay248; rw [shapeCast_self]; rfl
theorem pay259_apply (X : Vec Ideal S128x16 .f32) (i : S128x16.Idx) : k0_pay259 X i = X i := by
  unfold k0_pay259; rw [shapeCast_self]; rfl
theorem pay264_apply (X : Vec Ideal S16x1 .f32) (i : S16x1.Idx) : k0_pay264 X i = X i := by
  unfold k0_pay264; rw [shapeCast_self]; rfl
theorem pay265_apply (X : Vec Ideal S16x1 .f32) (i : S16x1.Idx) : k0_pay265 X i = X i := by
  unfold k0_pay265; rw [shapeCast_self]; rfl

/-- The first bag's contraction: counts times table. -/
theorem pay249_apply (T : Vec Ideal S256x256 .f32) (C : Vec Ideal S1024x256 .f32) (p : Fin 1024) (s : Fin 256) :
    k0_pay249 T C (ix2 p s) = ∑ k : Fin 256, C (ix2 p k) * T (ix2 k s) := by
  unfold k0_pay249
  refine (mmA _ _ p s).trans ?_
  refine Finset.sum_congr rfl fun k _ => ?_
  rw [truncf_apply, truncf_apply, shapeCast_self]

/-- The clamp of the first bag. -/
theorem pay250_apply (V : FVec Ideal S1024x256 .f32) (i : S1024x256.Idx) : k0_pay250 V i = clamp (V i) := rfl

/-- The second bag with the scalar's term, clamped. -/
theorem pay251_apply (X3 : Vec Ideal S1024x1 .f32) (T : FVec Ideal S256x256 .bf16) (C : Vec Ideal S1024x256 .f32)
    (X8 : Vec Ideal S1x256 .f32) (p : Fin 1024) (s : Fin 256) :
    k0_pay251 X3 T C X8 (ix2 p s)
      = clamp ((∑ k : Fin 256, C (ix2 p k) * T (ix2 k s)) + X3 (ix2 p 0) * X8 (ix2 0 s)) := by
  unfold k0_pay251
  simp only [minimumf_apply, maximumf_apply, addf_apply, mulf_apply, broadcast_apply, mmA, truncf_apply, shapeCast_self,
    bcast_col, broadcastTo_1b_ab_apply]
  rfl

/-- The third and fourth bags, clamped. -/
theorem pay252_apply (T : FVec Ideal S256x128 .bf16) (C : Vec Ideal S1024x256 .f32) (p : Fin 1024) (s : Fin 128) :
    k0_pay252 T C (ix2 p s) = clamp (∑ k : Fin 256, C (ix2 p k) * T (ix2 k s)) := by
  unfold k0_pay252
  simp only [minimumf_apply, maximumf_apply, broadcast_apply, mmB, truncf_apply]
  rfl
theorem pay253_apply (T : FVec Ideal S256x128 .bf16) (C : Vec Ideal S1024x256 .f32) (p : Fin 1024) (s : Fin 128) :
    k0_pay253 T C (ix2 p s) = clamp (∑ k : Fin 256, C (ix2 p k) * T (ix2 k s)) := by
  unfold k0_pay253
  simp only [minimumf_apply, maximumf_apply, broadcast_apply, mmB, truncf_apply]
  rfl

theorem pay254_apply (V : FVec Ideal S1024x256 .f32) (i : S1024x256.Idx) : k0_pay254 V i = clamp (V i) := rfl
theorem pay255_apply (X3 : Vec Ideal S1024x1 .f32) (T : FVec Ideal S256x256 .bf16) (C : Vec Ideal S1024x256 .f32)
    (X8 : Vec Ideal S1x256 .f32) (i : S1024x256.Idx) : k0_pay255 X3 T C X8 i = k0_pay251 X3 T C X8 i := rfl
theorem pay256_apply (X3 : Vec Ideal S1024x1 .f32) (T : FVec Ideal S256x256 .bf16) (C : Vec Ideal S1024x256 .f32)
    (X8 : Vec Ideal S1x256 .f32) (i : S1024x256.Idx) : k0_pay256 X3 T C X8 i = mag (k0_pay251 X3 T C X8 i) := rfl
theorem pay257_apply (T : FVec Ideal S256x128 .bf16) (C : Vec Ideal S1024x256 .f32) (i : S1024x128.Idx) :
    k0_pay257 T C i = mag (k0_pay252 T C i) := rfl
theorem pay258_apply (T : FVec Ideal S256x128 .bf16) (C : Vec Ideal S1024x256 .f32) (i : S1024x128.Idx) :
    k0_pay258 T C i = mag (k0_pay253 T C i) := rfl
theorem pay261_apply (A B : FVec Ideal S1024x128 .f32) (i : S1024x128.Idx) : k0_pay261 A B i = A i * B i := rfl

/-- The first head before its clamp: four contractions and the bias, added in the printed order. -/
theorem pay260_apply (A B : FVec Ideal S1024x256 .bf16) (G H : FVec Ideal S1024x128 .bf16)
    (W9 W11 : Vec Ideal S256x16 .f32) (W12 W13 : Vec Ideal S128x16 .f32) (B10 : Vec Ideal S1x16 .f32)
    (p : Fin 1024) (o : Fin 16) :
    k0_pay260 A B G H W9 W11 W12 W13 B10 (ix2 p o)
      = ((((∑ s : Fin 256, A (ix2 p s) * W9 (ix2 s o)) + B10 (ix2 0 o)) + ∑ s : Fin 256, B (ix2 p s) * W11 (ix2 s o))
          + ∑ s : Fin 128, G (ix2 p s) * W12 (ix2 s o)) + ∑ s : Fin 128, H (ix2 p s) * W13 (ix2 s o) := by
  unfold k0_pay260
  simp only [addf_apply, mmC, mmD, truncf_apply, shapeCast_self, broadcastTo_1b_ab_apply]

/-- The second head's first two contractions. -/
theorem pay262_apply (V1 V2 : FVec Ideal S1024x256 .f32) (A : FVec Ideal S1024x256 .bf16) (W14 W15 : Vec Ideal S256x16 .f32)
    (p : Fin 1024) (o : Fin 16) :
    k0_pay262 V1 V2 A W14 W15 (ix2 p o)
      = (∑ s : Fin 256, A (ix2 p s) * W14 (ix2 s o)) + ∑ s : Fin 256, (V1 (ix2 p s) * V2 (ix2 p s)) * W15 (ix2 s o) := by
  unfold k0_pay262
  simp only [addf_apply, mulf_apply, mmC, truncf_apply, shapeCast_self]

/-- The second head: the third contraction added, then the clamp. -/
theorem pay263_apply (W16 : FVec Ideal S128x16 .bf16) (H : FVec Ideal S1024x128 .bf16) (Acc : FVec Ideal S1024x16 .f32)
    (p : Fin 1024) (o : Fin 16) :
    k0_pay263 W16 H Acc (constant S1024x16 .f32 0x00000000#32) (ix2 p o)
      = clamp (Acc (ix2 p o) + ∑ s : Fin 128, H (ix2 p s) * W16 (ix2 s o)) := by
  unfold k0_pay263
  simp only [minimumf_apply, maximumf_apply, broadcast_apply, addf_apply, mmD]
  rfl

theorem pay266_apply (W16 : FVec Ideal S128x16 .bf16) (H : FVec Ideal S1024x128 .bf16) (Acc cst : FVec Ideal S1024x16 .f32)
    (i : S1024x16.Idx) : k0_pay266 W16 H Acc cst i = k0_pay263 W16 H Acc cst i := rfl
theorem pay267_apply (W16 : FVec Ideal S128x16 .bf16) (V : FVec Ideal S1024x16 .f32) (H : FVec Ideal S1024x128 .bf16)
    (Acc cst : FVec Ideal S1024x16 .f32) (i : S1024x16.Idx) :
    k0_pay267 W16 V H Acc cst i = clamp (V i) * k0_pay263 W16 H Acc cst i := rfl

/-- The last pair of dot products, added and laid out as a row. -/
theorem pay1_apply (W17 W18 : FVec Ideal S16x1 .bf16) (A B : FVec Ideal S1024x16 .bf16) (p : Fin 1024) :
    k0_pay1 W17 W18 A B (constant S1024x1 .f32 0x00000000#32) (ix2 0 p)
      = (∑ o : Fin 16, A (ix2 p o) * W17 (ix2 o 0)) + ∑ o : Fin 16, B (ix2 p o) * W18 (ix2 o 0) := by
  unfold k0_pay1
  rw [transpose_ix2_apply]
  simp only [addf_apply, mmE]

/-! ## The first layer: the four clamped bags of block row r -/

theorem fs1_eq (r : Fin 1024) (s : Fin 256) :
    kernelRun0_A.sl.r_93 (F := Ideal) c arg1 harg1 arg5 harg5 arg21 x0 x4 (ix2 r s) = fs1 (kwts x4 x5 x6 x7 x8 x9 x10 x11 x12 x13 x14 x15 x16 x17 x18) (rowOf x0 r) s := by
  unfold kernelRun0_A.sl.r_93 kernelRun0_A.sl.r_92
  rw [pay250_apply, load_eq, pay249_apply]
  unfold fs1 bag
  refine congrArg clamp (Finset.sum_congr rfl fun k _ => ?_)
  rw [KCount.counts_fs]
  rfl

theorem va1_eq (r : Fin 1024) (s : Fin 256) :
    kernelRun0_A.sl.r_94 (F := Ideal) c arg1 harg1 arg2 harg2 arg4 harg4 arg6 harg6 arg9 harg9 arg22 x0 x1 x3 x5 x8 (ix2 r s) = va1 (kwts x4 x5 x6 x7 x8 x9 x10 x11 x12 x13 x14 x15 x16 x17 x18) (rowOf x0 r) (rowOf x1 r) (x3 (ix2 r 0)) s := by
  unfold kernelRun0_A.sl.r_94 kernelRun0_A.sl.r_89 kernelRun0_A.sl.r_3
  rw [load_eq, load_eq, load_eq, pay251_apply]
  unfold va1 bag
  refine congrArg clamp (congrArg (· + _) (Finset.sum_congr rfl fun k _ => ?_))
  rw [KCount.counts_va, pay246_apply]
  rfl

theorem ha1_eq (r : Fin 1024) (s : Fin 128) :
    kernelRun0_A.sl.r_95 (F := Ideal) c arg1 harg1 arg3 harg3 arg7 harg7 arg23 x0 x2 x6 (ix2 r s) = ha1 (kwts x4 x5 x6 x7 x8 x9 x10 x11 x12 x13 x14 x15 x16 x17 x18) (rowOf x0 r) (rowOf x2 r) s := by
  unfold kernelRun0_A.sl.r_95 kernelRun0_A.sl.r_90
  rw [load_eq, pay252_apply]
  unfold ha1 bag
  refine congrArg clamp (Finset.sum_congr rfl fun k _ => ?_)
  rw [KCount.counts_ha, pay247_apply]
  rfl

theorem ra1_eq (r : Fin 1024) (s : Fin 128) :
    kernelRun0_A.sl.r_96 (F := Ideal) c arg1 harg1 arg2 harg2 arg3 harg3 arg8 harg8 arg24 x0 x1 x2 x7 (ix2 r s) = ra1 (kwts x4 x5 x6 x7 x8 x9 x10 x11 x12 x13 x14 x15 x16 x17 x18) (rowOf x0 r) (rowOf x1 r) (rowOf x2 r) s := by
  unfold kernelRun0_A.sl.r_96 kernelRun0_A.sl.r_91
  rw [load_eq, pay253_apply]
  unfold ra1 bag
  refine congrArg clamp (Finset.sum_congr rfl fun k _ => ?_)
  rw [KCount.counts_ra, pay248_apply]
  rfl

/-! ## The values that feed the second layer -/

theorem fs1_bf_eq (r : Fin 1024) (s : Fin 256) :
    kernelRun0_A.sl.r_97 (F := Ideal) c arg1 harg1 arg5 harg5 arg21 x0 x4 (ix2 r s) = fs1 (kwts x4 x5 x6 x7 x8 x9 x10 x11 x12 x13 x14 x15 x16 x17 x18) (rowOf x0 r) s :=
  (show kernelRun0_A.sl.r_97 (F := Ideal) c arg1 harg1 arg5 harg5 arg21 x0 x4 (ix2 r s) = kernelRun0_A.sl.r_93 (F := Ideal) c arg1 harg1 arg5 harg5 arg21 x0 x4 (ix2 r s) from rfl).trans
    (fs1_eq c arg1 harg1 arg5 harg5 arg21 x0 x4 x5 x6 x7 x8 x9 x10 x11 x12 x13 x14 x15 x16 x17 x18 r s)

theorem va1_bf_eq (r : Fin 1024) (s : Fin 256) :
    kernelRun0_A.sl.r_98 (F := Ideal) c arg1 harg1 arg2 harg2 arg4 harg4 arg6 harg6 arg9 harg9 arg22 x0 x1 x3 x5 x8 (ix2 r s) = va1 (kwts x4 x5 x6 x7 x8 x9 x10 x11 x12 x13 x14 x15 x16 x17 x18) (rowOf x0 r) (rowOf x1 r) (x3 (ix2 r 0)) s :=
  (show kernelRun0_A.sl.r_98 (F := Ideal) c arg1 harg1 arg2 harg2 arg4 harg4 arg6 harg6 arg9 harg9 arg22 x0 x1 x3 x5 x8 (ix2 r s) = kernelRun0_A.sl.r_94 (F := Ideal) c arg1 harg1 arg2 harg2 arg4 harg4 arg6 harg6 arg9 harg9 arg22 x0 x1 x3 x5 x8 (ix2 r s) from rfl).trans
    (va1_eq c arg1 harg1 arg2 harg2 arg4 harg4 arg6 harg6 arg9 harg9 arg22 x0 x1 x3 x4 x5 x6 x7 x8 x9 x10 x11 x12 x13 x14 x15 x16 x17 x18 r s)

theorem va1_mag_eq (r : Fin 1024) (s : Fin 256) :
    kernelRun0_A.sl.r_99 (F := Ideal) c arg1 harg1 arg2 harg2 arg4 harg4 arg6 harg6 arg9 harg9 arg22 x0 x1 x3 x5 x8 (ix2 r s) = mag (va1 (kwts x4 x5 x6 x7 x8 x9 x10 x11 x12 x13 x14 x15 x16 x17 x18) (rowOf x0 r) (rowOf x1 r) (x3 (ix2 r 0)) s) :=
  (show kernelRun0_A.sl.r_99 (F := Ideal) c arg1 harg1 arg2 harg2 arg4 harg4 arg6 harg6 arg9 harg9 arg22 x0 x1 x3 x5 x8 (ix2 r s) = mag (kernelRun0_A.sl.r_94 (F := Ideal) c arg1 harg1 arg2 harg2 arg4 harg4 arg6 harg6 arg9 harg9 arg22 x0 x1 x3 x5 x8 (ix2 r s)) from rfl).trans
    (congrArg mag (va1_eq c arg1 harg1 arg2 harg2 arg4 harg4 arg6 harg6 arg9 harg9 arg22 x0 x1 x3 x4 x5 x6 x7 x8 x9 x10 x11 x12 x13 x14 x15 x16 x17 x18 r s))

theorem ha1_mag_eq (r : Fin 1024) (s : Fin 128) :
    kernelRun0_A.sl.r_100 (F := Ideal) c arg1 harg1 arg3 harg3 arg7 harg7 arg23 x0 x2 x6 (ix2 r s) = mag (ha1 (kwts x4 x5 x6 x7 x8 x9 x10 x11 x12 x13 x14 x15 x16 x17 x18) (rowOf x0 r) (rowOf x2 r) s) :=
  (show kernelRun0_A.sl.r_100 (F := Ideal) c arg1 harg1 arg3 harg3 arg7 harg7 arg23 x0 x2 x6 (ix2 r s) = mag (kernelRun0_A.sl.r_95 (F := Ideal) c arg1 harg1 arg3 harg3 arg7 harg7 arg23 x0 x2 x6 (ix2 r s)) from rfl).trans
    (congrArg mag (ha1_eq c arg1 harg1 arg3 harg3 arg7 harg7 arg23 x0 x2 x4 x5 x6 x7 x8 x9 x10 x11 x12 x13 x14 x15 x16 x17 x18 r s))

theorem ra1_mag_eq (r : Fin 1024) (s : Fin 128) :
    kernelRun0_A.sl.r_101 (F := Ideal) c arg1 harg1 arg2 harg2 arg3 harg3 arg8 harg8 arg24 x0 x1 x2 x7 (ix2 r s) = mag (ra1 (kwts x4 x5 x6 x7 x8 x9 x10 x11 x12 x13 x14 x15 x16 x17 x18) (rowOf x0 r) (rowOf x1 r) (rowOf x2 r) s) :=
  (show kernelRun0_A.sl.r_101 (F := Ideal) c arg1 harg1 arg2 harg2 arg3 harg3 arg8 harg8 arg24 x0 x1 x2 x7 (ix2 r s) = mag (kernelRun0_A.sl.r_96 (F := Ideal) c arg1 harg1 arg2 harg2 arg3 harg3 arg8 harg8 arg24 x0 x1 x2 x7 (ix2 r s)) from rfl).trans
    (congrArg mag (ra1_eq c arg1 harg1 arg2 harg2 arg3 harg3 arg8 harg8 arg24 x0 x1 x2 x4 x5 x6 x7 x8 x9 x10 x11 x12 x13 x14 x15 x16 x17 x18 r s))

theorem haxra_eq (r : Fin 1024) (s : Fin 128) :
    kernelRun0_A.sl.r_104 (F := Ideal) c arg1 harg1 arg2 harg2 arg3 harg3 arg7 harg7 arg8 harg8 arg23 arg24 x0 x1 x2 x6 x7 (ix2 r s) = ha1 (kwts x4 x5 x6 x7 x8 x9 x10 x11 x12 x13 x14 x15 x16 x17 x18) (rowOf x0 r) (rowOf x2 r) s * ra1 (kwts x4 x5 x6 x7 x8 x9 x10 x11 x12 x13 x14 x15 x16 x17 x18) (rowOf x0 r) (rowOf x1 r) (rowOf x2 r) s := by
  unfold kernelRun0_A.sl.r_104
  rw [pay261_apply, ha1_eq c arg1 harg1 arg3 harg3 arg7 harg7 arg23 x0 x2 x4 x5 x6 x7 x8 x9 x10 x11 x12 x13 x14 x15 x16 x17 x18 r s, ra1_eq c arg1 harg1 arg2 harg2 arg3 harg3 arg8 harg8 arg24 x0 x1 x2 x4 x5 x6 x7 x8 x9 x10 x11 x12 x13 x14 x15 x16 x17 x18 r s]

/-! ## The second layer: the two heads -/

theorem head2_part_eq (r : Fin 1024) (o : Fin 16) :
    kernelRun0_A.sl.r_105 (F := Ideal) c arg1 harg1 arg2 harg2 arg4 harg4 arg5 harg5 arg6 harg6 arg9 harg9 arg15 harg15 arg16 harg16 arg21 arg22 x0 x1 x3 x4 x5 x8 x14 x15 (ix2 r o)
      = (∑ s, va1 (kwts x4 x5 x6 x7 x8 x9 x10 x11 x12 x13 x14 x15 x16 x17 x18) (rowOf x0 r) (rowOf x1 r) (x3 (ix2 r 0)) s * (kwts x4 x5 x6 x7 x8 x9 x10 x11 x12 x13 x14 x15 x16 x17 x18).vaW o s) + ∑ s, (fs1 (kwts x4 x5 x6 x7 x8 x9 x10 x11 x12 x13 x14 x15 x16 x17 x18) (rowOf x0 r) s * va1 (kwts x4 x5 x6 x7 x8 x9 x10 x11 x12 x13 x14 x15 x16 x17 x18) (rowOf x0 r) (rowOf x1 r) (x3 (ix2 r 0)) s) * (kwts x4 x5 x6 x7 x8 x9 x10 x11 x12 x13 x14 x15 x16 x17 x18).fsxvaW o s := by
  unfold kernelRun0_A.sl.r_105
  rw [pay262_apply, load_eq, load_eq]
  refine congrArg₂ (· + ·) (Finset.sum_congr rfl fun s _ => ?_) (Finset.sum_congr rfl fun s _ => ?_)
  · rw [va1_bf_eq c arg1 harg1 arg2 harg2 arg4 harg4 arg6 harg6 arg9 harg9 arg22 x0 x1 x3 x4 x5 x6 x7 x8 x9 x10 x11 x12 x13 x14 x15 x16 x17 x18 r s]; rfl
  · rw [fs1_eq c arg1 harg1 arg5 harg5 arg21 x0 x4 x5 x6 x7 x8 x9 x10 x11 x12 x13 x14 x15 x16 x17 x18 r s, va1_eq c arg1 harg1 arg2 harg2 arg4 harg4 arg6 harg6 arg9 harg9 arg22 x0 x1 x3 x4 x5 x6 x7 x8 x9 x10 x11 x12 x13 x14 x15 x16 x17 x18 r s]; rfl

theorem head1_pre_eq (r : Fin 1024) (o : Fin 16) :
    kernelRun0_A.sl.r_103 (F := Ideal) c arg1 harg1 arg2 harg2 arg3 harg3 arg4 harg4 arg5 harg5 arg6 harg6 arg7 harg7 arg8 harg8 arg9 harg9 arg10 harg10 arg11 harg11 arg12 harg12 arg13 harg13 arg14 harg14 arg21 arg22 arg23 arg24 x0 x1 x2 x3 x4 x5 x6 x7 x8 x9 x10 x11 x12 x13 (ix2 r o)
      = ((((∑ s, fs1 (kwts x4 x5 x6 x7 x8 x9 x10 x11 x12 x13 x14 x15 x16 x17 x18) (rowOf x0 r) s * (kwts x4 x5 x6 x7 x8 x9 x10 x11 x12 x13 x14 x15 x16 x17 x18).fsW o s) + (kwts x4 x5 x6 x7 x8 x9 x10 x11 x12 x13 x14 x15 x16 x17 x18).fsB o) + ∑ s, mag (va1 (kwts x4 x5 x6 x7 x8 x9 x10 x11 x12 x13 x14 x15 x16 x17 x18) (rowOf x0 r) (rowOf x1 r) (x3 (ix2 r 0)) s) * (kwts x4 x5 x6 x7 x8 x9 x10 x11 x12 x13 x14 x15 x16 x17 x18).absvaW o s)
          + ∑ s, mag (ha1 (kwts x4 x5 x6 x7 x8 x9 x10 x11 x12 x13 x14 x15 x16 x17 x18) (rowOf x0 r) (rowOf x2 r) s) * (kwts x4 x5 x6 x7 x8 x9 x10 x11 x12 x13 x14 x15 x16 x17 x18).abshaW o s) + ∑ s, mag (ra1 (kwts x4 x5 x6 x7 x8 x9 x10 x11 x12 x13 x14 x15 x16 x17 x18) (rowOf x0 r) (rowOf x1 r) (rowOf x2 r) s) * (kwts x4 x5 x6 x7 x8 x9 x10 x11 x12 x13 x14 x15 x16 x17 x18).absraW o s := by
  unfold kernelRun0_A.sl.r_103
  rw [pay260_apply, load_eq, load_eq, load_eq, load_eq, load_eq]
  refine congrArg₂ (· + ·) (congrArg₂ (· + ·) (congrArg₂ (· + ·) (congrArg₂ (· + ·)
    (Finset.sum_congr rfl fun s _ => ?_) rfl) (Finset.sum_congr rfl fun s _ => ?_))
    (Finset.sum_congr rfl fun s _ => ?_)) (Finset.sum_congr rfl fun s _ => ?_)
  · rw [fs1_bf_eq c arg1 harg1 arg5 harg5 arg21 x0 x4 x5 x6 x7 x8 x9 x10 x11 x12 x13 x14 x15 x16 x17 x18 r s]; rfl
  · rw [va1_mag_eq c arg1 harg1 arg2 harg2 arg4 harg4 arg6 harg6 arg9 harg9 arg22 x0 x1 x3 x4 x5 x6 x7 x8 x9 x10 x11 x12 x13 x14 x15 x16 x17 x18 r s]; rfl
  · rw [ha1_mag_eq c arg1 harg1 arg3 harg3 arg7 harg7 arg23 x0 x2 x4 x5 x6 x7 x8 x9 x10 x11 x12 x13 x14 x15 x16 x17 x18 r s]; rfl
  · rw [ra1_mag_eq c arg1 harg1 arg2 harg2 arg3 harg3 arg8 harg8 arg24 x0 x1 x2 x4 x5 x6 x7 x8 x9 x10 x11 x12 x13 x14 x15 x16 x17 x18 r s]; rfl

theorem va2_eq (r : Fin 1024) (o : Fin 16) :
    kernelRun0_A.sl.r_108 (F := Ideal) c arg1 harg1 arg2 harg2 arg3 harg3 arg4 harg4 arg5 harg5 arg6 harg6 arg7 harg7 arg8 harg8 arg9 harg9 arg15 harg15 arg16 harg16 arg17 harg17 arg21 arg22 arg23 arg24 x0 x1 x2 x3 x4 x5 x6 x7 x8 x14 x15 x16 (ix2 r o) = va2 (kwts x4 x5 x6 x7 x8 x9 x10 x11 x12 x13 x14 x15 x16 x17 x18) (rowOf x0 r) (rowOf x1 r) (rowOf x2 r) (x3 (ix2 r 0)) o := by
  unfold kernelRun0_A.sl.r_108 kernelRun0_A.sl.r_102 kernelRun0_A.sl.cst_582
  rw [pay266_apply, pay263_apply, load_eq, head2_part_eq c arg1 harg1 arg2 harg2 arg4 harg4 arg5 harg5 arg6 harg6 arg9 harg9 arg15 harg15 arg16 harg16 arg21 arg22 x0 x1 x3 x4 x5 x6 x7 x8 x9 x10 x11 x12 x13 x14 x15 x16 x17 x18 r o]
  unfold va2
  refine congrArg clamp (congrArg₂ (· + ·) rfl (Finset.sum_congr rfl fun s _ => ?_))
  rw [haxra_eq c arg1 harg1 arg2 harg2 arg3 harg3 arg7 harg7 arg8 harg8 arg23 arg24 x0 x1 x2 x4 x5 x6 x7 x8 x9 x10 x11 x12 x13 x14 x15 x16 x17 x18 r s, pay259_apply]
  rfl

theorem fs2xva2_eq (r : Fin 1024) (o : Fin 16) :
    kernelRun0_A.sl.r_109 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg21 arg22 arg23 arg24 x0 x1 x2 x3 x4 x5 x6 x7 x8 x9 x10 x11 x12 x13 x14 x15 x16 (ix2 r o) = fs2 (kwts x4 x5 x6 x7 x8 x9 x10 x11 x12 x13 x14 x15 x16 x17 x18) (rowOf x0 r) (rowOf x1 r) (rowOf x2 r) (x3 (ix2 r 0)) o * va2 (kwts x4 x5 x6 x7 x8 x9 x10 x11 x12 x13 x14 x15 x16 x17 x18) (rowOf x0 r) (rowOf x1 r) (rowOf x2 r) (x3 (ix2 r 0)) o := by
  unfold kernelRun0_A.sl.r_109
  rw [pay267_apply]
  refine congrArg₂ (· * ·) ?_ ?_
  · rw [head1_pre_eq c arg1 harg1 arg2 harg2 arg3 harg3 arg4 harg4 arg5 harg5 arg6 harg6 arg7 harg7 arg8 harg8 arg9 harg9 arg10 harg10 arg11 harg11 arg12 harg12 arg13 harg13 arg14 harg14 arg21 arg22 arg23 arg24 x0 x1 x2 x3 x4 x5 x6 x7 x8 x9 x10 x11 x12 x13 x14 x15 x16 x17 x18 r o]; rfl
  · exact va2_eq c arg1 harg1 arg2 harg2 arg3 harg3 arg4 harg4 arg5 harg5 arg6 harg6 arg7 harg7 arg8 harg8 arg9 harg9 arg15 harg15 arg16 harg16 arg17 harg17 arg21 arg22 arg23 arg24 x0 x1 x2 x3 x4 x5 x6 x7 x8 x9 x10 x11 x12 x13 x14 x15 x16 x17 x18 r o

/-- Entry (0, r) of the block one grid step leaves in the output's staging buffer is the network's output on block
    row r, with the parameters as the step's blocks hold them. -/
theorem body_value (r : Fin 1024) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 (ix2 0 r)
      = out (kwts x4 x5 x6 x7 x8 x9 x10 x11 x12 x13 x14 x15 x16 x17 x18) (rowOf x0 r) (rowOf x1 r) (rowOf x2 r) (x3 (ix2 r 0)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18)]
  unfold kernelRun0_A
  dsimp only
  rw [View.canon_unit_zero hz]
  unfold kernelRun0_A.sl.r_106 kernelRun0_A.sl.r_107 kernelRun0_A.sl.cst_591
  rw [pay1_apply, load_eq, load_eq]
  unfold out
  refine congrArg₂ (· + ·) (Finset.sum_congr rfl fun o _ => ?_) (Finset.sum_congr rfl fun o _ => ?_)
  · rw [va2_eq c arg1 harg1 arg2 harg2 arg3 harg3 arg4 harg4 arg5 harg5 arg6 harg6 arg7 harg7 arg8 harg8 arg9 harg9 arg15 harg15 arg16 harg16 arg17 harg17 arg21 arg22 arg23 arg24 x0 x1 x2 x3 x4 x5 x6 x7 x8 x9 x10 x11 x12 x13 x14 x15 x16 x17 x18 r o, pay264_apply]; rfl
  · rw [fs2xva2_eq c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg21 arg22 arg23 arg24 x0 x1 x2 x3 x4 x5 x6 x7 x8 x9 x10 x11 x12 x13 x14 x15 x16 x17 x18 r o, pay265_apply]; rfl

end Cert.KernelIdeal.KBody

end
-- ==== Proof.KArray.lean ====
/-
  From the grid steps' blocks to the program's result.  Step t reads rows 1024·t … 1024·t + 1023 of the three slot arrays
  and of the scalar column, and the whole of each parameter array as the host prepared it (tables padded with 71
  zero rows, dense weights transposed, the bias reshaped to a row); it writes columns 1024·t … of the [1, 262144]
  output, so the 256 steps cover it; the host then reshapes that row to the result vector.  Hence the result at
  batch row b is the network's output on row b of the arguments (the padded rows contribute nothing: `BagNet.out_pad`).
-/
import proofs.«422188_j67422396612990_3_alg».proof.Proof.Gen.KernelIdeal.Frame
import proofs.«422188_j67422396612990_3_alg».proof.Proof.BagNet
import proofs.«422188_j67422396612990_3_alg».proof.Proof.KBody
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen Cert.BagNet

variable (m : (ℓ : Loc nD τ sig) → Buf (Elt Ideal) ℓ) (ρ : Dev nD → PrngReg)

/-- The program's result on core `c`: the network's output, row by row, of the argument arrays as launched. -/
def res (c : Dev nD) : Buf (Elt Ideal) ((c.tc : Thread nD τ).loc main_v16) :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-! ## The arrays the host prepares before the region

The host pads each of the four tables with 71 rows of the converted integer zero, transposes the scalar's vector, the
dense weights and the last layer's rows, and reshapes the bias to a row. -/

/-- A table of 185 rows continued by 71 rows of a padding value that is zero, read at (v, s): row v of the table when
    v < 185, zero otherwise. -/
theorem pad_rows_apply {K : ℕ} (x : (⟨2, ![185, K]⟩ : Shape).Idx → EReal) (z : S_.Idx → EReal)
    (h : (⟨2, ![185, K]⟩ : Shape).Pads ![0, 0] ![71, 0] ![0, 0] ⟨2, ![256, K]⟩) (hu : 0 < S_.numel) (hz : z ix0 = 0) (v : Fin 256) (s : Fin K) :
    pad ⟨2, ![256, K]⟩ ![0, 0] ![71, 0] ![0, 0] x z h hu (ix2 v s) = if hv : v.val < 185 then x (ix2 ⟨v.val, hv⟩ s) else 0 := by
  unfold pad
  by_cases hv : v.val < 185
  · rw [dif_pos hv, dif_pos (fun a => by
      match a with
      | ⟨0, _⟩ => exact ⟨Nat.zero_le _, Nat.mod_one _, by show (v.val - 0) / 1 < 185; omega⟩
      | ⟨1, _⟩ => exact ⟨Nat.zero_le _, Nat.mod_one _, by show (s.val - 0) / 1 < K; have := s.isLt; omega⟩)]
    refine congrArg x (funext fun a => Fin.ext ?_)
    match a with
    | ⟨0, _⟩ => show (v.val - 0) / 1 = v.val; omega
    | ⟨1, _⟩ => show (s.val - 0) / 1 = s.val; omega
  · rw [dif_neg hv, dif_neg (fun hin => hv (by have := (hin 0).2.2; have e : (v.val - 0) / 1 < 185 := this; omega))]
    exact (congrArg z (funext fun a => a.elim0)).trans hz

/-- The padding value is zero: the integer zero converted to a real. -/
theorem pad_value : (sitofp (F := Ideal) .f32 (constantI S_ 32 0#32) : S_.Idx → EReal) ix0 = 0 := by
  show ((((0#32 : BitVec 32).toInt : ℤ) : ℝ) : EReal) = 0
  simp

/-- The first table as the region finds it: the argument padded. -/
theorem v0_eq (c : Dev nD) : (V m c main_v0 : S256x256.Idx → EReal) = pad S256x256 ![0, 0] ![71, 0] ![0, 0] (m ((c.tc : Thread nD τ).loc main_arg4)) (sitofp (F := Ideal) .f32 (constantI S_ 32 0#32)) pads_S185x256_S256x256_0710_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The second table, padded. -/
theorem v1_eq (c : Dev nD) : (V m c main_v1 : S256x256.Idx → EReal) = pad S256x256 ![0, 0] ![71, 0] ![0, 0] (m ((c.tc : Thread nD τ).loc main_arg5)) (sitofp (F := Ideal) .f32 (constantI S_ 32 0#32)) pads_S185x256_S256x256_0710_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The third table, padded. -/
theorem v2_eq (c : Dev nD) : (V m c main_v2 : S256x128.Idx → EReal) = pad S256x128 ![0, 0] ![71, 0] ![0, 0] (m ((c.tc : Thread nD τ).loc main_arg6)) (sitofp (F := Ideal) .f32 (constantI S_ 32 0#32)) pads_S185x128_S256x128_0710_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The fourth table, padded. -/
theorem v3_eq (c : Dev nD) : (V m c main_v3 : S256x128.Idx → EReal) = pad S256x128 ![0, 0] ![71, 0] ![0, 0] (m ((c.tc : Thread nD τ).loc main_arg7)) (sitofp (F := Ideal) .f32 (constantI S_ 32 0#32)) pads_S185x128_S256x128_0710_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The scalar's vector as a row: the [256, 1] column transposed. -/
theorem v4_eq (c : Dev nD) : (V m c main_v4 : S1x256.Idx → EReal) = transpose S1x256 [1, 0] (m ((c.tc : Thread nD τ).loc main_arg8)) transposes_S256x1_S1x256_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The first dense weight as [input, output]. -/
theorem v5_eq (c : Dev nD) : (V m c main_v5 : S256x16.Idx → EReal) = transpose S256x16 [1, 0] (m ((c.tc : Thread nD τ).loc main_arg9)) transposes_S16x256_S256x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The bias as a row: the [16] vector read as [1, 16]. -/
theorem v6_eq (c : Dev nD) : (V m c main_v6 : S1x16.Idx → EReal) = shapeCast S1x16 (m ((c.tc : Thread nD τ).loc main_arg10)) shapeCasts_S16_S1x16 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The weight of the first layer's absolute values (colour bag), transposed. -/
theorem v7_eq (c : Dev nD) : (V m c main_v7 : S256x16.Idx → EReal) = transpose S256x16 [1, 0] (m ((c.tc : Thread nD τ).loc main_arg11)) transposes_S16x256_S256x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The weight of the absolute values (side bag), transposed. -/
theorem v8_eq (c : Dev nD) : (V m c main_v8 : S128x16.Idx → EReal) = transpose S128x16 [1, 0] (m ((c.tc : Thread nD τ).loc main_arg12)) transposes_S16x128_S128x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The weight of the absolute values (colour times side bag), transposed. -/
theorem v9_eq (c : Dev nD) : (V m c main_v9 : S128x16.Idx → EReal) = transpose S128x16 [1, 0] (m ((c.tc : Thread nD τ).loc main_arg13)) transposes_S16x128_S128x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The second head's weight of the colour bag, transposed. -/
theorem v10_eq (c : Dev nD) : (V m c main_v10 : S256x16.Idx → EReal) = transpose S256x16 [1, 0] (m ((c.tc : Thread nD τ).loc main_arg14)) transposes_S16x256_S256x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The second head's weight of the first product, transposed. -/
theorem v11_eq (c : Dev nD) : (V m c main_v11 : S256x16.Idx → EReal) = transpose S256x16 [1, 0] (m ((c.tc : Thread nD τ).loc main_arg15)) transposes_S16x256_S256x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The second head's weight of the second product, transposed. -/
theorem v12_eq (c : Dev nD) : (V m c main_v12 : S128x16.Idx → EReal) = transpose S128x16 [1, 0] (m ((c.tc : Thread nD τ).loc main_arg16)) transposes_S16x128_S128x16_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The last layer's first row as a column. -/
theorem v13_eq (c : Dev nD) : (V m c main_v13 : S16x1.Idx → EReal) = transpose S16x1 [1, 0] (m ((c.tc : Thread nD τ).loc main_arg17)) transposes_S1x16_S16x1_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-- The last layer's second row as a column. -/
theorem v14_eq (c : Dev nD) : (V m c main_v14 : S16x1.Idx → EReal) = transpose S16x1 [1, 0] (m ((c.tc : Thread nD τ).loc main_arg18)) transposes_S1x16_S16x1_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-! ## The windows' index maps, decided over the grid

The row windows sit at block (t, 0) at step t, the parameter windows at block (0, 0) throughout, the output at (0, t). -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = t.val :=
  (by decide +kernel : ∀ t : Fin grid0.N, _)

/-! ## The input blocks read at an entry

Entry (r, l) of a row window's block at step t is entry (1024·t + r, l) of its array, which no host operation touched;
a parameter window's block is its whole array, read through the host's padding, transposition or reshape. -/

/-- The index block at step t holds rows 1024·t … of the index array. -/
theorem blk0_apply (c : Dev nD) (t : Fin cfg0.N) (r : Fin 1024) (l : Fin 32) (k : Fin 262144) (hk : k.val = 1024 * t.val + r.val) :
    (iblk m c 0 t : Vec Ideal S1024x32 .i32) (ix2 r l) = (m ((c.tc : Thread nD τ).loc main_arg0) : S262144x32.Idx → BitVec 32) (ix2 k l) := by
  unfold iblk
  rw [View.read_apply]
  show V m c main_arg0 (((cfg0.win 0).blk t).view.emb (ix2 r l)) = _
  rw [V_main_arg0]
  refine congrArg (m ((c.tc : Thread nD τ).loc main_arg0) : S262144x32.Idx → BitVec 32) (funext fun a => Fin.ext ?_)
  match a with
  | ⟨0, _⟩ => show win0_0.index t 0 * 1024 + 1 * r.val = k.val; rw [(idx0 t).1, hk]; omega
  | ⟨1, _⟩ => show win0_0.index t 1 * 32 + 1 * l.val = l.val; rw [(idx0 t).2]; omega

/-- The colour block at step t holds rows 1024·t … of the colour array. -/
theorem blk1_apply (c : Dev nD) (t : Fin cfg0.N) (r : Fin 1024) (l : Fin 32) (k : Fin 262144) (hk : k.val = 1024 * t.val + r.val) :
    (iblk m c 1 t : Vec Ideal S1024x32 .f32) (ix2 r l) = (m ((c.tc : Thread nD τ).loc main_arg1) : S262144x32.Idx → EReal) (ix2 k l) := by
  unfold iblk
  rw [View.read_apply]
  show V m c main_arg1 (((cfg0.win 1).blk t).view.emb (ix2 r l)) = _
  rw [V_main_arg1]
  refine congrArg (m ((c.tc : Thread nD τ).loc main_arg1) : S262144x32.Idx → EReal) (funext fun a => Fin.ext ?_)
  match a with
  | ⟨0, _⟩ => show win0_1.index t 0 * 1024 + 1 * r.val = k.val; rw [(idx1 t).1, hk]; omega
  | ⟨1, _⟩ => show win0_1.index t 1 * 32 + 1 * l.val = l.val; rw [(idx1 t).2]; omega

/-- The side block at step t holds rows 1024·t … of the side array. -/
theorem blk2_apply (c : Dev nD) (t : Fin cfg0.N) (r : Fin 1024) (l : Fin 32) (k : Fin 262144) (hk : k.val = 1024 * t.val + r.val) :
    (iblk m c 2 t : Vec Ideal S1024x32 .f32) (ix2 r l) = (m ((c.tc : Thread nD τ).loc main_arg2) : S262144x32.Idx → EReal) (ix2 k l) := by
  unfold iblk
  rw [View.read_apply]
  show V m c main_arg2 (((cfg0.win 2).blk t).view.emb (ix2 r l)) = _
  rw [V_main_arg2]
  refine congrArg (m ((c.tc : Thread nD τ).loc main_arg2) : S262144x32.Idx → EReal) (funext fun a => Fin.ext ?_)
  match a with
  | ⟨0, _⟩ => show win0_2.index t 0 * 1024 + 1 * r.val = k.val; rw [(idx2 t).1, hk]; omega
  | ⟨1, _⟩ => show win0_2.index t 1 * 32 + 1 * l.val = l.val; rw [(idx2 t).2]; omega

/-- The scalar block at step t holds rows 1024·t … of the scalar column. -/
theorem blk3_apply (c : Dev nD) (t : Fin cfg0.N) (r : Fin 1024) (l : Fin 1) (k : Fin 262144) (hk : k.val = 1024 * t.val + r.val) :
    (iblk m c 3 t : Vec Ideal S1024x1 .f32) (ix2 r l) = (m ((c.tc : Thread nD τ).loc main_arg3) : S262144x1.Idx → EReal) (ix2 k l) := by
  unfold iblk
  rw [View.read_apply]
  show V m c main_arg3 (((cfg0.win 3).blk t).view.emb (ix2 r l)) = _
  rw [V_main_arg3]
  refine congrArg (m ((c.tc : Thread nD τ).loc main_arg3) : S262144x1.Idx → EReal) (funext fun a => Fin.ext ?_)
  match a with
  | ⟨0, _⟩ => show win0_3.index t 0 * 1024 + 1 * r.val = k.val; rw [(idx3 t).1, hk]; omega
  | ⟨1, _⟩ => show win0_3.index t 1 * 1 + 1 * l.val = l.val; rw [(idx3 t).2]; omega

/-- The first table's block: row v of the argument below row 185, zero from there on. -/
theorem blk4_val (c : Dev nD) (t : Fin cfg0.N) (v : Fin 256) (s : Fin 256) :
    (iblk m c 4 t : Vec Ideal S256x256 .f32) (ix2 v s)
      = if hv : v.val < 185 then (m ((c.tc : Thread nD τ).loc main_arg4) : S185x256.Idx → EReal) (ix2 ⟨v.val, hv⟩ s) else (0 : EReal) := by
  have e : (iblk m c 4 t : Vec Ideal S256x256 .f32) (ix2 v s) = (V m c main_v0 : S256x256.Idx → EReal) (ix2 v s) := by
    unfold iblk
    rw [View.read_apply]
    refine congrArg (V m c main_v0 : S256x256.Idx → EReal) (funext fun a => Fin.ext ?_)
    match a with
    | ⟨0, _⟩ => show win0_4.index t 0 * 256 + 1 * v.val = v.val; rw [(idx4 t).1]; omega
    | ⟨1, _⟩ => show win0_4.index t 1 * 256 + 1 * s.val = s.val; rw [(idx4 t).2]; omega
  exact e.trans ((congrFun (v0_eq m c) (ix2 v s)).trans (pad_rows_apply _ _ pads_S185x256_S256x256_0710_000 h_S_ pad_value v s))

/-- The second table's block. -/
theorem blk5_val (c : Dev nD) (t : Fin cfg0.N) (v : Fin 256) (s : Fin 256) :
    (iblk m c 5 t : Vec Ideal S256x256 .f32) (ix2 v s)
      = if hv : v.val < 185 then (m ((c.tc : Thread nD τ).loc main_arg5) : S185x256.Idx → EReal) (ix2 ⟨v.val, hv⟩ s) else (0 : EReal) := by
  have e : (iblk m c 5 t : Vec Ideal S256x256 .f32) (ix2 v s) = (V m c main_v1 : S256x256.Idx → EReal) (ix2 v s) := by
    unfold iblk
    rw [View.read_apply]
    refine congrArg (V m c main_v1 : S256x256.Idx → EReal) (funext fun a => Fin.ext ?_)
    match a with
    | ⟨0, _⟩ => show win0_5.index t 0 * 256 + 1 * v.val = v.val; rw [(idx5 t).1]; omega
    | ⟨1, _⟩ => show win0_5.index t 1 * 256 + 1 * s.val = s.val; rw [(idx5 t).2]; omega
  exact e.trans ((congrFun (v1_eq m c) (ix2 v s)).trans (pad_rows_apply _ _ pads_S185x256_S256x256_0710_000 h_S_ pad_value v s))

/-- The third table's block. -/
theorem blk6_val (c : Dev nD) (t : Fin cfg0.N) (v : Fin 256) (s : Fin 128) :
    (iblk m c 6 t : Vec Ideal S256x128 .f32) (ix2 v s)
      = if hv : v.val < 185 then (m ((c.tc : Thread nD τ).loc main_arg6) : S185x128.Idx → EReal) (ix2 ⟨v.val, hv⟩ s) else (0 : EReal) := by
  have e : (iblk m c 6 t : Vec Ideal S256x128 .f32) (ix2 v s) = (V m c main_v2 : S256x128.Idx → EReal) (ix2 v s) := by
    unfold iblk
    rw [View.read_apply]
    refine congrArg (V m c main_v2 : S256x128.Idx → EReal) (funext fun a => Fin.ext ?_)
    match a with
    | ⟨0, _⟩ => show win0_6.index t 0 * 256 + 1 * v.val = v.val; rw [(idx6 t).1]; omega
    | ⟨1, _⟩ => show win0_6.index t 1 * 128 + 1 * s.val = s.val; rw [(idx6 t).2]; omega
  exact e.trans ((congrFun (v2_eq m c) (ix2 v s)).trans (pad_rows_apply _ _ pads_S185x128_S256x128_0710_000 h_S_ pad_value v s))

/-- The fourth table's block. -/
theorem blk7_val (c : Dev nD) (t : Fin cfg0.N) (v : Fin 256) (s : Fin 128) :
    (iblk m c 7 t : Vec Ideal S256x128 .f32) (ix2 v s)
      = if hv : v.val < 185 then (m ((c.tc : Thread nD τ).loc main_arg7) : S185x128.Idx → EReal) (ix2 ⟨v.val, hv⟩ s) else (0 : EReal) := by
  have e : (iblk m c 7 t : Vec Ideal S256x128 .f32) (ix2 v s) = (V m c main_v3 : S256x128.Idx → EReal) (ix2 v s) := by
    unfold iblk
    rw [View.read_apply]
    refine congrArg (V m c main_v3 : S256x128.Idx → EReal) (funext fun a => Fin.ext ?_)
    match a with
    | ⟨0, _⟩ => show win0_7.index t 0 * 256 + 1 * v.val = v.val; rw [(idx7 t).1]; omega
    | ⟨1, _⟩ => show win0_7.index t 1 * 128 + 1 * s.val = s.val; rw [(idx7 t).2]; omega
  exact e.trans ((congrFun (v3_eq m c) (ix2 v s)).trans (pad_rows_apply _ _ pads_S185x128_S256x128_0710_000 h_S_ pad_value v s))

/-- The scalar's vector: entry (u, s) of the row block is entry (s, u) of the column argument. -/
theorem blk8_val (c : Dev nD) (t : Fin cfg0.N) (u : Fin 1) (s : Fin 256) :
    (iblk m c 8 t : Vec Ideal S1x256 .f32) (ix2 u s) = (m ((c.tc : Thread nD τ).loc main_arg8) : S256x1.Idx → EReal) (ix2 s u) := by
  have e : (iblk m c 8 t : Vec Ideal S1x256 .f32) (ix2 u s) = (V m c main_v4 : S1x256.Idx → EReal) (ix2 u s) := by
    unfold iblk
    rw [View.read_apply]
    refine congrArg (V m c main_v4 : S1x256.Idx → EReal) (funext fun a => Fin.ext ?_)
    match a with
    | ⟨0, _⟩ => show win0_8.index t 0 * 1 + 1 * u.val = u.val; rw [(idx8 t).1]; omega
    | ⟨1, _⟩ => show win0_8.index t 1 * 256 + 1 * s.val = s.val; rw [(idx8 t).2]; omega
  exact e.trans ((congrFun (v4_eq m c) (ix2 u s)).trans (transpose_ix2_apply _ transposes_S256x1_S1x256_1_0 u s))

/-- The first dense weight: entry (s, o) of the block is entry (o, s) of the argument. -/
theorem blk9_val (c : Dev nD) (t : Fin cfg0.N) (s : Fin 256) (o : Fin 16) :
    (iblk m c 9 t : Vec Ideal S256x16 .f32) (ix2 s o) = (m ((c.tc : Thread nD τ).loc main_arg9) : S16x256.Idx → EReal) (ix2 o s) := by
  have e : (iblk m c 9 t : Vec Ideal S256x16 .f32) (ix2 s o) = (V m c main_v5 : S256x16.Idx → EReal) (ix2 s o) := by
    unfold iblk
    rw [View.read_apply]
    refine congrArg (V m c main_v5 : S256x16.Idx → EReal) (funext fun a => Fin.ext ?_)
    match a with
    | ⟨0, _⟩ => show win0_9.index t 0 * 256 + 1 * s.val = s.val; rw [(idx9 t).1]; omega
    | ⟨1, _⟩ => show win0_9.index t 1 * 16 + 1 * o.val = o.val; rw [(idx9 t).2]; omega
  exact e.trans ((congrFun (v5_eq m c) (ix2 s o)).trans (transpose_ix2_apply _ transposes_S16x256_S256x16_1_0 s o))

/-- The bias: entry (u, o) of the row block is entry o of the argument. -/
theorem blk10_val (c : Dev nD) (t : Fin cfg0.N) (u : Fin 1) (o : Fin 16) :
    (iblk m c 10 t : Vec Ideal S1x16 .f32) (ix2 u o) = (m ((c.tc : Thread nD τ).loc main_arg10) : S16.Idx → EReal) (ix1 o) := by
  have e : (iblk m c 10 t : Vec Ideal S1x16 .f32) (ix2 u o) = (V m c main_v6 : S1x16.Idx → EReal) (ix2 u o) := by
    unfold iblk
    rw [View.read_apply]
    refine congrArg (V m c main_v6 : S1x16.Idx → EReal) (funext fun a => Fin.ext ?_)
    match a with
    | ⟨0, _⟩ => show win0_10.index t 0 * 1 + 1 * u.val = u.val; rw [(idx10 t).1]; omega
    | ⟨1, _⟩ => show win0_10.index t 1 * 16 + 1 * o.val = o.val; rw [(idx10 t).2]; omega
  exact e.trans ((congrFun (v6_eq m c) (ix2 u o)).trans (shapeCast_a_1a_apply _ shapeCasts_S16_S1x16 u o))

theorem blk11_val (c : Dev nD) (t : Fin cfg0.N) (s : Fin 256) (o : Fin 16) :
    (iblk m c 11 t : Vec Ideal S256x16 .f32) (ix2 s o) = (m ((c.tc : Thread nD τ).loc main_arg11) : S16x256.Idx → EReal) (ix2 o s) := by
  have e : (iblk m c 11 t : Vec Ideal S256x16 .f32) (ix2 s o) = (V m c main_v7 : S256x16.Idx → EReal) (ix2 s o) := by
    unfold iblk
    rw [View.read_apply]
    refine congrArg (V m c main_v7 : S256x16.Idx → EReal) (funext fun a => Fin.ext ?_)
    match a with
    | ⟨0, _⟩ => show win0_11.index t 0 * 256 + 1 * s.val = s.val; rw [(idx11 t).1]; omega
    | ⟨1, _⟩ => show win0_11.index t 1 * 16 + 1 * o.val = o.val; rw [(idx11 t).2]; omega
  exact e.trans ((congrFun (v7_eq m c) (ix2 s o)).trans (transpose_ix2_apply _ transposes_S16x256_S256x16_1_0 s o))

theorem blk12_val (c : Dev nD) (t : Fin cfg0.N) (s : Fin 128) (o : Fin 16) :
    (iblk m c 12 t : Vec Ideal S128x16 .f32) (ix2 s o) = (m ((c.tc : Thread nD τ).loc main_arg12) : S16x128.Idx → EReal) (ix2 o s) := by
  have e : (iblk m c 12 t : Vec Ideal S128x16 .f32) (ix2 s o) = (V m c main_v8 : S128x16.Idx → EReal) (ix2 s o) := by
    unfold iblk
    rw [View.read_apply]
    refine congrArg (V m c main_v8 : S128x16.Idx → EReal) (funext fun a => Fin.ext ?_)
    match a with
    | ⟨0, _⟩ => show win0_12.index t 0 * 128 + 1 * s.val = s.val; rw [(idx12 t).1]; omega
    | ⟨1, _⟩ => show win0_12.index t 1 * 16 + 1 * o.val = o.val; rw [(idx12 t).2]; omega
  exact e.trans ((congrFun (v8_eq m c) (ix2 s o)).trans (transpose_ix2_apply _ transposes_S16x128_S128x16_1_0 s o))

theorem blk13_val (c : Dev nD) (t : Fin cfg0.N) (s : Fin 128) (o : Fin 16) :
    (iblk m c 13 t : Vec Ideal S128x16 .f32) (ix2 s o) = (m ((c.tc : Thread nD τ).loc main_arg13) : S16x128.Idx → EReal) (ix2 o s) := by
  have e : (iblk m c 13 t : Vec Ideal S128x16 .f32) (ix2 s o) = (V m c main_v9 : S128x16.Idx → EReal) (ix2 s o) := by
    unfold iblk
    rw [View.read_apply]
    refine congrArg (V m c main_v9 : S128x16.Idx → EReal) (funext fun a => Fin.ext ?_)
    match a with
    | ⟨0, _⟩ => show win0_13.index t 0 * 128 + 1 * s.val = s.val; rw [(idx13 t).1]; omega
    | ⟨1, _⟩ => show win0_13.index t 1 * 16 + 1 * o.val = o.val; rw [(idx13 t).2]; omega
  exact e.trans ((congrFun (v9_eq m c) (ix2 s o)).trans (transpose_ix2_apply _ transposes_S16x128_S128x16_1_0 s o))

theorem blk14_val (c : Dev nD) (t : Fin cfg0.N) (s : Fin 256) (o : Fin 16) :
    (iblk m c 14 t : Vec Ideal S256x16 .f32) (ix2 s o) = (m ((c.tc : Thread nD τ).loc main_arg14) : S16x256.Idx → EReal) (ix2 o s) := by
  have e : (iblk m c 14 t : Vec Ideal S256x16 .f32) (ix2 s o) = (V m c main_v10 : S256x16.Idx → EReal) (ix2 s o) := by
    unfold iblk
    rw [View.read_apply]
    refine congrArg (V m c main_v10 : S256x16.Idx → EReal) (funext fun a => Fin.ext ?_)
    match a with
    | ⟨0, _⟩ => show win0_14.index t 0 * 256 + 1 * s.val = s.val; rw [(idx14 t).1]; omega
    | ⟨1, _⟩ => show win0_14.index t 1 * 16 + 1 * o.val = o.val; rw [(idx14 t).2]; omega
  exact e.trans ((congrFun (v10_eq m c) (ix2 s o)).trans (transpose_ix2_apply _ transposes_S16x256_S256x16_1_0 s o))

theorem blk15_val (c : Dev nD) (t : Fin cfg0.N) (s : Fin 256) (o : Fin 16) :
    (iblk m c 15 t : Vec Ideal S256x16 .f32) (ix2 s o) = (m ((c.tc : Thread nD τ).loc main_arg15) : S16x256.Idx → EReal) (ix2 o s) := by
  have e : (iblk m c 15 t : Vec Ideal S256x16 .f32) (ix2 s o) = (V m c main_v11 : S256x16.Idx → EReal) (ix2 s o) := by
    unfold iblk
    rw [View.read_apply]
    refine congrArg (V m c main_v11 : S256x16.Idx → EReal) (funext fun a => Fin.ext ?_)
    match a with
    | ⟨0, _⟩ => show win0_15.index t 0 * 256 + 1 * s.val = s.val; rw [(idx15 t).1]; omega
    | ⟨1, _⟩ => show win0_15.index t 1 * 16 + 1 * o.val = o.val; rw [(idx15 t).2]; omega
  exact e.trans ((congrFun (v11_eq m c) (ix2 s o)).trans (transpose_ix2_apply _ transposes_S16x256_S256x16_1_0 s o))

theorem blk16_val (c : Dev nD) (t : Fin cfg0.N) (s : Fin 128) (o : Fin 16) :
    (iblk m c 16 t : Vec Ideal S128x16 .f32) (ix2 s o) = (m ((c.tc : Thread nD τ).loc main_arg16) : S16x128.Idx → EReal) (ix2 o s) := by
  have e : (iblk m c 16 t : Vec Ideal S128x16 .f32) (ix2 s o) = (V m c main_v12 : S128x16.Idx → EReal) (ix2 s o) := by
    unfold iblk
    rw [View.read_apply]
    refine congrArg (V m c main_v12 : S128x16.Idx → EReal) (funext fun a => Fin.ext ?_)
    match a with
    | ⟨0, _⟩ => show win0_16.index t 0 * 128 + 1 * s.val = s.val; rw [(idx16 t).1]; omega
    | ⟨1, _⟩ => show win0_16.index t 1 * 16 + 1 * o.val = o.val; rw [(idx16 t).2]; omega
  exact e.trans ((congrFun (v12_eq m c) (ix2 s o)).trans (transpose_ix2_apply _ transposes_S16x128_S128x16_1_0 s o))

/-- The last layer's first weights: entry (o, u) of the column block is entry (u, o) of the row argument. -/
theorem blk17_val (c : Dev nD) (t : Fin cfg0.N) (o : Fin 16) (u : Fin 1) :
    (iblk m c 17 t : Vec Ideal S16x1 .f32) (ix2 o u) = (m ((c.tc : Thread nD τ).loc main_arg17) : S1x16.Idx → EReal) (ix2 u o) := by
  have e : (iblk m c 17 t : Vec Ideal S16x1 .f32) (ix2 o u) = (V m c main_v13 : S16x1.Idx → EReal) (ix2 o u) := by
    unfold iblk
    rw [View.read_apply]
    refine congrArg (V m c main_v13 : S16x1.Idx → EReal) (funext fun a => Fin.ext ?_)
    match a with
    | ⟨0, _⟩ => show win0_17.index t 0 * 16 + 1 * o.val = o.val; rw [(idx17 t).1]; omega
    | ⟨1, _⟩ => show win0_17.index t 1 * 1 + 1 * u.val = u.val; rw [(idx17 t).2]; omega
  exact e.trans ((congrFun (v13_eq m c) (ix2 o u)).trans (transpose_ix2_apply _ transposes_S1x16_S16x1_1_0 o u))

theorem blk18_val (c : Dev nD) (t : Fin cfg0.N) (o : Fin 16) (u : Fin 1) :
    (iblk m c 18 t : Vec Ideal S16x1 .f32) (ix2 o u) = (m ((c.tc : Thread nD τ).loc main_arg18) : S1x16.Idx → EReal) (ix2 u o) := by
  have e : (iblk m c 18 t : Vec Ideal S16x1 .f32) (ix2 o u) = (V m c main_v14 : S16x1.Idx → EReal) (ix2 o u) := by
    unfold iblk
    rw [View.read_apply]
    refine congrArg (V m c main_v14 : S16x1.Idx → EReal) (funext fun a => Fin.ext ?_)
    match a with
    | ⟨0, _⟩ => show win0_18.index t 0 * 16 + 1 * o.val = o.val; rw [(idx18 t).1]; omega
    | ⟨1, _⟩ => show win0_18.index t 1 * 1 + 1 * u.val = u.val; rw [(idx18 t).2]; omega
  exact e.trans ((congrFun (v14_eq m c) (ix2 o u)).trans (transpose_ix2_apply _ transposes_S1x16_S16x1_1_0 o u))

/-! ## One grid step's output is the network's output on its rows -/

/-- Two parameter sets with the same fields are the same. -/
theorem weights_ext {N : ℕ} {P Q : Weights N} (h1 : P.embFs = Q.embFs) (h2 : P.embVa = Q.embVa) (h3 : P.embHa = Q.embHa)
    (h4 : P.embRa = Q.embRa) (h5 : P.tempo = Q.tempo) (h6 : P.fsW = Q.fsW) (h7 : P.fsB = Q.fsB) (h8 : P.absvaW = Q.absvaW)
    (h9 : P.abshaW = Q.abshaW) (h10 : P.absraW = Q.absraW) (h11 : P.vaW = Q.vaW) (h12 : P.fsxvaW = Q.fsxvaW)
    (h13 : P.haxraW = Q.haxraW) (h14 : P.outVa = Q.outVa) (h15 : P.outFsxva = Q.outFsxva) : P = Q := by
  cases P
  cases Q
  dsimp only at h1 h2 h3 h4 h5 h6 h7 h8 h9 h10 h11 h12 h13 h14 h15
  subst h1 h2 h3 h4 h5 h6 h7 h8 h9 h10 h11 h12 h13 h14 h15
  rfl

/-- Parameter blocks that read the argument arrays as the host prepared them — each table its argument below row 185
    and zero from there on, each dense weight its argument transposed, the scalar's vector and the last layer's rows
    transposed, the bias as a row — are the arguments' parameters with the tables padded. -/
theorem kwts_eq_pad
    (x4 x5 : (Sh2 256 256).Idx → EReal) (x6 x7 : (Sh2 256 128).Idx → EReal) (x8 : (Sh2 1 256).Idx → EReal)
    (x9 : (Sh2 256 16).Idx → EReal) (x10 : (Sh2 1 16).Idx → EReal) (x11 : (Sh2 256 16).Idx → EReal)
    (x12 x13 : (Sh2 128 16).Idx → EReal) (x14 x15 : (Sh2 256 16).Idx → EReal) (x16 : (Sh2 128 16).Idx → EReal)
    (x17 x18 : (Sh2 16 1).Idx → EReal)
    (a4 a5 : (Sh2 185 256).Idx → EReal) (a6 a7 : (Sh2 185 128).Idx → EReal) (a8 : (Sh2 256 1).Idx → EReal)
    (a9 : (Sh2 16 256).Idx → EReal) (a10 : (Sh1 16).Idx → EReal) (a11 : (Sh2 16 256).Idx → EReal)
    (a12 a13 : (Sh2 16 128).Idx → EReal) (a14 a15 : (Sh2 16 256).Idx → EReal) (a16 : (Sh2 16 128).Idx → EReal)
    (a17 a18 : (Sh2 1 16).Idx → EReal)
    (h4 : ∀ (v : Fin 256) (s : Fin 256), x4 (ix2 v s) = if hv : v.val < 185 then a4 (ix2 ⟨v.val, hv⟩ s) else 0)
    (h5 : ∀ (v : Fin 256) (s : Fin 256), x5 (ix2 v s) = if hv : v.val < 185 then a5 (ix2 ⟨v.val, hv⟩ s) else 0)
    (h6 : ∀ (v : Fin 256) (s : Fin 128), x6 (ix2 v s) = if hv : v.val < 185 then a6 (ix2 ⟨v.val, hv⟩ s) else 0)
    (h7 : ∀ (v : Fin 256) (s : Fin 128), x7 (ix2 v s) = if hv : v.val < 185 then a7 (ix2 ⟨v.val, hv⟩ s) else 0)
    (h8 : ∀ s : Fin 256, x8 (ix2 0 s) = a8 (ix2 s 0))
    (h9 : ∀ (o : Fin 16) (s : Fin 256), x9 (ix2 s o) = a9 (ix2 o s))
    (h10 : ∀ o : Fin 16, x10 (ix2 0 o) = a10 (ix1 o))
    (h11 : ∀ (o : Fin 16) (s : Fin 256), x11 (ix2 s o) = a11 (ix2 o s))
    (h12 : ∀ (o : Fin 16) (s : Fin 128), x12 (ix2 s o) = a12 (ix2 o s))
    (h13 : ∀ (o : Fin 16) (s : Fin 128), x13 (ix2 s o) = a13 (ix2 o s))
    (h14 : ∀ (o : Fin 16) (s : Fin 256), x14 (ix2 s o) = a14 (ix2 o s))
    (h15 : ∀ (o : Fin 16) (s : Fin 256), x15 (ix2 s o) = a15 (ix2 o s))
    (h16 : ∀ (o : Fin 16) (s : Fin 128), x16 (ix2 s o) = a16 (ix2 o s))
    (h17 : ∀ o : Fin 16, x17 (ix2 o 0) = a17 (ix2 0 o))
    (h18 : ∀ o : Fin 16, x18 (ix2 o 0) = a18 (ix2 0 o)) :
    kwts x4 x5 x6 x7 x8 x9 x10 x11 x12 x13 x14 x15 x16 x17 x18
      = (wts a4 a5 a6 a7 a8 a9 a10 a11 a12 a13 a14 a15 a16 a17 a18).pad :=
  weights_ext
    (funext fun v => funext fun s => h4 v s)
    (funext fun v => funext fun s => h5 v s)
    (funext fun v => funext fun s => h6 v s)
    (funext fun v => funext fun s => h7 v s)
    (funext fun s => h8 s)
    (funext fun o => funext fun s => h9 o s)
    (funext fun o => h10 o)
    (funext fun o => funext fun s => h11 o s)
    (funext fun o => funext fun s => h12 o s)
    (funext fun o => funext fun s => h13 o s)
    (funext fun o => funext fun s => h14 o s)
    (funext fun o => funext fun s => h15 o s)
    (funext fun o => funext fun s => h16 o s)
    (funext fun o => h17 o)
    (funext fun o => h18 o)

/-- The network on block row r of row blocks that hold rows of the argument arrays at batch row k, with such
    parameter blocks, is the result at batch row k: the padded rows of the tables contribute nothing. -/
theorem out_blocks
    (x0 : (Sh2 1024 32).Idx → BitVec 32) (x1 x2 : (Sh2 1024 32).Idx → EReal) (x3 : (Sh2 1024 1).Idx → EReal)
    (x4 x5 : (Sh2 256 256).Idx → EReal) (x6 x7 : (Sh2 256 128).Idx → EReal) (x8 : (Sh2 1 256).Idx → EReal)
    (x9 : (Sh2 256 16).Idx → EReal) (x10 : (Sh2 1 16).Idx → EReal) (x11 : (Sh2 256 16).Idx → EReal)
    (x12 x13 : (Sh2 128 16).Idx → EReal) (x14 x15 : (Sh2 256 16).Idx → EReal) (x16 : (Sh2 128 16).Idx → EReal)
    (x17 x18 : (Sh2 16 1).Idx → EReal)
    (a0 : (Sh2 262144 32).Idx → BitVec 32) (a1 a2 : (Sh2 262144 32).Idx → EReal) (a3 : (Sh2 262144 1).Idx → EReal)
    (a4 a5 : (Sh2 185 256).Idx → EReal) (a6 a7 : (Sh2 185 128).Idx → EReal) (a8 : (Sh2 256 1).Idx → EReal)
    (a9 : (Sh2 16 256).Idx → EReal) (a10 : (Sh1 16).Idx → EReal) (a11 : (Sh2 16 256).Idx → EReal)
    (a12 a13 : (Sh2 16 128).Idx → EReal) (a14 a15 : (Sh2 16 256).Idx → EReal) (a16 : (Sh2 16 128).Idx → EReal)
    (a17 a18 : (Sh2 1 16).Idx → EReal) (r : Fin 1024) (k : Fin 262144)
    (h0 : ∀ l : Fin 32, x0 (ix2 r l) = a0 (ix2 k l))
    (h1 : ∀ l : Fin 32, x1 (ix2 r l) = a1 (ix2 k l))
    (h2 : ∀ l : Fin 32, x2 (ix2 r l) = a2 (ix2 k l))
    (h3 : x3 (ix2 r 0) = a3 (ix2 k 0))
    (h4 : ∀ (v : Fin 256) (s : Fin 256), x4 (ix2 v s) = if hv : v.val < 185 then a4 (ix2 ⟨v.val, hv⟩ s) else 0)
    (h5 : ∀ (v : Fin 256) (s : Fin 256), x5 (ix2 v s) = if hv : v.val < 185 then a5 (ix2 ⟨v.val, hv⟩ s) else 0)
    (h6 : ∀ (v : Fin 256) (s : Fin 128), x6 (ix2 v s) = if hv : v.val < 185 then a6 (ix2 ⟨v.val, hv⟩ s) else 0)
    (h7 : ∀ (v : Fin 256) (s : Fin 128), x7 (ix2 v s) = if hv : v.val < 185 then a7 (ix2 ⟨v.val, hv⟩ s) else 0)
    (h8 : ∀ s : Fin 256, x8 (ix2 0 s) = a8 (ix2 s 0))
    (h9 : ∀ (o : Fin 16) (s : Fin 256), x9 (ix2 s o) = a9 (ix2 o s))
    (h10 : ∀ o : Fin 16, x10 (ix2 0 o) = a10 (ix1 o))
    (h11 : ∀ (o : Fin 16) (s : Fin 256), x11 (ix2 s o) = a11 (ix2 o s))
    (h12 : ∀ (o : Fin 16) (s : Fin 128), x12 (ix2 s o) = a12 (ix2 o s))
    (h13 : ∀ (o : Fin 16) (s : Fin 128), x13 (ix2 s o) = a13 (ix2 o s))
    (h14 : ∀ (o : Fin 16) (s : Fin 256), x14 (ix2 s o) = a14 (ix2 o s))
    (h15 : ∀ (o : Fin 16) (s : Fin 256), x15 (ix2 s o) = a15 (ix2 o s))
    (h16 : ∀ (o : Fin 16) (s : Fin 128), x16 (ix2 s o) = a16 (ix2 o s))
    (h17 : ∀ o : Fin 16, x17 (ix2 o 0) = a17 (ix2 0 o))
    (h18 : ∀ o : Fin 16, x18 (ix2 o 0) = a18 (ix2 0 o)) :
    out (kwts x4 x5 x6 x7 x8 x9 x10 x11 x12 x13 x14 x15 x16 x17 x18) (rowOf x0 r) (rowOf x1 r) (rowOf x2 r) (x3 (ix2 r 0))
      = result a0 a1 a2 a3 a4 a5 a6 a7 a8 a9 a10 a11 a12 a13 a14 a15 a16 a17 a18 (ix1 k) := by
  have e0 : rowOf x0 r = rowOf a0 k := funext h0
  have e1 : rowOf x1 r = rowOf a1 k := funext h1
  have e2 : rowOf x2 r = rowOf a2 k := funext h2
  rw [kwts_eq_pad x4 x5 x6 x7 x8 x9 x10 x11 x12 x13 x14 x15 x16 x17 x18 a4 a5 a6 a7 a8 a9 a10 a11 a12 a13 a14 a15 a16 a17 a18
    h4 h5 h6 h7 h8 h9 h10 h11 h12 h13 h14 h15 h16 h17 h18, out_pad, e0, e1, e2, h3]
  rfl

/-- Entry (0, r) of what step t leaves in the output's staging buffer: the network's output on block row r, the
    parameters and the row read off the step's blocks (the body's value at the step's memrefs and blocks). -/
theorem point_value (c : Dev nD) (t : Fin cfg0.N) (r : Fin 1024) :
    (outsAt0 m c t : Vec Ideal S1x1024 .f32) (ix2 0 r)
      = out (kwts (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))
          (rowOf (iblk m c 0 t) r) (rowOf (iblk m c 1 t) r) (rowOf (iblk m c 2 t) r) ((iblk m c 3 t : Vec Ideal S1024x1 .f32) (ix2 r 0)) := by
  unfold outsAt0
  exact KBody.body_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r

/-- So entry (0, r) of step t's output block is the result at batch row 1024·t + r. -/
theorem point_result (c : Dev nD) (t : Fin cfg0.N) (r : Fin 1024) (k : Fin 262144) (hk : k.val = 1024 * t.val + r.val) :
    (outsAt0 m c t : Vec Ideal S1x1024 .f32) (ix2 0 r) = (res m c : S262144.Idx → EReal) (ix1 k) :=
  (point_value m c t r).trans
    (out_blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      r k
      (fun l => blk0_apply m c t r l k hk) (fun l => blk1_apply m c t r l k hk) (fun l => blk2_apply m c t r l k hk) (blk3_apply m c t r 0 k hk)
      (fun v s => blk4_val m c t v s) (fun v s => blk5_val m c t v s) (fun v s => blk6_val m c t v s) (fun v s => blk7_val m c t v s)
      (fun s => blk8_val m c t 0 s) (fun o s => blk9_val m c t s o) (fun o => blk10_val m c t 0 o) (fun o s => blk11_val m c t s o)
      (fun o s => blk12_val m c t s o) (fun o s => blk13_val m c t s o) (fun o s => blk14_val m c t s o) (fun o s => blk15_val m c t s o)
      (fun o s => blk16_val m c t s o) (fun o => blk17_val m c t o 0) (fun o => blk18_val m c t o 0))

/-! ## From the steps' blocks to the output array, and the host's reshape -/

/-- The [1, 262144] output array: column j holds the network's output on batch row j. -/
def G (c : Dev nD) : S1x262144.Idx → EReal := fun j => (res m c : S262144.Idx → EReal) (ix1 (n := 262144) (j 1))

/-- What step t writes back is block (0, t) of that array: columns 1024·t … 1024·t + 1023. -/
theorem flushed_eq (c : Dev nD) (t : Fin cfg0.N) :
    (dats m 0 c).flushed 19 t = ((cfg0.win 19).blk t).view.read (Elt Ideal) (G m c) := by
  show (cfg0.win 19).cut (grid0.coords t) ((dats m 0 c).after 19 t) = _
  rw [after0_19]
  funext y
  rw [View.read_apply]
  show (outsAt0 m c t : Vec Ideal S1x1024 .f32) y = (res m c : S262144.Idx → EReal) (ix1 (n := 262144) ((((cfg0.win 19).blk t).view.emb y) 1))
  have hy : y = ix2 (0 : Fin 1) (y 1) := by
    funext a
    match a with
    | ⟨0, _⟩ => exact Fin.ext (by have : (y 0).val < 1 := (y 0).isLt; show (y 0).val = 0; omega)
    | ⟨1, _⟩ => rfl
  rw [hy]
  refine point_result m c t (y 1) _ ?_
  show win0_19.index t 1 * 1024 + 1 * (y 1).val = 1024 * t.val + (y 1).val
  rw [(idx19 t).2]; omega

/-- An index of the output array is in step t's block iff each coordinate is in the block's range on its axis. -/
theorem mem_blk19 (t : Fin cfg0.N) (i : S1x262144.Idx) :
    i ∈ ((cfg0.win 19).blk t).view.set ↔ ∀ a : Fin 2, win0_19.index t a * S1x1024.size a ≤ (i a).val ∧ (i a).val < win0_19.index t a * S1x1024.size a + S1x1024.size a := by
  show i ∈ ((View.whole main_v15).slice (win0_19.rect t)).set ↔ _
  rw [View.set_slice_whole, Rect.mem_set_unit]
  exact Iff.rfl

/-- Column j is written by step j / 1024: the 256 steps cover the array. -/
theorem cover19 (i : S1x262144.Idx) : ∃ t : Fin cfg0.N, (cfg0.win 19).flush t = true ∧ i ∈ ((cfg0.win 19).blk t).view.set := by
  have hN : cfg0.N = 256 := N_0
  have h0 : (i 0).val < 1 := (i 0).isLt
  have h1 : (i 1).val < 262144 := (i 1).isLt
  refine ⟨⟨(i 1).val / 1024, by rw [hN]; omega⟩, flush0_19 _, ?_⟩
  rw [mem_blk19]
  intro a
  match a with
  | ⟨0, _⟩ =>
    show win0_19.index _ 0 * 1 ≤ (i 0).val ∧ (i 0).val < win0_19.index _ 0 * 1 + 1
    rw [(idx19 _).1]; omega
  | ⟨1, _⟩ =>
    show win0_19.index _ 1 * 1024 ≤ (i 1).val ∧ (i 1).val < win0_19.index _ 1 * 1024 + 1024
    rw [(idx19 _).2]; show (i 1).val / 1024 * 1024 ≤ (i 1).val ∧ (i 1).val < (i 1).val / 1024 * 1024 + 1024; omega

/-- So the output array ends holding the network's output column by column. -/
theorem final19 (c : Dev nD) : (dats m 0 c).arrAt 19 cfg0.N = G m c :=
  (dats m 0 c).arrAt_eq_of_cover 19 (G m c) (fun t _ => flushed_eq m c t) cover19

/-- The host's last operation reads the [1, 262144] row as a vector: entry b is column b. -/
theorem tail_eq (c : Dev nD) : Pipeline.afterTail₀ cfgs (dats m) 0 (V0 m) [hostOps1] c main_v16 = res m c := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15) = G m c :=
    (Pipeline.withArrays_arr spec0 launch0.win.arr_inj c _ _ 19).trans (final19 m c)
  rw [e]
  funext b
  obtain ⟨k, rfl⟩ : ∃ k : Fin 262144, b = ix1 k := ⟨b 0, eq_ix1 b⟩
  show shapeCast S262144 (G m c) shapeCasts_S1x262144_S262144 (ix1 k) = (res m c : S262144.Idx → EReal) (ix1 k)
  exact shapeCast_1a_a_apply (G m c) shapeCasts_S1x262144_S262144 k

set_option maxHeartbeats 1200000 in
/-- Every weakly fair execution of the idealized kernel program terminates without fault, its result the network's
    output on every batch row, its arguments unchanged. -/
theorem run : θ_run (defs (F := Ideal)) (onTc (τ := τ) (main (F := Ideal))) ⟨m, fun _ => 0, ρ⟩ (fun r => ∀ c : Dev nD,
      r.2.mem ((c.tc : Thread nD τ).loc main_v16) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c)⟩) (run_main m ρ)

end Cert.KernelIdeal.KValue

end
-- ==== Proof.lean ====
/-
  The certificate: the one-hot embedding-bag network computed by the Pallas kernel equals, on the extended reals, the
  scatter-then-contract reference, on every input whose float entries are finite and whose indices are non-negative.

  Both programs compute, for each batch row, `BagNet.out` of the row (Proof/BagNet.lean).  The kernel forms each
  weighted count of a vocabulary entry by adding, slot by slot, a one-hot column times the slot's weight, and
  contracts the counts with tables padded by zero rows; the reference scatters the weights into a count array and
  contracts with the unpadded tables.  The counts agree because a non-negative index is its own column (the
  reference wraps negative indices, the kernel's comparison never matches them: this is the one place the precondition is used); the padded rows
  contribute zero; after that the two programs apply the same clamps, dense layers and contractions.  Sums are
  only reordered and regrouped, which the extended reals allow without finiteness.

  The three frames: the two kernel programs' are the generated frame certificates; the reference's is its
  generated run with the result dropped.  The idealization rewrote nothing, so `preserves` is trivial.
-/
import proofs.«422188_j67422396612990_3_alg».proof.Defs
import proofs.«422188_j67422396612990_3_alg».proof.Proof.Gen.Kernel
import proofs.«422188_j67422396612990_3_alg».proof.Proof.Gen.Kernel.Frame
import proofs.«422188_j67422396612990_3_alg».proof.Proof.Gen.KernelIdeal
import proofs.«422188_j67422396612990_3_alg».proof.Proof.Gen.KernelIdeal.Frame
import proofs.«422188_j67422396612990_3_alg».proof.Proof.Gen.ReferenceIdeal
import proofs.«422188_j67422396612990_3_alg».proof.Proof.Gen.Pre_finite_inputs
import proofs.«422188_j67422396612990_3_alg».proof.Proof.Gen.ReferenceIdeal.Run
import proofs.«422188_j67422396612990_3_alg».proof.Proof.Gen.ReferenceIdeal.Read
import proofs.«422188_j67422396612990_3_alg».proof.Proof.BagNet
import proofs.«422188_j67422396612990_3_alg».proof.Proof.IndexSign
import proofs.«422188_j67422396612990_3_alg».proof.Proof.RefTail
import proofs.«422188_j67422396612990_3_alg».proof.Proof.KArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the network's output of the (agreeing) argument arrays. -/
theorem algebraic : Cert.algebraic_KernelIdeal_ReferenceIdeal := by
  intro m ρ m' ρ' hpre hagree
  refine ⟨Cert.KernelIdeal.KValue.res m, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hnn := Cert.IndexSign.nonneg _ _ _ _ _ _ _ _ _ _ _ _ _ _ _ _ _ _ _ (hpre c)
  rw [Cert.ReferenceIdeal.Read.val_main_v114_eq]
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  exact Cert.ReferenceIdeal.RefTail.result_eq _ hnn _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
